-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S4000000x2 : Shape := ⟨2, ![4000000, 2]⟩
abbrev S4000000 : Shape := ⟨1, ![4000000]⟩
abbrev S4000000x3 : Shape := ⟨2, ![4000000, 3]⟩
abbrev S1 : Shape := ⟨1, ![1]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S4000000 : S_.BroadcastsInDim S4000000 (![] : Fin 0 → Fin S4000000.rank)
  reducesTo_S4000000_S_d0 : S4000000.ReducesTo [0] S_
  bcast_S_S4000000x3 : S_.BroadcastsInDim S4000000x3 (![] : Fin 0 → Fin S4000000x3.rank)
  reducesTo_S4000000x3_S_d0_1 : S4000000x3.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_arg9 : FVec F S1 .f32) (main_arg10 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S4000000 .f32) (main_arg6 : FVec F S4000000x3 .f32) (main_arg7 : FVec F S1000000x3 .f32) (main_arg8 : FVec F S1 .f32) (main_arg9 : FVec F S1 .f32) (main_arg10 : FVec F S1 .f32) (main_v13 : IVec S_ 1) (main_v16 : IVec S4000000 1) : IVec S_ 1 :=
  let main_c_5 : IVec S_ 1 := constantI S_ 1 1#1
  let main_v17 : IVec S_ 1 := (fun x v => Host.reduce IntOp.andi x v reducesTo_S4000000_S_d0 h_S_) main_v16 main_c_5
  let main_v18 : IVec S_ 1 := andi main_v13 main_v17
  let main_v19 : FVec F S4000000 .f32 := Host.absf main_arg5
  let main_cst_6 : FVec F S_ .f32 := constant S_ .f32 0x7F800000#32
  let main_v20 : FVec F S4000000 .f32 := broadcastInDim S4000000 ![] bcast_S_S4000000 main_cst_6
  let main_v21 : IVec S4000000 1 := cmpf .olt main_v19 main_v20
  let main_c_7 : IVec S_ 1 := constantI S_ 1 1#1
  let main_v22 : IVec S_ 1 := (fun x v => Host.reduce IntOp.andi x v reducesTo_S4000000_S_d0 h_S_) main_v21 main_c_7
  let main_v23 : IVec S_ 1 := andi main_v18 main_v22
  let main_v24 : FVec F S4000000x3 .f32 := Host.absf main_arg6
  let main_cst_8 : FVec F S_ .f32 := constant S_ .f32 0x7F800000#32
  let main_v25 : FVec F S4000000x3 .f32 := broadcastInDim S4000000x3 ![] bcast_S_S4000000x3 main_cst_8
  let main_v26 : IVec S4000000x3 1 := cmpf .olt main_v24 main_v25
  let main_c_9 : IVec S_ 1 := constantI S_ 1 1#1
  let main_v27 : IVec S_ 1 := (fun x v => Host.reduce IntOp.andi x v reducesTo_S4000000x3_S_d0_1 h_S_) main_v26 main_c_9
  let main_v28 : IVec S_ 1 := andi main_v23 main_v27
  let main_v29 : FVec F S1000000x3 .f32 := Host.absf main_arg7
  let main_cst_10 : FVec F S_ .f32 := constant S_ .f32 0x7F800000#32
  let main_v30 : FVec F S1000000x3 .f32 := broadcastInDim S1000000x3 ![] bcast_S_S1000000x3 main_cst_10
  let main_v31 : IVec S1000000x3 1 := cmpf .olt main_v29 main_v30
  let main_c_11 : IVec S_ 1 := constantI S_ 1 1#1
  let main_v32 : IVec S_ 1 := (fun x v => Host.reduce IntOp.andi x v reducesTo_S1000000x3_S_d0_1 h_S_) main_v31 main_c_11
  let main_v33 : IVec S_ 1 := andi main_v28 main_v32
  fn_part2 (F := F) main_arg8 main_arg9 main_arg10 main_v33

def fn {F : FTy → Type} [FloatOps F] (main_arg0 : FVec F S1000000x3 .f32) (main_arg1 : IVec S4000000x2 32) (main_arg2 : FVec F S4000000 .f32) (main_arg3 : FVec F S4000000 .f32) (main_arg4 : FVec F S4000000 .f32) (main_arg5 : FVec F S4000000 .f32) (main_arg6 : FVec F S4000000x3 .f32) (main_arg7 : FVec F S1000000x3 .f32) (main_arg8 : FVec F S1 .f32) (main_arg9 : FVec F S1 .f32) (main_arg10 : FVec F S1 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S4000000 .f32 := Host.absf main_arg2
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S4000000 .f32 := Host.absf main_arg3
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S4000000 .f32 := Host.absf main_arg4
  let main_cst_4 : FVec F S_ .f32 := constant S_ .f32 0x7F800000#32
  let main_v15 : FVec F S4000000 .f32 := broadcastInDim S4000000 ![] bcast_S_S4000000 main_cst_4
  let main_v16 : IVec S4000000 1 := cmpf .olt main_v14 main_v15
  fn_part1 (F := F) main_arg5 main_arg6 main_arg7 main_arg8 main_arg9 main_arg10 main_v13 main_v16
-- ==== Kernel.lean ====
abbrev S1000000x3 : Shape := ⟨2, ![1000000, 3]⟩
abbrev S4000000x2 : Shape := ⟨2, ![4000000, 2]⟩
abbrev S4000000 : Shape := ⟨1, ![4000000]⟩
abbrev S4000000x3 : Shape := ⟨2, ![4000000, 3]⟩
abbrev S1 : Shape := ⟨1, ![1]⟩
abbrev S3 : Shape := ⟨1, ![3]⟩
abbrev S1x3 : Shape := ⟨2, ![1, 3]⟩
abbrev S4000000x1 : Shape := ⟨2, ![4000000, 1]⟩
abbrev S1000000x1 : Shape := ⟨2, ![1000000, 1]⟩
abbrev S1000000 : Shape := ⟨1, ![1000000]⟩
abbrev S_ : Shape := ⟨0, ![]⟩
abbrev S1x4000000 : Shape := ⟨2, ![1, 4000000]⟩
abbrev S1x1 : Shape := ⟨2, ![1, 1]⟩
abbrev S1x16000 : Shape := ⟨2, ![1, 16000]⟩
abbrev S10000x3 : Shape := ⟨2, ![10000, 3]⟩
abbrev S10000 : Shape := ⟨1, ![10000]⟩
abbrev S10000x1 : Shape := ⟨2, ![10000, 1]⟩

abbrev nBuf : Space → Nat
  | .hbm => 106
  | .vmem => 32
  | .smem => 0
  | _ => 0

abbrev bufTy : (tb : Table) → Fin (tcTables nBuf tb) → BufTy
  | .hbm, ⟨0, _⟩ => ⟨S1000000x3, .f32⟩
  | .hbm, ⟨1, _⟩ => ⟨S4000000x2, .i32⟩
  | .hbm, ⟨2, _⟩ => ⟨S4000000, .f32⟩
  | .hbm, ⟨3, _⟩ => ⟨S4000000, .f32⟩
  | .hbm, ⟨4, _⟩ => ⟨S4000000, .f32⟩
  | .hbm, ⟨5, _⟩ => ⟨S4000000, .f32⟩
  | .hbm, ⟨6, _⟩ => ⟨S4000000x3, .f32⟩
  | .hbm, ⟨7, _⟩ => ⟨S1000000x3, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S3, .f32⟩
  | .hbm, ⟨12, _⟩ => ⟨S1x3, .f32⟩
  | .hbm, ⟨13, _⟩ => ⟨S1000000x3, .f32⟩
  | .hbm, ⟨14, _⟩ => ⟨S1000000x3, .f32⟩
  | .hbm, ⟨15, _⟩ => ⟨S4000000x1, .i32⟩
  | .hbm, ⟨16, _⟩ => ⟨S4000000, .i32⟩
  | .hbm, ⟨17, _⟩ => ⟨S4000000x1, .i32⟩
  | .hbm, ⟨18, _⟩ => ⟨S4000000, .i32⟩
  | .hbm, ⟨19, _⟩ => ⟨S1000000x1, .f32⟩
  | .hbm, ⟨20, _⟩ => ⟨S1000000, .f32⟩
  | .hbm, ⟨21, _⟩ => ⟨S1000000x1, .f32⟩
  | .hbm, ⟨22, _⟩ => ⟨S1000000, .f32⟩
  | .hbm, ⟨23, _⟩ => ⟨S1000000x1, .f32⟩
  | .hbm, ⟨24, _⟩ => ⟨S1000000, .f32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000, .f32⟩
  | .hbm, ⟨34, _⟩ => ⟨S1x4000000, .f32⟩
  | .hbm, ⟨35, _⟩ => ⟨S_, .i32⟩
  | .hbm, ⟨36, _⟩ => ⟨S4000000, .i32⟩
  | .hbm, ⟨37, _⟩ => ⟨S4000000, .i1⟩
  | .hbm, ⟨38, _⟩ => ⟨S_, .i32⟩
  | .hbm, ⟨39, _⟩ => ⟨S4000000, .i32⟩
  | .hbm, ⟨40, _⟩ => ⟨S4000000, .i32⟩
  | .hbm, ⟨41, _⟩ => ⟨S4000000, .i32⟩
  | .hbm, ⟨42, _⟩ => ⟨S4000000x1, .i32⟩
  | .hbm, ⟨43, _⟩ => ⟨S4000000, .f32⟩
  | .hbm, ⟨44, _⟩ => ⟨S1x4000000, .f32⟩
  | .hbm, ⟨45, _⟩ => ⟨S_, .i32⟩
  | .hbm, ⟨46, _⟩ => ⟨S4000000, .i32⟩
  | .hbm, ⟨47, _⟩ => ⟨S4000000, .i1⟩
  | .hbm, ⟨48, _⟩ => ⟨S_, .i32⟩
  | .hbm, ⟨49, _⟩ => ⟨S4000000, .i32⟩
  | .hbm, ⟨50, _⟩ => ⟨S4000000, .i32⟩
  | .hbm, ⟨51, _⟩ => ⟨S4000000, .i32⟩
  | .hbm, ⟨52, _⟩ => ⟨S4000000x1, .i32⟩
  | .hbm, ⟨53, _⟩ => ⟨S4000000, .f32⟩
  | .hbm, ⟨54, _⟩ => ⟨S1x4000000, .f32⟩
  | .hbm, ⟨55, _⟩ => ⟨S_, .i32⟩
  | .hbm, ⟨56, _⟩ => ⟨S4000000, .i32⟩
  | .hbm, ⟨57, _⟩ => ⟨S4000000, .i1⟩
  | .hbm, ⟨58, _⟩ => ⟨S_, .i32⟩
  | .hbm, ⟨59, _⟩ => ⟨S4000000, .i32⟩
  | .hbm, ⟨60, _⟩ => ⟨S4000000, .i32⟩
  | .hbm, ⟨61, _⟩ => ⟨S4000000, .i32⟩
  | .hbm, ⟨62, _⟩ => ⟨S4000000x1, .i32⟩
  | .hbm, ⟨63, _⟩ => ⟨S4000000, .f32⟩
  | .hbm, ⟨64, _⟩ => ⟨S1x4000000, .f32⟩
  | .hbm, ⟨65, _⟩ => ⟨S_, .i32⟩
  | .hbm, ⟨66, _⟩ => ⟨S4000000, .i32⟩
  | .hbm, ⟨67, _⟩ => ⟨S4000000, .i1⟩
  | .hbm, ⟨68, _⟩ => ⟨S_, .i32⟩
  | .hbm, ⟨69, _⟩ => ⟨S4000000, .i32⟩
  | .hbm, ⟨70, _⟩ => ⟨S4000000, .i32⟩
  | .hbm, ⟨71, _⟩ => ⟨S4000000, .i32⟩
  | .hbm, ⟨72, _⟩ => ⟨S4000000x1, .i32⟩
  | .hbm, ⟨73, _⟩ => ⟨S4000000, .f32⟩
  | .hbm, ⟨74, _⟩ => ⟨S1x4000000, .f32⟩
  | .hbm, ⟨75, _⟩ => ⟨S_, .i32⟩
  | .hbm, ⟨76, _⟩ => ⟨S4000000, .i32⟩
  | .hbm, ⟨77, _⟩ => ⟨S4000000, .i1⟩
  | .hbm, ⟨78, _⟩ => ⟨S_, .i32⟩
  | .hbm, ⟨79, _⟩ => ⟨S4000000, .i32⟩
  | .hbm, ⟨80, _⟩ => ⟨S4000000, .i32⟩
  | .hbm, ⟨81, _⟩ => ⟨S4000000, .i32⟩
  | .hbm, ⟨82, _⟩ => ⟨S4000000x1, .i32⟩
  | .hbm, ⟨83, _⟩ => ⟨S4000000, .f32⟩
  | .hbm, ⟨84, _⟩ => ⟨S1x4000000, .f32⟩
  | .hbm, ⟨85, _⟩ => ⟨S4000000x1, .f32⟩
  | .hbm, ⟨86, _⟩ => ⟨S4000000, .f32⟩
  | .hbm, ⟨87, _⟩ => ⟨S1x4000000, .f32⟩
  | .hbm, ⟨88, _⟩ => ⟨S4000000x1, .f32⟩
  | .hbm, ⟨89, _⟩ => ⟨S4000000, .f32⟩
  | .hbm, ⟨90, _⟩ => ⟨S1x4000000, .f32⟩
  | .hbm, ⟨91, _⟩ => ⟨S1x4000000, .f32⟩
  | .hbm, ⟨92, _⟩ => ⟨S1x4000000, .f32⟩
  | .hbm, ⟨93, _⟩ => ⟨S1x4000000, .f32⟩
  | .hbm, ⟨94, _⟩ => ⟨S1x4000000, .f32⟩
  | .hbm, ⟨95, _⟩ => ⟨S1x1, .f32⟩
  | .hbm, ⟨96, _⟩ => ⟨S_, .f32⟩
  | .hbm, ⟨97, _⟩ => ⟨S1x1, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .local _ .vmem, ⟨0, _⟩ => ⟨S1x16000, .f32⟩
  | .local _ .vmem, ⟨1, _⟩ => ⟨S1x16000, .f32⟩
  | .local _ .vmem, ⟨2, _⟩ => ⟨S1x16000, .f32⟩
  | .local _ .vmem, ⟨3, _⟩ => ⟨S1x16000, .f32⟩
  | .local _ .vmem, ⟨4, _⟩ => ⟨S1x16000, .f32⟩
  | .local _ .vmem, ⟨5, _⟩ => ⟨S1x16000, .f32⟩
  | .local _ .vmem, ⟨6, _⟩ => ⟨S1x16000, .f32⟩
  | .local _ .vmem, ⟨7, _⟩ => ⟨S1x16000, .f32⟩
  | .local _ .vmem, ⟨8, _⟩ => ⟨S1x16000, .f32⟩
  | .local _ .vmem, ⟨9, _⟩ => ⟨S1x16000, .f32⟩
  | .local _ .vmem, ⟨10, _⟩ => ⟨S1x16000, .f32⟩
  | .local _ .vmem, ⟨11, _⟩ => ⟨S1x16000, .f32⟩
  | .local _ .vmem, ⟨12, _⟩ => ⟨S1x16000, .f32⟩
  | .local _ .vmem, ⟨13, _⟩ => ⟨S1x16000, .f32⟩
  | .local _ .vmem, ⟨14, _⟩ => ⟨S1x16000, .f32⟩
  | .local _ .vmem, ⟨15, _⟩ => ⟨S1x16000, .f32⟩
  | .local _ .vmem, ⟨16, _⟩ => ⟨S1x16000, .f32⟩
  | .local _ .vmem, ⟨17, _⟩ => ⟨S1x16000, .f32⟩
  | .local _ .vmem, ⟨18, _⟩ => ⟨S1x16000, .f32⟩
  | .local _ .vmem, ⟨19, _⟩ => ⟨S1x16000, .f32⟩
  | .local _ .vmem, ⟨20, _⟩ => ⟨S1x16000, .f32⟩
  | .local _ .vmem, ⟨21, _⟩ => ⟨S1x16000, .f32⟩
  | .local _ .vmem, ⟨22, _⟩ => ⟨S1x16000, .f32⟩
  | .local _ .vmem, ⟨23, _⟩ => ⟨S1x16000, .f32⟩
  | .local _ .vmem, ⟨24, _⟩ => ⟨S1x1, .f32⟩
  | .local _ .vmem, ⟨25, _⟩ => ⟨S1x1, .f32⟩
  | .local _ .vmem, ⟨26, _⟩ => ⟨S10000x3, .f32⟩
  | .local _ .vmem, ⟨27, _⟩ => ⟨S10000x3, .f32⟩
  | .local _ .vmem, ⟨28, _⟩ => ⟨S10000x3, .f32⟩
  | .local _ .vmem, ⟨29, _⟩ => ⟨S10000x3, .f32⟩
  | .local _ .vmem, ⟨30, _⟩ => ⟨S1x1, .f32⟩
  | .local _ .vmem, ⟨31, _⟩ => ⟨S1x1, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst : Ref sig .tc := ⟨.hbm, 103, rfl⟩
abbrev main_v80 : Ref sig .tc := ⟨.hbm, 104, rfl⟩
abbrev main_v81 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_scratch0 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29

abbrev nD : Nat := 1
abbrev τ : Topo := Topo.v7x

variable {F : FTy → Type} [FloatOps F]

abbrev grid0 : Pipeline.Grid := ⟨1, ![250], ![false]⟩

def k0_cond2 (i : grid0.Coords) : BitVec 1 :=
  let arg0 : BitVec 32 := BitVec.ofNat 32 (i 0).val
  let c249_i32 : BitVec 32 := 249#32
  let v93 : BitVec 1 := Scalar.cmpi .eq arg0 c249_i32
  let v94 : BitVec 32 := Scalar.extui v93
  let c0_i32_38 : BitVec 32 := 0#32
  let v95 : BitVec 1 := Scalar.cmpi .ne v94 c0_i32_38
  v95

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16000 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![100], ![false]⟩

def k1_cond2 (i : grid1.Coords) : BitVec 1 :=
  let arg0 : BitVec 32 := BitVec.ofNat 32 (i 0).val
  let c99_i32 : BitVec 32 := 99#32
  let v16 : BitVec 1 := Scalar.cmpi .eq arg0 c99_i32
  let v17 : BitVec 32 := Scalar.extui v16
  let c0_i32_9 : BitVec 32 := 0#32
  let v18 : BitVec 1 := Scalar.cmpi .ne v17 c0_i32_9
  v18

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  concatenates_S1_S1_S1_S3_d0 : Shape.Concatenates [S1, S1, S1] S3 0
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  slices_S1000000x3_S1000000x1_0_2 : S1000000x3.Slices ![0, 2] S1000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  shapeCasts_S4000000_S1x4000000 : S4000000.ShapeCasts S1x4000000
  slices_S4000000x3_S4000000x1_0_0 : S4000000x3.Slices ![0, 0] S4000000x1
  slices_S4000000x3_S4000000x1_0_2 : S4000000x3.Slices ![0, 2] S4000000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  reduces_S1x16000_S1 : S1x16000.Reduces [1] S1
  shapeCasts_S1_S1x1 : S1.ShapeCasts S1x1
  shapeCasts_S1x1_S_ : S1x1.ShapeCasts S_
  inb_S10000x3_S10000x3_0_0 : ∀ a, (![0, 0] : Fin 2 → Nat) a + S10000x3.size a ≤ S10000x3.size a
  h_S10000x3 : 0 < S10000x3.numel
  shapeCasts_S10000x3_S10000x3 : S10000x3.ShapeCasts S10000x3
  reduces_S10000x3_S10000 : S10000x3.Reduces [1] S10000
  shapeCasts_S10000_S10000x1 : S10000.ShapeCasts S10000x1
  reduces_S10000x1_S1 : S10000x1.Reduces [0] S1
  shapeCasts_S1_S_ : S1.ShapeCasts S_
  gather_S1000000_S4000000x1_S4000000_n_0_n_n_0_1_1_wf : GatherDims.WF S1000000 S4000000x1 S4000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16000.size a ≤ S1x4000000.size a
  hwx0_0 : ∀ i : grid0.Coords, EltTy.bits .f32 = 32 ∨ (Rect.block (s := S1x4000000) S1x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16000.size a ≤ S1x4000000.size a
  hwx0_1 : ∀ i : grid0.Coords, EltTy.bits .f32 = 32 ∨ (Rect.block (s := S1x4000000) S1x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16000.size a ≤ S1x4000000.size a
  hwx0_2 : ∀ i : grid0.Coords, EltTy.bits .f32 = 32 ∨ (Rect.block (s := S1x4000000) S1x16000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16000.size a ≤ S1x4000000.size a
  hwx0_3 : ∀ i : grid0.Coords, EltTy.bits .f32 = 32 ∨ (Rect.block (s := S1x4000000) S1x16000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16000.size a ≤ S1x4000000.size a
  hwx0_4 : ∀ i : grid0.Coords, EltTy.bits .f32 = 32 ∨ (Rect.block (s := S1x4000000) S1x16000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16000.size a ≤ S1x4000000.size a
  hwx0_5 : ∀ i : grid0.Coords, EltTy.bits .f32 = 32 ∨ (Rect.block (s := S1x4000000) S1x16000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16000.size a ≤ S1x4000000.size a
  hwx0_6 : ∀ i : grid0.Coords, EltTy.bits .f32 = 32 ∨ (Rect.block (s := S1x4000000) S1x16000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16000.size a ≤ S1x4000000.size a
  hwx0_7 : ∀ i : grid0.Coords, EltTy.bits .f32 = 32 ∨ (Rect.block (s := S1x4000000) S1x16000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16000.size a ≤ S1x4000000.size a
  hwx0_8 : ∀ i : grid0.Coords, EltTy.bits .f32 = 32 ∨ (Rect.block (s := S1x4000000) S1x16000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16000.size a ≤ S1x4000000.size a
  hwx0_9 : ∀ i : grid0.Coords, EltTy.bits .f32 = 32 ∨ (Rect.block (s := S1x4000000) S1x16000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x16000.size a ≤ S1x4000000.size a
  hwx0_10 : ∀ i : grid0.Coords, EltTy.bits .f32 = 32 ∨ (Rect.block (s := S1x4000000) S1x16000.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x16000.size a ≤ S1x4000000.size a
  hwx0_11 : ∀ i : grid0.Coords, EltTy.bits .f32 = 32 ∨ (Rect.block (s := S1x4000000) S1x16000.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x3.size a ≤ S1000000x3.size a
  hwx1_0 : ∀ i : grid1.Coords, EltTy.bits .f32 = 32 ∨ (Rect.block (s := S1000000x3) S10000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x3.size a ≤ S1000000x3.size a
  hwx1_1 : ∀ i : grid1.Coords, EltTy.bits .f32 = 32 ∨ (Rect.block (s := S1000000x3) S10000x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def gather_S1000000_S4000000x1_S4000000_n_0_n_n_0_1_1 : GatherDims S1000000 S4000000x1 S4000000 where
  offsetDims := []
  collapsedSliceDims := [0]
  operandBatchingDims := []
  startIndicesBatchingDims := []
  startIndexMap := [0]
  indexVectorDim := 1
  sliceSizes := ![1]
  wf := gather_S1000000_S4000000x1_S4000000_n_0_n_n_0_1_1_wf

abbrev win0_0 : Pipeline.Window sig grid0 :=
  Pipeline.Window.ofSpec (Memref.whole main_v21) S1x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x16000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x16000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v53) S1x16000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v61) S1x16000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v64) S1x16000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v67) S1x16000.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v68) S1x16000.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v69) S1x16000.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v70) S1x16000.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v71) S1x16000.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v72) S1x1.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

abbrev win1_0 : Pipeline.Window sig grid1 :=
  Pipeline.Window.ofSpec (Memref.whole main_arg7) S10000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v74) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S1000000x3 : Shape := ⟨2, ![1000000, 3]⟩
abbrev S4000000x2 : Shape := ⟨2, ![4000000, 2]⟩
abbrev S4000000 : Shape := ⟨1, ![4000000]⟩
abbrev S4000000x3 : Shape := ⟨2, ![4000000, 3]⟩
abbrev S1 : Shape := ⟨1, ![1]⟩
abbrev S3 : Shape := ⟨1, ![3]⟩
abbrev S1x3 : Shape := ⟨2, ![1, 3]⟩
abbrev S4000000x1 : Shape := ⟨2, ![4000000, 1]⟩
abbrev S_ : Shape := ⟨0, ![]⟩

abbrev nBuf : Space → Nat
  | .hbm => 138
  | .vmem => 0
  | .smem => 0
  | _ => 0

abbrev hbmTy0_0 (i : Nat) : BufTy := match i % 128 with
  | 0 => ⟨S1000000x3, .f32⟩
  | 1 => ⟨S4000000x2, .i32⟩
  | 2 => ⟨S4000000, .f32⟩
  | 3 => ⟨S4000000, .f32⟩
  | 4 => ⟨S4000000, .f32⟩
  | 5 => ⟨S4000000, .f32⟩
  | 6 => ⟨S4000000x3, .f32⟩
  | 7 => ⟨S1000000x3, .f32⟩
  | 8 => ⟨S1, .f32⟩
  | 9 => ⟨S1, .f32⟩
  | 10 => ⟨S1, .f32⟩
  | 11 => ⟨S3, .f32⟩
  | 12 => ⟨S1x3, .f32⟩
  | 13 => ⟨S1000000x3, .f32⟩
  | 14 => ⟨S1000000x3, .f32⟩
  | 15 => ⟨S4000000x1, .i32⟩
  | 16 => ⟨S4000000, .i32⟩
  | 17 => ⟨S4000000x1, .i32⟩
  | 18 => ⟨S4000000, .i32⟩
  | 19 => ⟨S_, .i32⟩
  | 20 => ⟨S4000000, .i32⟩
  | 21 => ⟨S4000000, .i1⟩
  | 22 => ⟨S_, .i32⟩
  | 23 => ⟨S4000000, .i32⟩
  | 24 => ⟨S4000000, .i32⟩
  | 25 => ⟨S4000000, .i32⟩
  | 26 => ⟨S4000000x1, .i32⟩
  | 27 => ⟨S4000000x3, .f32⟩
  | 28 => ⟨S_, .i32⟩
  | 29 => ⟨S4000000, .i32⟩
  | 30 => ⟨S4000000, .i1⟩
  | 31 => ⟨S_, .i32⟩
  | 32 => ⟨S4000000, .i32⟩
  | 33 => ⟨S4000000, .i32⟩
  | 34 => ⟨S4000000, .i32⟩
  | 35 => ⟨S4000000x1, .i32⟩
  | 36 => ⟨S4000000x3, .f32⟩
  | 37 => ⟨S4000000x1, .f32⟩
  | 38 => ⟨S4000000, .f32⟩
  | 39 => ⟨S4000000x1, .f32⟩
  | 40 => ⟨S4000000, .f32⟩
  | 41 => ⟨S4000000, .f32⟩
  | 42 => ⟨S4000000, .f32⟩
  | 43 => ⟨S4000000x1, .f32⟩
  | 44 => ⟨S4000000, .f32⟩
  | 45 => ⟨S4000000, .f32⟩
  | 46 => ⟨S4000000x1, .f32⟩
  | 47 => ⟨S4000000, .f32⟩
  | 48 => ⟨S4000000, .f32⟩
  | 49 => ⟨S4000000, .f32⟩
  | 50 => ⟨S4000000, .f32⟩
  | 51 => ⟨S4000000x1, .f32⟩
  | 52 => ⟨S4000000, .f32⟩
  | 53 => ⟨S4000000, .f32⟩
  | 54 => ⟨S4000000x1, .f32⟩
  | 55 => ⟨S4000000, .f32⟩
  | 56 => ⟨S4000000, .f32⟩
  | 57 => ⟨S4000000, .f32⟩
  | 58 => ⟨S4000000x1, .f32⟩
  | 59 => ⟨S4000000, .f32⟩
  | 60 => ⟨S4000000x1, .f32⟩
  | 61 => ⟨S4000000, .f32⟩
  | 62 => ⟨S4000000, .f32⟩
  | 63 => ⟨S4000000x1, .f32⟩
  | 64 => ⟨S4000000, .f32⟩
  | 65 => ⟨S4000000, .f32⟩
  | 66 => ⟨S4000000, .f32⟩
  | 67 => ⟨S4000000, .f32⟩
  | 68 => ⟨S4000000x1, .f32⟩
  | 69 => ⟨S4000000, .f32⟩
  | 70 => ⟨S4000000, .f32⟩
  | 71 => ⟨S4000000x1, .f32⟩
  | 72 => ⟨S4000000, .f32⟩
  | 73 => ⟨S4000000, .f32⟩
  | 74 => ⟨S4000000, .f32⟩
  | 75 => ⟨S4000000x1, .f32⟩
  | 76 => ⟨S4000000, .f32⟩
  | 77 => ⟨S4000000, .f32⟩
  | 78 => ⟨S4000000, .f32⟩
  | 79 => ⟨S_, .f32⟩
  | 80 => ⟨S4000000, .f32⟩
  | 81 => ⟨S4000000, .f32⟩
  | 82 => ⟨S4000000, .f32⟩
  | 83 => ⟨S4000000, .f32⟩
  | 84 => ⟨S4000000, .f32⟩
  | 85 => ⟨S_, .f32⟩
  | 86 => ⟨S4000000, .f32⟩
  | 87 => ⟨S4000000, .f32⟩
  | 88 => ⟨S4000000, .f32⟩
  | 89 => ⟨S4000000, .f32⟩
  | 90 => ⟨S_, .f32⟩
  | 91 => ⟨S4000000, .f32⟩
  | 92 => ⟨S4000000, .f32⟩
  | 93 => ⟨S4000000, .f32⟩
  | 94 => ⟨S_, .f32⟩
  | 95 => ⟨S4000000, .f32⟩
  | 96 => ⟨S4000000, .f32⟩
  | 97 => ⟨S4000000, .f32⟩
  | 98 => ⟨S_, .f32⟩
  | 99 => ⟨S4000000, .f32⟩
  | 100 => ⟨S4000000, .f32⟩
  | 101 => ⟨S4000000, .f32⟩
  | 102 => ⟨S4000000, .f32⟩
  | 103 => ⟨S4000000, .f32⟩
  | 104 => ⟨S_, .f32⟩
  | 105 => ⟨S4000000, .f32⟩
  | 106 => ⟨S4000000, .f32⟩
  | 107 => ⟨S4000000, .f32⟩
  | 108 => ⟨S4000000, .f32⟩
  | 109 => ⟨S4000000, .f32⟩
  | 110 => ⟨S_, .f32⟩
  | 111 => ⟨S4000000, .f32⟩
  | 112 => ⟨S4000000, .f32⟩
  | 113 => ⟨S4000000, .f32⟩
  | 114 => ⟨S4000000, .f32⟩
  | 115 => ⟨S4000000, .f32⟩
  | 116 => ⟨S4000000, .f32⟩
  | 117 => ⟨S_, .f32⟩
  | 118 => ⟨S4000000, .f32⟩
  | 119 => ⟨S4000000, .f32⟩
  | 120 => ⟨S4000000, .f32⟩
  | 121 => ⟨S4000000, .f32⟩
  | 122 => ⟨S4000000, .f32⟩
  | 123 => ⟨S4000000, .f32⟩
  | 124 => ⟨S4000000, .f32⟩
  | 125 => ⟨S4000000, .f32⟩
  | 126 => ⟨S_, .f32⟩
  | 127 => ⟨S_, .f32⟩
  | _ => ⟨S1000000x3, .f32⟩

abbrev hbmTy0_1 (i : Nat) : BufTy := match i % 128 with
  | 0 => ⟨S1000000x3, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_3 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_4 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_5 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_6 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_7 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_8 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_9 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_10 : Ref sig .tc := ⟨.hbm, 126, rfl⟩
abbrev main_v103 : Ref sig .tc := ⟨.hbm, 127, rfl⟩
abbrev main_v104 : Ref sig .tc := ⟨.hbm, 128, rfl⟩
abbrev main_cst_11 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_12 : Ref sig .tc := ⟨.hbm, 135, rfl⟩
abbrev main_v110 : Ref sig .tc := ⟨.hbm, 136, rfl⟩
abbrev main_v111 : Ref sig .tc := ⟨.hbm, 137, rfl⟩

abbrev nD : Nat := 1
abbrev τ : Topo := Topo.v7x

variable {F : FTy → Type} [FloatOps F]

class Facts₀ : Prop where
  concatenates_S1_S1_S1_S3_d0 : Shape.Concatenates [S1, S1, S1] S3 0
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  slices_S4000000x3_S4000000x1_0_0 : S4000000x3.Slices ![0, 0] S4000000x1
  slices_S4000000x3_S4000000x1_0_2 : S4000000x3.Slices ![0, 2] S4000000x1
  slices_S4000000x3_S4000000x1_0_1 : S4000000x3.Slices ![0, 1] S4000000x1
  reducesTo_S4000000_S_d0 : S4000000.ReducesTo [0] S_
  h_S_ : 0 < S_.numel
  reducesTo_S1000000x3_S_d0_1 : S1000000x3.ReducesTo [0, 1] S_
  shapeCasts_S1_S_ : S1.ShapeCasts S_
  gather_S1000000x3_S4000000x1_S4000000x3_1_0_n_n_0_1_13_wf : GatherDims.WF S1000000x3 S4000000x1 S4000000x3 [1] [0] [] [0] [] 1 ![1, 3]

variable [Facts₀]

def gather_S1000000x3_S4000000x1_S4000000x3_1_0_n_n_0_1_13 : GatherDims S1000000x3 S4000000x1 S4000000x3 where
  offsetDims := [1]
  collapsedSliceDims := [0]
  operandBatchingDims := []
  startIndicesBatchingDims := []
  startIndexMap := [0]
  indexVectorDim := 1
  sliceSizes := ![1, 3]
  wf := gather_S1000000x3_S4000000x1_S4000000x3_1_0_n_n_0_1_13_wf

class Facts : Prop extends Facts₀ where

variable [Facts]
-- ==== Proof.Bits.R0.Shared.lean ====
/-
  First launch (the edge energy, a sum over edge tiles): what its three control cases share.
  The grid has 250 points. At point 0 the 1×1 accumulator is zeroed, at every point the tile's energy
  sum is added to it, and at point 249 the accumulator is copied to the 1×1 result block; the result
  window is idle at the other points. The twelve inputs are read tile by tile and never written.
  Everything is stated at a parameter `V`: the core's buffer contents when the launch is entered.
-/
import proofs.«151812_j63788854280708_1_alg».proof.Proof.Gen.Kernel.Launch
import proofs.«151812_j63788854280708_1_alg».proof.Proof.Gen.Kernel.Skeleton
import proofs.«151812_j63788854280708_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at grid point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, for any proof data over the entry contents whose
    body leaves the block in place: the first input. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The third. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The fourth. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The fifth. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The sixth. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The seventh. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The eighth. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- The ninth. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The tenth. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- The eleventh. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- The twelfth. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The two branch conditions, in closed form over the grid -/

/-- "This is the first point": the guard of the accumulator's reset. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 250 = 0 :=
  (by decide +kernel : ∀ t : Fin grid0.N, cond0_0 (grid0.coords t) ↔ t.val % 250 = 0)

/-- "This is the last point": the guard of the copy into the result block. -/
abbrev cond0_1 (i : grid0.Coords) : Prop := k0_cond2 i = 1#1
theorem hcond0_1 : ∀ t : Fin cfg0.N, cond0_1 (grid0.coords t) ↔ t.val % 250 = 249 :=
  (by decide +kernel : ∀ t : Fin grid0.N, cond0_1 (grid0.coords t) ↔ t.val % 250 = 249)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
/-- Away from the last point the result window is idle and is not written back. -/
theorem idleAt0_12 : ∀ t : Fin cfg0.N, ¬cond0_1 (grid0.coords t) → cfg0.idle 12 (grid0.coords t) = true := by decide +kernel
theorem noFlush0_12 : ∀ t : Fin cfg0.N, ¬cond0_1 (grid0.coords t) → (cfg0.win 12).flush t = false := by decide +kernel
/-- At the last point it is live. -/
theorem liveAt0_12 : ∀ t : Fin cfg0.N, cond0_1 (grid0.coords t) → cfg0.idle 12 (grid0.coords t) = false := by decide +kernel

/-! ## The memrefs the body is called with -/

/-- The result window's one staging buffer, as a view. -/
abbrev VO0_12 : View sig .tc .vmem S1x1 .f32 := (Memref.whole cc0_stg12_0 : Memref sig .tc .vmem S1x1 .f32).view
abbrev ms0_0 (t : Fin cfg0.N) : Memref sig .tc .vmem S1x16000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16000 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16000 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x16000 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16000 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16000 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x16000 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1 .f32 := win0_12.stage (cfg0.slots t 12)
abbrev hs0_12 (t : Fin cfg0.N) : (ms0_12 t).IsWhole := hstage0_12 ((cfg0.slots t 12).cast nbuf0_12)
/-- The accumulator: a whole scoped buffer of the kernel's own, carried from point to point. -/
abbrev scM0_0 : Memref sig .tc .vmem S1x1 .f32 := Memref.whole cc0_scratch0
abbrev VS0_0 : View sig .tc .vmem S1x1 .f32 := scM0_0.view

/-- The core's other scoped buffers (the second launch's staging buffers and its accumulator), each whole at some
    contents: what the first launch's invariant carries besides its own accumulator. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The launch's invariant with the accumulator split out, owned at some contents; the other scoped buffers stay
    as they are. -/
theorem PhiA0_eq (c : Dev nD) :
    (Pipeline.ΦA spec0 c : sProp 𝕄)
      = iprop(iprop(iprop((∃ d, owns (c : Thread nD τ) scM0_0 fullShare d)) ∗ rest0 c) ∗ (∃ r, prngReg c r)) := by
  unfold Pipeline.ΦA; rw [scopedRest0_eq]; simp only [scM0_0, owns_whole]; try rfl

end Cert.Kernel.Frame

end
-- ==== Proof.Bits.R0.RunA.lean ====
/-
  First launch, first grid point: the accumulator is zeroed, then the tile's energy sum is added to it;
  the result block is not touched. The accumulator may hold anything beforehand.
-/
import proofs.«151812_j63788854280708_1_alg».proof.Proof.Bits.R0.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the first point: on whole memrefs, the twelve inputs at their contents, the result block at
    contents handed back untouched, the accumulator at anything, it ends with the accumulator at the pieces found. -/
noncomputable def kernelRun0_A (c : Dev nD) (i : grid0.Coords) (arg1 : Memref sig .tc .vmem S1x16000 .f32) (harg1 : arg1.IsWhole) (arg2 : Memref sig .tc .vmem S1x16000 .f32) (harg2 : arg2.IsWhole) (arg3 : Memref sig .tc .vmem S1x16000 .f32) (harg3 : arg3.IsWhole) (arg4 : Memref sig .tc .vmem S1x16000 .f32) (harg4 : arg4.IsWhole) (arg5 : Memref sig .tc .vmem S1x16000 .f32) (harg5 : arg5.IsWhole) (arg6 : Memref sig .tc .vmem S1x16000 .f32) (harg6 : arg6.IsWhole) (arg7 : Memref sig .tc .vmem S1x16000 .f32) (harg7 : arg7.IsWhole) (arg8 : Memref sig .tc .vmem S1x16000 .f32) (harg8 : arg8.IsWhole) (arg9 : Memref sig .tc .vmem S1x16000 .f32) (harg9 : arg9.IsWhole) (arg10 : Memref sig .tc .vmem S1x16000 .f32) (harg10 : arg10.IsWhole) (arg11 : Memref sig .tc .vmem S1x16000 .f32) (harg11 : arg11.IsWhole) (arg12 : Memref sig .tc .vmem S1x16000 .f32) (harg12 : arg12.IsWhole) (arg13 : Memref sig .tc .vmem S1x1 .f32) (harg13 : arg13.IsWhole) (arg14 : Memref sig .tc .vmem S1x1 .f32) (harg14 : arg14.IsWhole) (hc0 : cond0_0 i) (hc1 : ¬cond0_1 i)
    (x0 : Vec F S1x16000 .f32) (x1 : Vec F S1x16000 .f32) (x2 : Vec F S1x16000 .f32) (x3 : Vec F S1x16000 .f32) (x4 : Vec F S1x16000 .f32) (x5 : Vec F S1x16000 .f32) (x6 : Vec F S1x16000 .f32) (x7 : Vec F S1x16000 .f32) (x8 : Vec F S1x16000 .f32) (x9 : Vec F S1x16000 .f32) (x10 : Vec F S1x16000 .f32) (x11 : Vec F S1x16000 .f32) :
    Σ' (L12 : List (View.Piece (Elt F) S1x1 .f32)), { LS0 : List (View.Piece (Elt F) S1x1 .f32) //
      ∀ (xi12 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ f, arg14.view.loc (c : Thread nD τ) ↦[arg14.view.set]{fullShare} arg14.view.writes (Elt F) f LS0)) -∗ K ⟨⟩))
          ⊢ wp frame (wpE (defs₀ (F := F)) Variants.none c none) E (cc0__edge_energy_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], ?_, fun xi12 E K => ?run⟩
  case run =>
    simp only [cc0__edge_energy_kernel_eq_skeleton]; unfold cc0__edge_energy_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexists _; iexact HS0

end Cert.Kernel.Frame

end
-- ==== Proof.Bits.R0.RunB.lean ====
/-
  First launch, a middle grid point: the tile's energy sum is added to the accumulator, which enters at
  what the point before left; the result block is not touched.
-/
import proofs.«151812_j63788854280708_1_alg».proof.Proof.Bits.R0.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a middle point: the accumulator enters at `xs0` and ends at the pieces found. -/
noncomputable def kernelRun0_B (c : Dev nD) (i : grid0.Coords) (arg1 : Memref sig .tc .vmem S1x16000 .f32) (harg1 : arg1.IsWhole) (arg2 : Memref sig .tc .vmem S1x16000 .f32) (harg2 : arg2.IsWhole) (arg3 : Memref sig .tc .vmem S1x16000 .f32) (harg3 : arg3.IsWhole) (arg4 : Memref sig .tc .vmem S1x16000 .f32) (harg4 : arg4.IsWhole) (arg5 : Memref sig .tc .vmem S1x16000 .f32) (harg5 : arg5.IsWhole) (arg6 : Memref sig .tc .vmem S1x16000 .f32) (harg6 : arg6.IsWhole) (arg7 : Memref sig .tc .vmem S1x16000 .f32) (harg7 : arg7.IsWhole) (arg8 : Memref sig .tc .vmem S1x16000 .f32) (harg8 : arg8.IsWhole) (arg9 : Memref sig .tc .vmem S1x16000 .f32) (harg9 : arg9.IsWhole) (arg10 : Memref sig .tc .vmem S1x16000 .f32) (harg10 : arg10.IsWhole) (arg11 : Memref sig .tc .vmem S1x16000 .f32) (harg11 : arg11.IsWhole) (arg12 : Memref sig .tc .vmem S1x16000 .f32) (harg12 : arg12.IsWhole) (arg13 : Memref sig .tc .vmem S1x1 .f32) (harg13 : arg13.IsWhole) (arg14 : Memref sig .tc .vmem S1x1 .f32) (harg14 : arg14.IsWhole) (hc0 : ¬cond0_0 i) (hc1 : ¬cond0_1 i)
    (x0 : Vec F S1x16000 .f32) (x1 : Vec F S1x16000 .f32) (x2 : Vec F S1x16000 .f32) (x3 : Vec F S1x16000 .f32) (x4 : Vec F S1x16000 .f32) (x5 : Vec F S1x16000 .f32) (x6 : Vec F S1x16000 .f32) (x7 : Vec F S1x16000 .f32) (x8 : Vec F S1x16000 .f32) (x9 : Vec F S1x16000 .f32) (x10 : Vec F S1x16000 .f32) (x11 : Vec F S1x16000 .f32) (xs0 : Vec F S1x1 .f32) :
    Σ' (L12 : List (View.Piece (Elt F) S1x1 .f32)), { LS0 : List (View.Piece (Elt F) S1x1 .f32) //
      ∀ (xi12 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ f, arg14.view.loc (c : Thread nD τ) ↦[arg14.view.set]{fullShare} arg14.view.writes (Elt F) f LS0)) -∗ K ⟨⟩))
          ⊢ wp frame (wpE (defs₀ (F := F)) Variants.none c none) E (cc0__edge_energy_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], ?_, fun xi12 E K => ?run⟩
  case run =>
    simp only [cc0__edge_energy_kernel_eq_skeleton]; unfold cc0__edge_energy_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexists _; iexact HS0

end Cert.Kernel.Frame

end
-- ==== Proof.Bits.R0.RunC.lean ====
/-
  First launch, last grid point: the tile's energy sum is added to the accumulator, which enters at what
  the point before left, and the accumulator is then copied into the result block.
-/
import proofs.«151812_j63788854280708_1_alg».proof.Proof.Bits.R0.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the last point: the accumulator enters at `xs0`; both it and the result block end at the
    pieces found. -/
noncomputable def kernelRun0_C (c : Dev nD) (i : grid0.Coords) (arg1 : Memref sig .tc .vmem S1x16000 .f32) (harg1 : arg1.IsWhole) (arg2 : Memref sig .tc .vmem S1x16000 .f32) (harg2 : arg2.IsWhole) (arg3 : Memref sig .tc .vmem S1x16000 .f32) (harg3 : arg3.IsWhole) (arg4 : Memref sig .tc .vmem S1x16000 .f32) (harg4 : arg4.IsWhole) (arg5 : Memref sig .tc .vmem S1x16000 .f32) (harg5 : arg5.IsWhole) (arg6 : Memref sig .tc .vmem S1x16000 .f32) (harg6 : arg6.IsWhole) (arg7 : Memref sig .tc .vmem S1x16000 .f32) (harg7 : arg7.IsWhole) (arg8 : Memref sig .tc .vmem S1x16000 .f32) (harg8 : arg8.IsWhole) (arg9 : Memref sig .tc .vmem S1x16000 .f32) (harg9 : arg9.IsWhole) (arg10 : Memref sig .tc .vmem S1x16000 .f32) (harg10 : arg10.IsWhole) (arg11 : Memref sig .tc .vmem S1x16000 .f32) (harg11 : arg11.IsWhole) (arg12 : Memref sig .tc .vmem S1x16000 .f32) (harg12 : arg12.IsWhole) (arg13 : Memref sig .tc .vmem S1x1 .f32) (harg13 : arg13.IsWhole) (arg14 : Memref sig .tc .vmem S1x1 .f32) (harg14 : arg14.IsWhole) (hc0 : ¬cond0_0 i) (hc1 : cond0_1 i)
    (x0 : Vec F S1x16000 .f32) (x1 : Vec F S1x16000 .f32) (x2 : Vec F S1x16000 .f32) (x3 : Vec F S1x16000 .f32) (x4 : Vec F S1x16000 .f32) (x5 : Vec F S1x16000 .f32) (x6 : Vec F S1x16000 .f32) (x7 : Vec F S1x16000 .f32) (x8 : Vec F S1x16000 .f32) (x9 : Vec F S1x16000 .f32) (x10 : Vec F S1x16000 .f32) (x11 : Vec F S1x16000 .f32) (xs0 : Vec F S1x1 .f32) :
    Σ' (L12 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0)) -∗ K ⟨⟩))
          ⊢ wp frame (wpE (defs₀ (F := F)) Variants.none c none) E (cc0__edge_energy_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__edge_energy_kernel_eq_skeleton]; unfold cc0__edge_energy_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    iexists _; iexact HS0

end Cert.Kernel.Frame

end
-- ==== Proof.Bits.R0.Frame.lean ====
/-
  First launch (the edge energy): what the accumulator and the result block hold after each grid
  point, the proof data over the entry contents `V`, and the body's obligation at every point.
  After point 0 the accumulator holds the first tile's sum added to zero; after point n+1 it holds the
  tile's sum added to what point n left; at point 249 the result block receives the accumulator.
-/
import proofs.«151812_j63788854280708_1_alg».proof.Proof.Bits.R0.RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem N0_eq : cfg0.N = 250 := N_0

section Entry
variable (V : (c : Dev nD) → (b : Ref sig .tc) → Buf (Elt F) ((c : Thread nD τ).loc b))

/-! ## The three cases at a grid point -/

/-- The first point's run, at the point's memrefs and input blocks. -/
abbrev runA0 (c : Dev nD) (t : Fin cfg0.N) (h0 : t.val % 250 = 0) (h1 : ¬t.val % 250 = 249) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _)
    ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
/-- A middle point's run, over what the point before left in the accumulator. -/
abbrev runB0 (c : Dev nD) (t : Fin cfg0.N) (h0 : ¬t.val % 250 = 0) (h1 : ¬t.val % 250 = 249) (xs : Vec F S1x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) xs
/-- The last point's run, likewise. -/
abbrev runC0 (c : Dev nD) (t : Fin cfg0.N) (h0 : ¬t.val % 250 = 0) (h1 : t.val % 250 = 249) (xs : Vec F S1x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _)
    (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) xs

/-- Each case's stores into the accumulator tile it, so they cover it. -/
theorem scoverA0 (c : Dev nD) (t : Fin cfg0.N) (h0 : t.val % 250 = 0) (h1 : ¬t.val % 250 = 249) (y : S1x1.Idx) :
    ∃ pc ∈ (runA0 V c t h0 h1).2.1, y ∈ pc.1.set :=
  View.cover_of_tiledL (runA0 V c t h0 h1).2.1 S1x1.size (by sl_kernel_rfl) y
theorem scoverB0 (c : Dev nD) (t : Fin cfg0.N) (h0 : ¬t.val % 250 = 0) (h1 : ¬t.val % 250 = 249) (xs : Vec F S1x1 .f32) (y : S1x1.Idx) :
    ∃ pc ∈ (runB0 V c t h0 h1 xs).2.1, y ∈ pc.1.set :=
  View.cover_of_tiledL (runB0 V c t h0 h1 xs).2.1 S1x1.size (by sl_kernel_rfl) y
theorem scoverC0 (c : Dev nD) (t : Fin cfg0.N) (h0 : ¬t.val % 250 = 0) (h1 : t.val % 250 = 249) (xs : Vec F S1x1 .f32) (y : S1x1.Idx) :
    ∃ pc ∈ (runC0 V c t h0 h1 xs).2.1, y ∈ pc.1.set :=
  View.cover_of_tiledL (runC0 V c t h0 h1 xs).2.1 S1x1.size (by sl_kernel_rfl) y
/-- The last point's store into the result block covers it. -/
theorem coverC0 (c : Dev nD) (t : Fin cfg0.N) (h0 : ¬t.val % 250 = 0) (h1 : t.val % 250 = 249) (xs : Vec F S1x1 .f32) (y : S1x1.Idx) :
    ∃ pc ∈ (runC0 V c t h0 h1 xs).1, y ∈ pc.1.set :=
  View.cover_of_tiledL (runC0 V c t h0 h1 xs).1 S1x1.size (by sl_kernel_rfl) y

/-- What each case leaves in the accumulator: its stores read back. -/
def accA0 (c : Dev nD) (t : Fin cfg0.N) (h0 : t.val % 250 = 0) (h1 : ¬t.val % 250 = 249) : Vec F S1x1 .f32 :=
  VS0_0.read (Elt F) (VS0_0.writes (Elt F) VS0_0.junk (runA0 V c t h0 h1).2.1)
def accB0 (c : Dev nD) (t : Fin cfg0.N) (h0 : ¬t.val % 250 = 0) (h1 : ¬t.val % 250 = 249) (xs : Vec F S1x1 .f32) : Vec F S1x1 .f32 :=
  VS0_0.read (Elt F) (VS0_0.writes (Elt F) VS0_0.junk (runB0 V c t h0 h1 xs).2.1)
def accC0 (c : Dev nD) (t : Fin cfg0.N) (h0 : ¬t.val % 250 = 0) (h1 : t.val % 250 = 249) (xs : Vec F S1x1 .f32) : Vec F S1x1 .f32 :=
  VS0_0.read (Elt F) (VS0_0.writes (Elt F) VS0_0.junk (runC0 V c t h0 h1 xs).2.1)
/-- What the last point leaves in the result block. -/
def outC0 (c : Dev nD) (t : Fin cfg0.N) (h0 : ¬t.val % 250 = 0) (h1 : t.val % 250 = 249) (xs : Vec F S1x1 .f32) : Vec F S1x1 .f32 :=
  VO0_12.read (Elt F) (VO0_12.writes (Elt F) VO0_12.junk (runC0 V c t h0 h1 xs).1)

/-! ## The accumulation, point by point -/

/-- The accumulator after the body at position `n`. -/
def accAt0 (c : Dev nD) : (n : ℕ) → n < cfg0.N → Vec F S1x1 .f32
  | 0, hn => accA0 V c ⟨0, hn⟩ (Nat.zero_mod _) (by show ¬(0 : ℕ) % 250 = 249; decide)
  | n + 1, hn =>
    have hN : n + 1 < 250 := lt_of_lt_of_eq hn N0_eq
    if h1 : (n + 1) % 250 = 249 then
      accC0 V c ⟨n + 1, hn⟩ (by show ¬(n + 1) % 250 = 0; omega) h1 (accAt0 c n (Nat.lt_of_succ_lt hn))
    else
      accB0 V c ⟨n + 1, hn⟩ (by show ¬(n + 1) % 250 = 0; omega) h1 (accAt0 c n (Nat.lt_of_succ_lt hn))

/-- The result block after the body at point `t`: at the last point the accumulator's copy; elsewhere the window is
    idle and this value is a placeholder nothing reads. -/
def outAt0 (c : Dev nD) (t : Fin cfg0.N) : Vec F S1x1 .f32 :=
  if h1 : t.val % 250 = 249 then
    outC0 V c t (by omega) h1 (accAt0 V c (t.val - 1) (Nat.lt_of_le_of_lt (Nat.sub_le _ _) t.isLt))
  else VO0_12.read (Elt F) VO0_12.junk

theorem accAt0_A (c : Dev nD) (t : Fin cfg0.N) (h0 : t.val % 250 = 0) (h1 : ¬t.val % 250 = 249) :
    accAt0 V c t.val t.isLt = accA0 V c t h0 h1 := by
  obtain ⟨n, hn⟩ := t
  have hN : n < 250 := lt_of_lt_of_eq hn N0_eq
  cases n with
  | zero => rfl
  | succ n => exfalso; (try dsimp only at h0); omega

theorem accAt0_B (c : Dev nD) (t : Fin cfg0.N) (h0 : ¬t.val % 250 = 0) (h1 : ¬t.val % 250 = 249) :
    accAt0 V c t.val t.isLt = accB0 V c t h0 h1 (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt0_C (c : Dev nD) (t : Fin cfg0.N) (h0 : ¬t.val % 250 = 0) (h1 : t.val % 250 = 249) :
    accAt0 V c t.val t.isLt = accC0 V c t h0 h1 (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

theorem outAt0_C (c : Dev nD) (t : Fin cfg0.N) (h0 : ¬t.val % 250 = 0) (h1 : t.val % 250 = 249) :
    outAt0 V c t = outC0 V c t h0 h1 (accAt0 V c (t.val - 1) (Nat.lt_of_le_of_lt (Nat.sub_le _ _) t.isLt)) := by
  unfold outAt0; exact dif_pos h1

/-! ## The invariant: the accumulator named from the second point on -/

def PhiS0 (c : Dev nD) : (n : ℕ) → n ≤ cfg0.N → sProp 𝕄
  | 0, _ => Pipeline.ΦA spec0 c
  | n + 1, hn => iprop(iprop(iprop(owns (c : Thread nD τ) scM0_0 fullShare (accAt0 V c n hn)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accAt0 V c n hn)) ∗ rest0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (accAt0 V c (n - 1) (by omega))) ∗ rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! ## The body's obligation at a grid point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) :
    (dat0 V c).leavesExact 4 t = owns (c : Thread nD τ) (ms0_4 t) fullShare (iblk0 V c 4 t) := by
  unfold Dat.leavesExact; rw [liveAt0_4 t, after0_4]
theorem leaves0_5 (c : Dev nD) (t : Fin cfg0.N) :
    (dat0 V c).leavesExact 5 t = owns (c : Thread nD τ) (ms0_5 t) fullShare (iblk0 V c 5 t) := by
  unfold Dat.leavesExact; rw [liveAt0_5 t, after0_5]
theorem leaves0_6 (c : Dev nD) (t : Fin cfg0.N) :
    (dat0 V c).leavesExact 6 t = owns (c : Thread nD τ) (ms0_6 t) fullShare (iblk0 V c 6 t) := by
  unfold Dat.leavesExact; rw [liveAt0_6 t, after0_6]
theorem leaves0_7 (c : Dev nD) (t : Fin cfg0.N) :
    (dat0 V c).leavesExact 7 t = owns (c : Thread nD τ) (ms0_7 t) fullShare (iblk0 V c 7 t) := by
  unfold Dat.leavesExact; rw [liveAt0_7 t, after0_7]
theorem leaves0_8 (c : Dev nD) (t : Fin cfg0.N) :
    (dat0 V c).leavesExact 8 t = owns (c : Thread nD τ) (ms0_8 t) fullShare (iblk0 V c 8 t) := by
  unfold Dat.leavesExact; rw [liveAt0_8 t, after0_8]
theorem leaves0_9 (c : Dev nD) (t : Fin cfg0.N) :
    (dat0 V c).leavesExact 9 t = owns (c : Thread nD τ) (ms0_9 t) fullShare (iblk0 V c 9 t) := by
  unfold Dat.leavesExact; rw [liveAt0_9 t, after0_9]
theorem leaves0_10 (c : Dev nD) (t : Fin cfg0.N) :
    (dat0 V c).leavesExact 10 t = owns (c : Thread nD τ) (ms0_10 t) fullShare (iblk0 V c 10 t) := by
  unfold Dat.leavesExact; rw [liveAt0_10 t, after0_10]
theorem leaves0_11 (c : Dev nD) (t : Fin cfg0.N) :
    (dat0 V c).leavesExact 11 t = owns (c : Thread nD τ) (ms0_11 t) fullShare (iblk0 V c 11 t) := by
  unfold Dat.leavesExact; rw [liveAt0_11 t, after0_11]

set_option maxHeartbeats 16000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6, leaves0_7, leaves0_8, leaves0_9, leaves0_10, leaves0_11]
  have hN : t.val < 250 := lt_of_lt_of_eq t.isLt N0_eq
  by_cases h1 : t.val % 250 = 249
  · have h0 : ¬t.val % 250 = 0 := by omega
    have hz : t.val ≠ 0 := by omega
    rw [show (dat0 V c).leavesExact 12 t = owns (c : Thread nD τ) (ms0_12 t) fullShare ((dat0 V c).after 12 t) from by
      unfold Dat.leavesExact; rw [liveAt0_12 t ((hcond0_1 t).mpr h1)], after0_12]
    rw [accAt0_C V c t h0 h1, outAt0_C V c t h0 h1]
    unfold accC0 outC0; (try dsimp only)
    rw [PhiS0_castSucc V c t, PhiS0_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runC0 V c t h0 h1 _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    iintro ⟨H0, H1, H2, H3, H4, H5, H6, H7, H8, H9, H10, H11, ⟨%e12, H12⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scoverC0 V c t h0 h1 _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact View.read_writes_of_cover _ _ _ _ _ (coverC0 V c t h0 h1 _)
  · rw [Dat.leavesExact_idle (dat0 V c) 12 t (idleAt0_12 t (fun h => h1 ((hcond0_1 t).mp h))) (noFlush0_12 t (fun h => h1 ((hcond0_1 t).mp h)))]
    by_cases h0 : t.val % 250 = 0
    · have hz : t.val = 0 := by omega
      rw [accAt0_A V c t h0 h1]
      unfold accA0; (try dsimp only)
      rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA0 V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iintro ⟨H0, H1, H2, H3, H4, H5, H6, H7, H8, H9, H10, H11, H12, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverA0 V c t h0 h1)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    · have hz : t.val ≠ 0 := by omega
      rw [accAt0_B V c t h0 h1]
      unfold accB0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runB0 V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iintro ⟨H0, H1, H2, H3, H4, H5, H6, H7, H8, H9, H10, H11, H12, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverB0 V c t h0 h1 _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

theorem body_obligation0 (c : Dev nD) : BodyObligation (dat0 (F := F) V c) (defs₀ (F := F)) Variants.none () Set.univ := fun t => by
  rw [bigSep_W0, bigSep_W0]
  exact sound_body0 V c t

/-- Before the first point the invariant is the launch's own. -/
theorem Phi0_eq0 (c : Dev nD) : (dat0 V c).Φ 0 = Pipeline.ΦA spec0 c := rfl

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back, the accumulator's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 250 := N0_eq; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS0, Hrest⟩, Hg⟩
  isplitl [HS0 Hrest]
  · isplitl [HS0]
    · iexists _; iexact HS0
    iexact Hrest
  iexact Hg

end Entry

end Cert.Kernel.Frame

end
-- ==== Proof.Bits.R1.Shared.lean ====
/-
  Second launch (the external work, a sum over node tiles): what its three control cases share.
  The grid has 100 points. At point 0 the 1×1 accumulator is zeroed, at every point the tile's sum is
  added to it, and at point 99 the accumulator is copied to the 1×1 result block; the result window is
  idle at the other points. Everything is stated at a parameter `V`: the core's buffer contents when
  the launch is entered.
-/
import proofs.«151812_j63788854280708_1_alg».proof.Proof.Gen.Kernel.Launch
import proofs.«151812_j63788854280708_1_alg».proof.Proof.Gen.Kernel.Skeleton
import proofs.«151812_j63788854280708_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at grid point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, for any proof data over the entry contents
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The two branch conditions, in closed form over the grid -/

/-- "This is the first point": the guard of the accumulator's reset. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 100 = 0 :=
  (by decide +kernel : ∀ t : Fin grid1.N, cond1_0 (grid1.coords t) ↔ t.val % 100 = 0)

/-- "This is the last point": the guard of the copy into the result block. -/
abbrev cond1_1 (i : grid1.Coords) : Prop := k1_cond2 i = 1#1
theorem hcond1_1 : ∀ t : Fin cfg1.N, cond1_1 (grid1.coords t) ↔ t.val % 100 = 99 :=
  (by decide +kernel : ∀ t : Fin grid1.N, cond1_1 (grid1.coords t) ↔ t.val % 100 = 99)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the result window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point it is live. -/
theorem liveAt1_2 : ∀ t : Fin cfg1.N, cond1_1 (grid1.coords t) → cfg1.idle 2 (grid1.coords t) = false := by decide +kernel

/-! ## The memrefs the body is called with -/

/-- The result window's one staging buffer, as a view. -/
abbrev VO1_2 : View sig .tc .vmem S1x1 .f32 := (Memref.whole cc1_stg2_0 : Memref sig .tc .vmem S1x1 .f32).view
abbrev ms1_0 (t : Fin cfg1.N) : Memref sig .tc .vmem S10000x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1_0 : Memref sig .tc .vmem S1x1 .f32 := Memref.whole cc1_scratch0
abbrev VS1_0 : View sig .tc .vmem S1x1 .f32 := scM1_0.view

/-- The launch's invariant with the accumulator split out, owned at some contents; the other scoped buffers stay
    unopened. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Frame

end
-- ==== Proof.Bits.R1.RunA.lean ====
/-
  Second launch, first grid point: the accumulator is zeroed, then the tile's sum is added to it; the
  result block is not touched. The accumulator may hold anything beforehand.
-/
import proofs.«151812_j63788854280708_1_alg».proof.Proof.Bits.R1.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the first point: on whole memrefs, the two inputs at their contents, the result block at
    contents handed back untouched, the accumulator at anything, it ends with the accumulator at the pieces found. -/
noncomputable def kernelRun1_A (c : Dev nD) (i : grid1.Coords) (arg1 : Memref sig .tc .vmem S10000x3 .f32) (harg1 : arg1.IsWhole) (arg2 : Memref sig .tc .vmem S10000x3 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S10000x3 .f32) (x1 : Vec F S10000x3 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__external_work_kernel i arg1 harg1 arg2 harg2 arg3 harg3 arg4 harg4) K } := by
  refine ⟨[], ?_, fun xi2 E K => ?run⟩
  case run =>
    simp only [cc1__external_work_kernel_eq_skeleton]; unfold cc1__external_work_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Frame

end
-- ==== Proof.Bits.R1.RunB.lean ====
/-
  Second launch, a grid point that is neither first nor last: the tile's sum is added to what the
  accumulator held after the point before; the result block is not touched.
-/
import proofs.«151812_j63788854280708_1_alg».proof.Proof.Bits.R1.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at a middle point: the accumulator enters at `xs0` and ends at the pieces found. -/
noncomputable def kernelRun1_B (c : Dev nD) (i : grid1.Coords) (arg1 : Memref sig .tc .vmem S10000x3 .f32) (harg1 : arg1.IsWhole) (arg2 : Memref sig .tc .vmem S10000x3 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S10000x3 .f32) (x1 : Vec F S10000x3 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__external_work_kernel i arg1 harg1 arg2 harg2 arg3 harg3 arg4 harg4) K } := by
  refine ⟨[], ?_, fun xi2 E K => ?run⟩
  case run =>
    simp only [cc1__external_work_kernel_eq_skeleton]; unfold cc1__external_work_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Frame

end
-- ==== Proof.Bits.R1.RunC.lean ====
/-
  Second launch, last grid point: the tile's sum is added to the accumulator, and the accumulator is
  copied into the 1×1 result block, which may hold anything beforehand.
-/
import proofs.«151812_j63788854280708_1_alg».proof.Proof.Bits.R1.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the last point: the accumulator enters at `xs0`; both it and the result block end at the
    pieces found. -/
noncomputable def kernelRun1_C (c : Dev nD) (i : grid1.Coords) (arg1 : Memref sig .tc .vmem S10000x3 .f32) (harg1 : arg1.IsWhole) (arg2 : Memref sig .tc .vmem S10000x3 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S10000x3 .f32) (x1 : Vec F S10000x3 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__external_work_kernel i arg1 harg1 arg2 harg2 arg3 harg3 arg4 harg4) K } := by
  refine ⟨?_, ?_, fun E K => ?run⟩
  case run =>
    simp only [cc1__external_work_kernel_eq_skeleton]; unfold cc1__external_work_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Frame

end
-- ==== Proof.Bits.R1.Frame.lean ====
/-
  Second launch (the external work): what the accumulator and the result block hold after each grid
  point, the proof data over the entry contents `V`, and the body's obligation at every point.
  After point 0 the accumulator holds the first tile's sum added to zero; after point n+1 it holds the
  tile's sum added to what point n left; at point 99 the result block receives the accumulator.
-/
import proofs.«151812_j63788854280708_1_alg».proof.Proof.Bits.R1.RunA
import proofs.«151812_j63788854280708_1_alg».proof.Proof.Bits.R1.RunB
import proofs.«151812_j63788854280708_1_alg».proof.Proof.Bits.R1.RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem N1_eq : cfg1.N = 100 := N_1

section Entry
variable (V : (c : Dev nD) → (b : Ref sig .tc) → Buf (Elt F) ((c : Thread nD τ).loc b))

/-! ## The three cases at a grid point -/

/-- The first point's run, at the point's memrefs and input blocks. -/
abbrev runA1 (c : Dev nD) (t : Fin cfg1.N) (h0 : t.val % 100 = 0) (h1 : ¬t.val % 100 = 99) :=
  kernelRun1_A (F := F) c (grid1.coords t) (ms1_0 t) (hs1_0 t) (ms1_1 t) (hs1_1 t) (ms1_2 t) (hs1_2 t) scM1_0 (Memref.isWhole_whole _)
    ((hcond1_0 t).mpr h0) (fun h => h1 ((hcond1_1 t).mp h)) (iblk1 V c 0 t) (iblk1 V c 1 t)
/-- A middle point's run, over what the point before left in the accumulator. -/
abbrev runB1 (c : Dev nD) (t : Fin cfg1.N) (h0 : ¬t.val % 100 = 0) (h1 : ¬t.val % 100 = 99) (xs : Vec F S1x1 .f32) :=
  kernelRun1_B (F := F) c (grid1.coords t) (ms1_0 t) (hs1_0 t) (ms1_1 t) (hs1_1 t) (ms1_2 t) (hs1_2 t) scM1_0 (Memref.isWhole_whole _)
    (fun h => h0 ((hcond1_0 t).mp h)) (fun h => h1 ((hcond1_1 t).mp h)) (iblk1 V c 0 t) (iblk1 V c 1 t) xs
/-- The last point's run, likewise. -/
abbrev runC1 (c : Dev nD) (t : Fin cfg1.N) (h0 : ¬t.val % 100 = 0) (h1 : t.val % 100 = 99) (xs : Vec F S1x1 .f32) :=
  kernelRun1_C (F := F) c (grid1.coords t) (ms1_0 t) (hs1_0 t) (ms1_1 t) (hs1_1 t) (ms1_2 t) (hs1_2 t) scM1_0 (Memref.isWhole_whole _)
    (fun h => h0 ((hcond1_0 t).mp h)) ((hcond1_1 t).mpr h1) (iblk1 V c 0 t) (iblk1 V c 1 t) xs

/-- Each case's stores into the accumulator tile it, so they cover it. -/
theorem scoverA1 (c : Dev nD) (t : Fin cfg1.N) (h0 : t.val % 100 = 0) (h1 : ¬t.val % 100 = 99) (y : S1x1.Idx) :
    ∃ pc ∈ (runA1 V c t h0 h1).2.1, y ∈ pc.1.set :=
  View.cover_of_tiledL (runA1 V c t h0 h1).2.1 S1x1.size (by sl_kernel_rfl) y
theorem scoverB1 (c : Dev nD) (t : Fin cfg1.N) (h0 : ¬t.val % 100 = 0) (h1 : ¬t.val % 100 = 99) (xs : Vec F S1x1 .f32) (y : S1x1.Idx) :
    ∃ pc ∈ (runB1 V c t h0 h1 xs).2.1, y ∈ pc.1.set :=
  View.cover_of_tiledL (runB1 V c t h0 h1 xs).2.1 S1x1.size (by sl_kernel_rfl) y
theorem scoverC1 (c : Dev nD) (t : Fin cfg1.N) (h0 : ¬t.val % 100 = 0) (h1 : t.val % 100 = 99) (xs : Vec F S1x1 .f32) (y : S1x1.Idx) :
    ∃ pc ∈ (runC1 V c t h0 h1 xs).2.1, y ∈ pc.1.set :=
  View.cover_of_tiledL (runC1 V c t h0 h1 xs).2.1 S1x1.size (by sl_kernel_rfl) y
/-- The last point's store into the result block covers it. -/
theorem coverC1 (c : Dev nD) (t : Fin cfg1.N) (h0 : ¬t.val % 100 = 0) (h1 : t.val % 100 = 99) (xs : Vec F S1x1 .f32) (y : S1x1.Idx) :
    ∃ pc ∈ (runC1 V c t h0 h1 xs).1, y ∈ pc.1.set :=
  View.cover_of_tiledL (runC1 V c t h0 h1 xs).1 S1x1.size (by sl_kernel_rfl) y

/-- What each case leaves in the accumulator: its stores read back. -/
def accA1 (c : Dev nD) (t : Fin cfg1.N) (h0 : t.val % 100 = 0) (h1 : ¬t.val % 100 = 99) : Vec F S1x1 .f32 :=
  VS1_0.read (Elt F) (VS1_0.writes (Elt F) VS1_0.junk (runA1 V c t h0 h1).2.1)
def accB1 (c : Dev nD) (t : Fin cfg1.N) (h0 : ¬t.val % 100 = 0) (h1 : ¬t.val % 100 = 99) (xs : Vec F S1x1 .f32) : Vec F S1x1 .f32 :=
  VS1_0.read (Elt F) (VS1_0.writes (Elt F) VS1_0.junk (runB1 V c t h0 h1 xs).2.1)
def accC1 (c : Dev nD) (t : Fin cfg1.N) (h0 : ¬t.val % 100 = 0) (h1 : t.val % 100 = 99) (xs : Vec F S1x1 .f32) : Vec F S1x1 .f32 :=
  VS1_0.read (Elt F) (VS1_0.writes (Elt F) VS1_0.junk (runC1 V c t h0 h1 xs).2.1)
/-- What the last point leaves in the result block. -/
def outC1 (c : Dev nD) (t : Fin cfg1.N) (h0 : ¬t.val % 100 = 0) (h1 : t.val % 100 = 99) (xs : Vec F S1x1 .f32) : Vec F S1x1 .f32 :=
  VO1_2.read (Elt F) (VO1_2.writes (Elt F) VO1_2.junk (runC1 V c t h0 h1 xs).1)

/-! ## The accumulation, point by point -/

/-- The accumulator after the body at position `n`. -/
def accAt1 (c : Dev nD) : (n : ℕ) → n < cfg1.N → Vec F S1x1 .f32
  | 0, hn => accA1 V c ⟨0, hn⟩ (Nat.zero_mod _) (by show ¬(0 : ℕ) % 100 = 99; decide)
  | n + 1, hn =>
    have hN : n + 1 < 100 := lt_of_lt_of_eq hn N1_eq
    if h1 : (n + 1) % 100 = 99 then
      accC1 V c ⟨n + 1, hn⟩ (by show ¬(n + 1) % 100 = 0; omega) h1 (accAt1 c n (Nat.lt_of_succ_lt hn))
    else
      accB1 V c ⟨n + 1, hn⟩ (by show ¬(n + 1) % 100 = 0; omega) h1 (accAt1 c n (Nat.lt_of_succ_lt hn))

/-- The result block after the body at point `t`: at the last point the accumulator's copy; elsewhere the window is
    idle and this value is a placeholder nothing reads. -/
def outAt1 (c : Dev nD) (t : Fin cfg1.N) : Vec F S1x1 .f32 :=
  if h1 : t.val % 100 = 99 then
    outC1 V c t (by omega) h1 (accAt1 V c (t.val - 1) (Nat.lt_of_le_of_lt (Nat.sub_le _ _) t.isLt))
  else VO1_2.read (Elt F) VO1_2.junk

theorem accAt1_A (c : Dev nD) (t : Fin cfg1.N) (h0 : t.val % 100 = 0) (h1 : ¬t.val % 100 = 99) :
    accAt1 V c t.val t.isLt = accA1 V c t h0 h1 := by
  obtain ⟨n, hn⟩ := t
  have hN : n < 100 := lt_of_lt_of_eq hn N1_eq
  cases n with
  | zero => rfl
  | succ n => exfalso; (try dsimp only at h0); omega

theorem accAt1_B (c : Dev nD) (t : Fin cfg1.N) (h0 : ¬t.val % 100 = 0) (h1 : ¬t.val % 100 = 99) :
    accAt1 V c t.val t.isLt = accB1 V c t h0 h1 (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt1_C (c : Dev nD) (t : Fin cfg1.N) (h0 : ¬t.val % 100 = 0) (h1 : t.val % 100 = 99) :
    accAt1 V c t.val t.isLt = accC1 V c t h0 h1 (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

theorem outAt1_C (c : Dev nD) (t : Fin cfg1.N) (h0 : ¬t.val % 100 = 0) (h1 : t.val % 100 = 99) :
    outAt1 V c t = outC1 V c t h0 h1 (accAt1 V c (t.val - 1) (Nat.lt_of_le_of_lt (Nat.sub_le _ _) t.isLt)) := by
  unfold outAt1; exact dif_pos h1

/-! ## The invariant: the accumulator named from the second point on -/

def PhiS1 (c : Dev nD) : (n : ℕ) → n ≤ cfg1.N → sProp 𝕄
  | 0, _ => Pipeline.ΦA spec1 c
  | n + 1, hn => iprop(iprop(iprop(owns (c : Thread nD τ) scM1_0 fullShare (accAt1 V c n hn))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (accAt1 V c n hn))
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (accAt1 V c (n - 1) (by omega)))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's obligation at a grid point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 100 := lt_of_lt_of_eq t.isLt N1_eq
  by_cases h1 : t.val % 100 = 99
  · have h0 : ¬t.val % 100 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [accAt1_C V c t h0 h1, outAt1_C V c t h0 h1]
    unfold accC1 outC1; (try dsimp only)
    rw [PhiS1_castSucc V c t, PhiS1_pos V c _ _ hz]
    iintro ⟨⟨⟨HS0, Hrest⟩, Hg⟩, Ho, ⟨%d0, H0⟩, ⟨%d1, H1⟩, ⟨%d2, H2⟩⟩
    iapply ((runC1 V c t h0 h1 _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scoverC1 V c t h0 h1 _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (coverC1 V c t h0 h1 _)
  · rw [Dat.leavesExact_idle (dat1 V c) 2 t (idleAt1_2 t (fun h => h1 ((hcond1_1 t).mp h))) (noFlush1_2 t (fun h => h1 ((hcond1_1 t).mp h)))]
    by_cases h0 : t.val % 100 = 0
    · have hz : t.val = 0 := by omega
      rw [accAt1_A V c t h0 h1]
      unfold accA1; (try dsimp only)
      rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((runA1 V c t h0 h1).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverA1 V c t h0 h1)
          iexact Hrest
        iexact Hg
      isplitl [Ho]; · iexact Ho
      isplitl [H0]; · iexact H0
      isplitl [H1]; · iexact H1
      iexists _; iexact H2
    · have hz : t.val ≠ 0 := by omega
      rw [accAt1_B V c t h0 h1]
      unfold accB1; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((runB1 V c t h0 h1 _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverB1 V c t h0 h1 _)
          iexact Hrest
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- Before the first point the invariant is the launch's own. -/
theorem Phi0_eq1 (c : Dev nD) : (dat1 V c).Φ 0 = Pipeline.ΦA spec1 c := rfl

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back, the accumulator's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 100 := N1_eq; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, Hrest⟩, Hg⟩
  isplitl [HS0 Hrest]
  · isplitl [HS0]
    · iexists _; iexact HS0
    iexact Hrest
  iexact Hg

end Entry

end Cert.Kernel.Frame

end
-- ==== Proof.Bits.Run.lean ====
/-
  The whole run of @main: eighty-four host operations, the first launch (the strain energy summed
  over edge tiles), one reshape, the second launch (the external work summed over node tiles), and the
  eight closing host operations. The core's buffer contents are followed from boundary to boundary:
  a host stretch applies its operations to them, a launch replaces its arrays by what its write-backs
  leave and keeps every other buffer. No stretch and no launch writes an argument array, so each ends
  as launched; the result buffer ends at the last boundary's contents.
-/
import proofs.«151812_j63788854280708_1_alg».proof.Proof.Bits.R0.Frame
import proofs.«151812_j63788854280708_1_alg».proof.Proof.Bits.R1.Frame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch: what the first launch is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first launch: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the reshape between the launches: what the second launch is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second launch. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the closing host stretch: the contents @main returns with. -/
abbrev W5 : Dev nD → Valuation τ sig (Elt F) := fun c => StableHlo.after hostOps2 (W4 m ρ c)

/-! ## A buffer no operation of a stretch writes keeps its contents across the stretch -/

/-- Each operation writes only its own result buffer; a buffer that is none of those is not written. -/
local macro "unwritten" "[" ops:ident "]" : tactic => `(tactic|
  (simp only [$ops:ident, List.flatten_cons, List.flatten_nil, List.append_nil, List.cons_append, List.nil_append, List.Forall,
      StableHlo.nary_writes, StableHlo.nullary_writes, StableHlo.unary_writes, StableHlo.binary_writes, StableHlo.ternary_writes,
      StableHlo.quaternary_writes, StableHlo.reshape_writes, StableHlo.binaryIndexed_writes, Finset.mem_singleton]
   repeat' apply And.intro
   all_goals exact StableHlo.devRef_ne_of_ne (by decide)))

theorem keeps0_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by unwritten [hostOps0]))
theorem keeps1_arg0 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by unwritten [hostOps1]))
theorem keeps2_arg0 (c : Dev nD) : W5 m ρ c (Proc.devRef .tc main_arg0) = W4 m ρ c (Proc.devRef .tc main_arg0) :=
  StableHlo.after_of_forall_not_mem (b := Proc.devRef .tc main_arg0) _ _ (List.forall_iff_forall_mem.mp (by unwritten [hostOps2]))
theorem keeps0_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by unwritten [hostOps0]))
theorem keeps1_arg1 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by unwritten [hostOps1]))
theorem keeps2_arg1 (c : Dev nD) : W5 m ρ c (Proc.devRef .tc main_arg1) = W4 m ρ c (Proc.devRef .tc main_arg1) :=
  StableHlo.after_of_forall_not_mem (b := Proc.devRef .tc main_arg1) _ _ (List.forall_iff_forall_mem.mp (by unwritten [hostOps2]))
theorem keeps0_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by unwritten [hostOps0]))
theorem keeps1_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by unwritten [hostOps1]))
theorem keeps2_arg2 (c : Dev nD) : W5 m ρ c (Proc.devRef .tc main_arg2) = W4 m ρ c (Proc.devRef .tc main_arg2) :=
  StableHlo.after_of_forall_not_mem (b := Proc.devRef .tc main_arg2) _ _ (List.forall_iff_forall_mem.mp (by unwritten [hostOps2]))
theorem keeps0_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by unwritten [hostOps0]))
theorem keeps1_arg3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by unwritten [hostOps1]))
theorem keeps2_arg3 (c : Dev nD) : W5 m ρ c (Proc.devRef .tc main_arg3) = W4 m ρ c (Proc.devRef .tc main_arg3) :=
  StableHlo.after_of_forall_not_mem (b := Proc.devRef .tc main_arg3) _ _ (List.forall_iff_forall_mem.mp (by unwritten [hostOps2]))
theorem keeps0_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by unwritten [hostOps0]))
theorem keeps1_arg4 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by unwritten [hostOps1]))
theorem keeps2_arg4 (c : Dev nD) : W5 m ρ c (Proc.devRef .tc main_arg4) = W4 m ρ c (Proc.devRef .tc main_arg4) :=
  StableHlo.after_of_forall_not_mem (b := Proc.devRef .tc main_arg4) _ _ (List.forall_iff_forall_mem.mp (by unwritten [hostOps2]))
theorem keeps0_arg5 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by unwritten [hostOps0]))
theorem keeps1_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by unwritten [hostOps1]))
theorem keeps2_arg5 (c : Dev nD) : W5 m ρ c (Proc.devRef .tc main_arg5) = W4 m ρ c (Proc.devRef .tc main_arg5) :=
  StableHlo.after_of_forall_not_mem (b := Proc.devRef .tc main_arg5) _ _ (List.forall_iff_forall_mem.mp (by unwritten [hostOps2]))
theorem keeps0_arg6 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by unwritten [hostOps0]))
theorem keeps1_arg6 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by unwritten [hostOps1]))
theorem keeps2_arg6 (c : Dev nD) : W5 m ρ c (Proc.devRef .tc main_arg6) = W4 m ρ c (Proc.devRef .tc main_arg6) :=
  StableHlo.after_of_forall_not_mem (b := Proc.devRef .tc main_arg6) _ _ (List.forall_iff_forall_mem.mp (by unwritten [hostOps2]))
theorem keeps0_arg7 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by unwritten [hostOps0]))
theorem keeps1_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by unwritten [hostOps1]))
theorem keeps2_arg7 (c : Dev nD) : W5 m ρ c (Proc.devRef .tc main_arg7) = W4 m ρ c (Proc.devRef .tc main_arg7) :=
  StableHlo.after_of_forall_not_mem (b := Proc.devRef .tc main_arg7) _ _ (List.forall_iff_forall_mem.mp (by unwritten [hostOps2]))
theorem keeps0_arg8 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by unwritten [hostOps0]))
theorem keeps1_arg8 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by unwritten [hostOps1]))
theorem keeps2_arg8 (c : Dev nD) : W5 m ρ c (Proc.devRef .tc main_arg8) = W4 m ρ c (Proc.devRef .tc main_arg8) :=
  StableHlo.after_of_forall_not_mem (b := Proc.devRef .tc main_arg8) _ _ (List.forall_iff_forall_mem.mp (by unwritten [hostOps2]))
theorem keeps0_arg9 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by unwritten [hostOps0]))
theorem keeps1_arg9 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by unwritten [hostOps1]))
theorem keeps2_arg9 (c : Dev nD) : W5 m ρ c (Proc.devRef .tc main_arg9) = W4 m ρ c (Proc.devRef .tc main_arg9) :=
  StableHlo.after_of_forall_not_mem (b := Proc.devRef .tc main_arg9) _ _ (List.forall_iff_forall_mem.mp (by unwritten [hostOps2]))
theorem keeps0_arg10 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by unwritten [hostOps0]))
theorem keeps1_arg10 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by unwritten [hostOps1]))
theorem keeps2_arg10 (c : Dev nD) : W5 m ρ c (Proc.devRef .tc main_arg10) = W4 m ρ c (Proc.devRef .tc main_arg10) :=
  StableHlo.after_of_forall_not_mem (b := Proc.devRef .tc main_arg10) _ _ (List.forall_iff_forall_mem.mp (by unwritten [hostOps2]))

/-! ## Every argument ends as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := keeps2_arg0 m ρ c
    _ = W3 m ρ c (Proc.devRef .tc main_arg0) := W4_of_ne m ρ c main_arg0 (by decide)
    _ = W2 m ρ c (Proc.devRef .tc main_arg0) := keeps1_arg0 m ρ c
    _ = W1 m ρ c (Proc.devRef .tc main_arg0) := W2_of_ne m ρ c main_arg0 (by decide)
    _ = W0 m ρ c (Proc.devRef .tc main_arg0) := keeps0_arg0 m ρ c
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := keeps2_arg1 m ρ c
    _ = W3 m ρ c (Proc.devRef .tc main_arg1) := W4_of_ne m ρ c main_arg1 (by decide)
    _ = W2 m ρ c (Proc.devRef .tc main_arg1) := keeps1_arg1 m ρ c
    _ = W1 m ρ c (Proc.devRef .tc main_arg1) := W2_of_ne m ρ c main_arg1 (by decide)
    _ = W0 m ρ c (Proc.devRef .tc main_arg1) := keeps0_arg1 m ρ c
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := keeps2_arg2 m ρ c
    _ = W3 m ρ c (Proc.devRef .tc main_arg2) := W4_of_ne m ρ c main_arg2 (by decide)
    _ = W2 m ρ c (Proc.devRef .tc main_arg2) := keeps1_arg2 m ρ c
    _ = W1 m ρ c (Proc.devRef .tc main_arg2) := W2_of_ne m ρ c main_arg2 (by decide)
    _ = W0 m ρ c (Proc.devRef .tc main_arg2) := keeps0_arg2 m ρ c
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := keeps2_arg3 m ρ c
    _ = W3 m ρ c (Proc.devRef .tc main_arg3) := W4_of_ne m ρ c main_arg3 (by decide)
    _ = W2 m ρ c (Proc.devRef .tc main_arg3) := keeps1_arg3 m ρ c
    _ = W1 m ρ c (Proc.devRef .tc main_arg3) := W2_of_ne m ρ c main_arg3 (by decide)
    _ = W0 m ρ c (Proc.devRef .tc main_arg3) := keeps0_arg3 m ρ c
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := keeps2_arg4 m ρ c
    _ = W3 m ρ c (Proc.devRef .tc main_arg4) := W4_of_ne m ρ c main_arg4 (by decide)
    _ = W2 m ρ c (Proc.devRef .tc main_arg4) := keeps1_arg4 m ρ c
    _ = W1 m ρ c (Proc.devRef .tc main_arg4) := W2_of_ne m ρ c main_arg4 (by decide)
    _ = W0 m ρ c (Proc.devRef .tc main_arg4) := keeps0_arg4 m ρ c
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := keeps2_arg5 m ρ c
    _ = W3 m ρ c (Proc.devRef .tc main_arg5) := W4_of_ne m ρ c main_arg5 (by decide)
    _ = W2 m ρ c (Proc.devRef .tc main_arg5) := keeps1_arg5 m ρ c
    _ = W1 m ρ c (Proc.devRef .tc main_arg5) := W2_of_ne m ρ c main_arg5 (by decide)
    _ = W0 m ρ c (Proc.devRef .tc main_arg5) := keeps0_arg5 m ρ c
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := keeps2_arg6 m ρ c
    _ = W3 m ρ c (Proc.devRef .tc main_arg6) := W4_of_ne m ρ c main_arg6 (by decide)
    _ = W2 m ρ c (Proc.devRef .tc main_arg6) := keeps1_arg6 m ρ c
    _ = W1 m ρ c (Proc.devRef .tc main_arg6) := W2_of_ne m ρ c main_arg6 (by decide)
    _ = W0 m ρ c (Proc.devRef .tc main_arg6) := keeps0_arg6 m ρ c
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := keeps2_arg7 m ρ c
    _ = W3 m ρ c (Proc.devRef .tc main_arg7) := (W4_arr m ρ c 0).trans (((dat1 (V3 m ρ) c).arrAt_in 0 rfl _).trans (A_eq1 (V3 m ρ) c 0))
    _ = W2 m ρ c (Proc.devRef .tc main_arg7) := keeps1_arg7 m ρ c
    _ = W1 m ρ c (Proc.devRef .tc main_arg7) := W2_of_ne m ρ c main_arg7 (by decide)
    _ = W0 m ρ c (Proc.devRef .tc main_arg7) := keeps0_arg7 m ρ c
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := keeps2_arg8 m ρ c
    _ = W3 m ρ c (Proc.devRef .tc main_arg8) := W4_of_ne m ρ c main_arg8 (by decide)
    _ = W2 m ρ c (Proc.devRef .tc main_arg8) := keeps1_arg8 m ρ c
    _ = W1 m ρ c (Proc.devRef .tc main_arg8) := W2_of_ne m ρ c main_arg8 (by decide)
    _ = W0 m ρ c (Proc.devRef .tc main_arg8) := keeps0_arg8 m ρ c
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := keeps2_arg9 m ρ c
    _ = W3 m ρ c (Proc.devRef .tc main_arg9) := W4_of_ne m ρ c main_arg9 (by decide)
    _ = W2 m ρ c (Proc.devRef .tc main_arg9) := keeps1_arg9 m ρ c
    _ = W1 m ρ c (Proc.devRef .tc main_arg9) := W2_of_ne m ρ c main_arg9 (by decide)
    _ = W0 m ρ c (Proc.devRef .tc main_arg9) := keeps0_arg9 m ρ c
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := keeps2_arg10 m ρ c
    _ = W3 m ρ c (Proc.devRef .tc main_arg10) := W4_of_ne m ρ c main_arg10 (by decide)
    _ = W2 m ρ c (Proc.devRef .tc main_arg10) := keeps1_arg10 m ρ c
    _ = W1 m ρ c (Proc.devRef .tc main_arg10) := W2_of_ne m ρ c main_arg10 (by decide)
    _ = W0 m ρ c (Proc.devRef .tc main_arg10) := keeps0_arg10 m ρ c
    _ = m ((c : Thread nD τ).loc main_arg10) := rfl

/-! ## The proof data of the two launches, the thread state, the segments -/

abbrev adm : (p : Fin 2) → (pcfgs (F := F) p).Adm := fun p => (cfgs p).toPCfg_adm
/-- Each launch's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing term. -/
abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_eq0 (V1 m ρ) c]; unfold Pipeline.ΦA
    iintro ⟨Hp, -, Hr⟩
    isplitl [Hr]; · iexact Hr
    iexact Hp
  hout c := by
    rw [Pipeline.ownSems0_none]
    have hPhi := hout0 (V1 m ρ) c
    unfold Pipeline.ΦA at hPhi
    show (dat0 (V1 m ρ) c).Φ (Fin.last cfg0.N) ⊢ _
    iintro HPhi
    ihave H := hPhi $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi0_eq1 (V3 m ρ) c]; unfold Pipeline.ΦA
    iintro ⟨Hp, -, Hr⟩
    isplitl [Hr]; · iexact Hr
    iexact Hp
  hout c := by
    rw [Pipeline.ownSems0_none]
    have hPhi := hout1 (V3 m ρ) c
    unfold Pipeline.ΦA at hPhi
    show (dat1 (V3 m ρ) c).Φ (Fin.last cfg1.N) ⊢ _
    iintro HPhi
    ihave H := hPhi $$ HPhi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main terminates without a fault, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The same run read at the result buffer and at each argument array: the result at the last boundary's
    contents, every argument as launched. -/
theorem run_result : θ_run defs (onTc (τ := τ) (main (F := F))) ⟨m, fun _ => 0, ρ⟩ (fun r => ∀ c : Dev nD,
      r.2.mem ((c.tc : Thread nD τ).loc main_v81) = W5 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v81 (by decide)),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c)⟩) (run_all m ρ)

/-- The frame: @main terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_result m ρ)

end Cert.Kernel.Frame

end
-- ==== Proof.R0.Shared.lean ====
/-
  First launch (the edge energy, a sum over edge tiles): what its three control cases share.
  The grid has 250 points. At point 0 the 1×1 accumulator is zeroed, at every point the tile's energy
  sum is added to it, and at point 249 the accumulator is copied to the 1×1 result block; the result
  window is idle at the other points. The twelve inputs are read tile by tile and never written.
  Everything is stated at a parameter `V`: the core's buffer contents when the launch is entered.
-/
import proofs.«151812_j63788854280708_1_alg».proof.Proof.Gen.KernelIdeal.Launch
import proofs.«151812_j63788854280708_1_alg».proof.Proof.Gen.KernelIdeal.Skeleton
import proofs.«151812_j63788854280708_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at grid point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, for any proof data over the entry contents whose
    body leaves the block in place: the first input. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The third. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The fourth. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The fifth. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The sixth. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The seventh. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The eighth. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- The ninth. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The tenth. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- The eleventh. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- The twelfth. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The two branch conditions, in closed form over the grid -/

/-- "This is the first point": the guard of the accumulator's reset. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 250 = 0 :=
  (by decide +kernel : ∀ t : Fin grid0.N, cond0_0 (grid0.coords t) ↔ t.val % 250 = 0)

/-- "This is the last point": the guard of the copy into the result block. -/
abbrev cond0_1 (i : grid0.Coords) : Prop := k0_cond2 i = 1#1
theorem hcond0_1 : ∀ t : Fin cfg0.N, cond0_1 (grid0.coords t) ↔ t.val % 250 = 249 :=
  (by decide +kernel : ∀ t : Fin grid0.N, cond0_1 (grid0.coords t) ↔ t.val % 250 = 249)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
/-- Away from the last point the result window is idle and is not written back. -/
theorem idleAt0_12 : ∀ t : Fin cfg0.N, ¬cond0_1 (grid0.coords t) → cfg0.idle 12 (grid0.coords t) = true := by decide +kernel
theorem noFlush0_12 : ∀ t : Fin cfg0.N, ¬cond0_1 (grid0.coords t) → (cfg0.win 12).flush t = false := by decide +kernel
/-- At the last point it is live. -/
theorem liveAt0_12 : ∀ t : Fin cfg0.N, cond0_1 (grid0.coords t) → cfg0.idle 12 (grid0.coords t) = false := by decide +kernel

/-! ## The memrefs the body is called with -/

/-- The result window's one staging buffer, as a view. -/
abbrev VO0_12 : View sig .tc .vmem S1x1 .f32 := (Memref.whole cc0_stg12_0 : Memref sig .tc .vmem S1x1 .f32).view
abbrev ms0_0 (t : Fin cfg0.N) : Memref sig .tc .vmem S1x16000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16000 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16000 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x16000 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16000 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16000 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x16000 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1 .f32 := win0_12.stage (cfg0.slots t 12)
abbrev hs0_12 (t : Fin cfg0.N) : (ms0_12 t).IsWhole := hstage0_12 ((cfg0.slots t 12).cast nbuf0_12)
/-- The accumulator: a whole scoped buffer of the kernel's own, carried from point to point. -/
abbrev scM0_0 : Memref sig .tc .vmem S1x1 .f32 := Memref.whole cc0_scratch0
abbrev VS0_0 : View sig .tc .vmem S1x1 .f32 := scM0_0.view

/-- The core's other scoped buffers (the second launch's staging buffers and its accumulator), each whole at some
    contents: what the first launch's invariant carries besides its own accumulator. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The launch's invariant with the accumulator split out, owned at some contents; the other scoped buffers stay
    as they are. -/
theorem PhiA0_eq (c : Dev nD) :
    (Pipeline.ΦA spec0 c : sProp 𝕄)
      = iprop(iprop(iprop((∃ d, owns (c : Thread nD τ) scM0_0 fullShare d)) ∗ rest0 c) ∗ (∃ r, prngReg c r)) := by
  unfold Pipeline.ΦA; rw [scopedRest0_eq]; simp only [scM0_0, owns_whole]; try rfl

end Cert.KernelIdeal.Frame

end
-- ==== Proof.R0.RunA.lean ====
/-
  First launch, first grid point: the accumulator is zeroed, then the tile's energy sum is added to it;
  the result block is not touched. The accumulator may hold anything beforehand.
-/
import proofs.«151812_j63788854280708_1_alg».proof.Proof.R0.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the first point: on whole memrefs, the twelve inputs at their contents, the result block at
    contents handed back untouched, the accumulator at anything, it ends with the accumulator at the pieces found. -/
noncomputable def kernelRun0_A (c : Dev nD) (i : grid0.Coords) (arg1 : Memref sig .tc .vmem S1x16000 .f32) (harg1 : arg1.IsWhole) (arg2 : Memref sig .tc .vmem S1x16000 .f32) (harg2 : arg2.IsWhole) (arg3 : Memref sig .tc .vmem S1x16000 .f32) (harg3 : arg3.IsWhole) (arg4 : Memref sig .tc .vmem S1x16000 .f32) (harg4 : arg4.IsWhole) (arg5 : Memref sig .tc .vmem S1x16000 .f32) (harg5 : arg5.IsWhole) (arg6 : Memref sig .tc .vmem S1x16000 .f32) (harg6 : arg6.IsWhole) (arg7 : Memref sig .tc .vmem S1x16000 .f32) (harg7 : arg7.IsWhole) (arg8 : Memref sig .tc .vmem S1x16000 .f32) (harg8 : arg8.IsWhole) (arg9 : Memref sig .tc .vmem S1x16000 .f32) (harg9 : arg9.IsWhole) (arg10 : Memref sig .tc .vmem S1x16000 .f32) (harg10 : arg10.IsWhole) (arg11 : Memref sig .tc .vmem S1x16000 .f32) (harg11 : arg11.IsWhole) (arg12 : Memref sig .tc .vmem S1x16000 .f32) (harg12 : arg12.IsWhole) (arg13 : Memref sig .tc .vmem S1x1 .f32) (harg13 : arg13.IsWhole) (arg14 : Memref sig .tc .vmem S1x1 .f32) (harg14 : arg14.IsWhole) (hc0 : cond0_0 i) (hc1 : ¬cond0_1 i)
    (x0 : Vec F S1x16000 .f32) (x1 : Vec F S1x16000 .f32) (x2 : Vec F S1x16000 .f32) (x3 : Vec F S1x16000 .f32) (x4 : Vec F S1x16000 .f32) (x5 : Vec F S1x16000 .f32) (x6 : Vec F S1x16000 .f32) (x7 : Vec F S1x16000 .f32) (x8 : Vec F S1x16000 .f32) (x9 : Vec F S1x16000 .f32) (x10 : Vec F S1x16000 .f32) (x11 : Vec F S1x16000 .f32) :
    Σ' (L12 : List (View.Piece (Elt F) S1x1 .f32)), { LS0 : List (View.Piece (Elt F) S1x1 .f32) //
      ∀ (xi12 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ f, arg14.view.loc (c : Thread nD τ) ↦[arg14.view.set]{fullShare} arg14.view.writes (Elt F) f LS0)) -∗ K ⟨⟩))
          ⊢ wp frame (wpE (defs₀ (F := F)) Variants.none c none) E (cc0__edge_energy_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], ?_, fun xi12 E K => ?run⟩
  case run =>
    simp only [cc0__edge_energy_kernel_eq_skeleton]; unfold cc0__edge_energy_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexists _; iexact HS0

end Cert.KernelIdeal.Frame

end
-- ==== Proof.R0.RunB.lean ====
/-
  First launch, a middle grid point: the tile's energy sum is added to the accumulator, which enters at
  what the point before left; the result block is not touched.
-/
import proofs.«151812_j63788854280708_1_alg».proof.Proof.R0.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a middle point: the accumulator enters at `xs0` and ends at the pieces found. -/
noncomputable def kernelRun0_B (c : Dev nD) (i : grid0.Coords) (arg1 : Memref sig .tc .vmem S1x16000 .f32) (harg1 : arg1.IsWhole) (arg2 : Memref sig .tc .vmem S1x16000 .f32) (harg2 : arg2.IsWhole) (arg3 : Memref sig .tc .vmem S1x16000 .f32) (harg3 : arg3.IsWhole) (arg4 : Memref sig .tc .vmem S1x16000 .f32) (harg4 : arg4.IsWhole) (arg5 : Memref sig .tc .vmem S1x16000 .f32) (harg5 : arg5.IsWhole) (arg6 : Memref sig .tc .vmem S1x16000 .f32) (harg6 : arg6.IsWhole) (arg7 : Memref sig .tc .vmem S1x16000 .f32) (harg7 : arg7.IsWhole) (arg8 : Memref sig .tc .vmem S1x16000 .f32) (harg8 : arg8.IsWhole) (arg9 : Memref sig .tc .vmem S1x16000 .f32) (harg9 : arg9.IsWhole) (arg10 : Memref sig .tc .vmem S1x16000 .f32) (harg10 : arg10.IsWhole) (arg11 : Memref sig .tc .vmem S1x16000 .f32) (harg11 : arg11.IsWhole) (arg12 : Memref sig .tc .vmem S1x16000 .f32) (harg12 : arg12.IsWhole) (arg13 : Memref sig .tc .vmem S1x1 .f32) (harg13 : arg13.IsWhole) (arg14 : Memref sig .tc .vmem S1x1 .f32) (harg14 : arg14.IsWhole) (hc0 : ¬cond0_0 i) (hc1 : ¬cond0_1 i)
    (x0 : Vec F S1x16000 .f32) (x1 : Vec F S1x16000 .f32) (x2 : Vec F S1x16000 .f32) (x3 : Vec F S1x16000 .f32) (x4 : Vec F S1x16000 .f32) (x5 : Vec F S1x16000 .f32) (x6 : Vec F S1x16000 .f32) (x7 : Vec F S1x16000 .f32) (x8 : Vec F S1x16000 .f32) (x9 : Vec F S1x16000 .f32) (x10 : Vec F S1x16000 .f32) (x11 : Vec F S1x16000 .f32) (xs0 : Vec F S1x1 .f32) :
    Σ' (L12 : List (View.Piece (Elt F) S1x1 .f32)), { LS0 : List (View.Piece (Elt F) S1x1 .f32) //
      ∀ (xi12 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ f, arg14.view.loc (c : Thread nD τ) ↦[arg14.view.set]{fullShare} arg14.view.writes (Elt F) f LS0)) -∗ K ⟨⟩))
          ⊢ wp frame (wpE (defs₀ (F := F)) Variants.none c none) E (cc0__edge_energy_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], ?_, fun xi12 E K => ?run⟩
  case run =>
    simp only [cc0__edge_energy_kernel_eq_skeleton]; unfold cc0__edge_energy_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexists _; iexact HS0

end Cert.KernelIdeal.Frame

end
-- ==== Proof.R0.RunC.lean ====
/-
  First launch, last grid point: the tile's energy sum is added to the accumulator, which enters at what
  the point before left, and the accumulator is then copied into the result block.
-/
import proofs.«151812_j63788854280708_1_alg».proof.Proof.R0.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the last point: the accumulator enters at `xs0`; both it and the result block end at the
    pieces found. -/
noncomputable def kernelRun0_C (c : Dev nD) (i : grid0.Coords) (arg1 : Memref sig .tc .vmem S1x16000 .f32) (harg1 : arg1.IsWhole) (arg2 : Memref sig .tc .vmem S1x16000 .f32) (harg2 : arg2.IsWhole) (arg3 : Memref sig .tc .vmem S1x16000 .f32) (harg3 : arg3.IsWhole) (arg4 : Memref sig .tc .vmem S1x16000 .f32) (harg4 : arg4.IsWhole) (arg5 : Memref sig .tc .vmem S1x16000 .f32) (harg5 : arg5.IsWhole) (arg6 : Memref sig .tc .vmem S1x16000 .f32) (harg6 : arg6.IsWhole) (arg7 : Memref sig .tc .vmem S1x16000 .f32) (harg7 : arg7.IsWhole) (arg8 : Memref sig .tc .vmem S1x16000 .f32) (harg8 : arg8.IsWhole) (arg9 : Memref sig .tc .vmem S1x16000 .f32) (harg9 : arg9.IsWhole) (arg10 : Memref sig .tc .vmem S1x16000 .f32) (harg10 : arg10.IsWhole) (arg11 : Memref sig .tc .vmem S1x16000 .f32) (harg11 : arg11.IsWhole) (arg12 : Memref sig .tc .vmem S1x16000 .f32) (harg12 : arg12.IsWhole) (arg13 : Memref sig .tc .vmem S1x1 .f32) (harg13 : arg13.IsWhole) (arg14 : Memref sig .tc .vmem S1x1 .f32) (harg14 : arg14.IsWhole) (hc0 : ¬cond0_0 i) (hc1 : cond0_1 i)
    (x0 : Vec F S1x16000 .f32) (x1 : Vec F S1x16000 .f32) (x2 : Vec F S1x16000 .f32) (x3 : Vec F S1x16000 .f32) (x4 : Vec F S1x16000 .f32) (x5 : Vec F S1x16000 .f32) (x6 : Vec F S1x16000 .f32) (x7 : Vec F S1x16000 .f32) (x8 : Vec F S1x16000 .f32) (x9 : Vec F S1x16000 .f32) (x10 : Vec F S1x16000 .f32) (x11 : Vec F S1x16000 .f32) (xs0 : Vec F S1x1 .f32) :
    Σ' (L12 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0)) -∗ K ⟨⟩))
          ⊢ wp frame (wpE (defs₀ (F := F)) Variants.none c none) E (cc0__edge_energy_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__edge_energy_kernel_eq_skeleton]; unfold cc0__edge_energy_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    iexists _; iexact HS0

end Cert.KernelIdeal.Frame

end
-- ==== Proof.R0.Frame.lean ====
/-
  First launch (the edge energy): what the accumulator and the result block hold after each grid
  point, the proof data over the entry contents `V`, and the body's obligation at every point.
  After point 0 the accumulator holds the first tile's sum added to zero; after point n+1 it holds the
  tile's sum added to what point n left; at point 249 the result block receives the accumulator.
-/
import proofs.«151812_j63788854280708_1_alg».proof.Proof.R0.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem N0_eq : cfg0.N = 250 := N_0

section Entry
variable (V : (c : Dev nD) → (b : Ref sig .tc) → Buf (Elt F) ((c : Thread nD τ).loc b))

/-! ## The three cases at a grid point -/

/-- The first point's run, at the point's memrefs and input blocks. -/
abbrev runA0 (c : Dev nD) (t : Fin cfg0.N) (h0 : t.val % 250 = 0) (h1 : ¬t.val % 250 = 249) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _)
    ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
/-- A middle point's run, over what the point before left in the accumulator. -/
abbrev runB0 (c : Dev nD) (t : Fin cfg0.N) (h0 : ¬t.val % 250 = 0) (h1 : ¬t.val % 250 = 249) (xs : Vec F S1x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) xs
/-- The last point's run, likewise. -/
abbrev runC0 (c : Dev nD) (t : Fin cfg0.N) (h0 : ¬t.val % 250 = 0) (h1 : t.val % 250 = 249) (xs : Vec F S1x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _)
    (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) xs

/-- Each case's stores into the accumulator tile it, so they cover it. -/
theorem scoverA0 (c : Dev nD) (t : Fin cfg0.N) (h0 : t.val % 250 = 0) (h1 : ¬t.val % 250 = 249) (y : S1x1.Idx) :
    ∃ pc ∈ (runA0 V c t h0 h1).2.1, y ∈ pc.1.set :=
  View.cover_of_tiledL (runA0 V c t h0 h1).2.1 S1x1.size (by sl_kernel_rfl) y
theorem scoverB0 (c : Dev nD) (t : Fin cfg0.N) (h0 : ¬t.val % 250 = 0) (h1 : ¬t.val % 250 = 249) (xs : Vec F S1x1 .f32) (y : S1x1.Idx) :
    ∃ pc ∈ (runB0 V c t h0 h1 xs).2.1, y ∈ pc.1.set :=
  View.cover_of_tiledL (runB0 V c t h0 h1 xs).2.1 S1x1.size (by sl_kernel_rfl) y
theorem scoverC0 (c : Dev nD) (t : Fin cfg0.N) (h0 : ¬t.val % 250 = 0) (h1 : t.val % 250 = 249) (xs : Vec F S1x1 .f32) (y : S1x1.Idx) :
    ∃ pc ∈ (runC0 V c t h0 h1 xs).2.1, y ∈ pc.1.set :=
  View.cover_of_tiledL (runC0 V c t h0 h1 xs).2.1 S1x1.size (by sl_kernel_rfl) y
/-- The last point's store into the result block covers it. -/
theorem coverC0 (c : Dev nD) (t : Fin cfg0.N) (h0 : ¬t.val % 250 = 0) (h1 : t.val % 250 = 249) (xs : Vec F S1x1 .f32) (y : S1x1.Idx) :
    ∃ pc ∈ (runC0 V c t h0 h1 xs).1, y ∈ pc.1.set :=
  View.cover_of_tiledL (runC0 V c t h0 h1 xs).1 S1x1.size (by sl_kernel_rfl) y

/-- What each case leaves in the accumulator: its stores read back. -/
def accA0 (c : Dev nD) (t : Fin cfg0.N) (h0 : t.val % 250 = 0) (h1 : ¬t.val % 250 = 249) : Vec F S1x1 .f32 :=
  VS0_0.read (Elt F) (VS0_0.writes (Elt F) VS0_0.junk (runA0 V c t h0 h1).2.1)
def accB0 (c : Dev nD) (t : Fin cfg0.N) (h0 : ¬t.val % 250 = 0) (h1 : ¬t.val % 250 = 249) (xs : Vec F S1x1 .f32) : Vec F S1x1 .f32 :=
  VS0_0.read (Elt F) (VS0_0.writes (Elt F) VS0_0.junk (runB0 V c t h0 h1 xs).2.1)
def accC0 (c : Dev nD) (t : Fin cfg0.N) (h0 : ¬t.val % 250 = 0) (h1 : t.val % 250 = 249) (xs : Vec F S1x1 .f32) : Vec F S1x1 .f32 :=
  VS0_0.read (Elt F) (VS0_0.writes (Elt F) VS0_0.junk (runC0 V c t h0 h1 xs).2.1)
/-- What the last point leaves in the result block. -/
def outC0 (c : Dev nD) (t : Fin cfg0.N) (h0 : ¬t.val % 250 = 0) (h1 : t.val % 250 = 249) (xs : Vec F S1x1 .f32) : Vec F S1x1 .f32 :=
  VO0_12.read (Elt F) (VO0_12.writes (Elt F) VO0_12.junk (runC0 V c t h0 h1 xs).1)

/-! ## The accumulation, point by point -/

/-- The accumulator after the body at position `n`. -/
def accAt0 (c : Dev nD) : (n : ℕ) → n < cfg0.N → Vec F S1x1 .f32
  | 0, hn => accA0 V c ⟨0, hn⟩ (Nat.zero_mod _) (by show ¬(0 : ℕ) % 250 = 249; decide)
  | n + 1, hn =>
    have hN : n + 1 < 250 := lt_of_lt_of_eq hn N0_eq
    if h1 : (n + 1) % 250 = 249 then
      accC0 V c ⟨n + 1, hn⟩ (by show ¬(n + 1) % 250 = 0; omega) h1 (accAt0 c n (Nat.lt_of_succ_lt hn))
    else
      accB0 V c ⟨n + 1, hn⟩ (by show ¬(n + 1) % 250 = 0; omega) h1 (accAt0 c n (Nat.lt_of_succ_lt hn))

/-- The result block after the body at point `t`: at the last point the accumulator's copy; elsewhere the window is
    idle and this value is a placeholder nothing reads. -/
def outAt0 (c : Dev nD) (t : Fin cfg0.N) : Vec F S1x1 .f32 :=
  if h1 : t.val % 250 = 249 then
    outC0 V c t (by omega) h1 (accAt0 V c (t.val - 1) (Nat.lt_of_le_of_lt (Nat.sub_le _ _) t.isLt))
  else VO0_12.read (Elt F) VO0_12.junk

theorem accAt0_A (c : Dev nD) (t : Fin cfg0.N) (h0 : t.val % 250 = 0) (h1 : ¬t.val % 250 = 249) :
    accAt0 V c t.val t.isLt = accA0 V c t h0 h1 := by
  obtain ⟨n, hn⟩ := t
  have hN : n < 250 := lt_of_lt_of_eq hn N0_eq
  cases n with
  | zero => rfl
  | succ n => exfalso; (try dsimp only at h0); omega

theorem accAt0_B (c : Dev nD) (t : Fin cfg0.N) (h0 : ¬t.val % 250 = 0) (h1 : ¬t.val % 250 = 249) :
    accAt0 V c t.val t.isLt = accB0 V c t h0 h1 (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt0_C (c : Dev nD) (t : Fin cfg0.N) (h0 : ¬t.val % 250 = 0) (h1 : t.val % 250 = 249) :
    accAt0 V c t.val t.isLt = accC0 V c t h0 h1 (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

theorem outAt0_C (c : Dev nD) (t : Fin cfg0.N) (h0 : ¬t.val % 250 = 0) (h1 : t.val % 250 = 249) :
    outAt0 V c t = outC0 V c t h0 h1 (accAt0 V c (t.val - 1) (Nat.lt_of_le_of_lt (Nat.sub_le _ _) t.isLt)) := by
  unfold outAt0; exact dif_pos h1

/-! ## The invariant: the accumulator named from the second point on -/

def PhiS0 (c : Dev nD) : (n : ℕ) → n ≤ cfg0.N → sProp 𝕄
  | 0, _ => Pipeline.ΦA spec0 c
  | n + 1, hn => iprop(iprop(iprop(owns (c : Thread nD τ) scM0_0 fullShare (accAt0 V c n hn)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accAt0 V c n hn)) ∗ rest0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (accAt0 V c (n - 1) (by omega))) ∗ rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! ## The body's obligation at a grid point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) :
    (dat0 V c).leavesExact 4 t = owns (c : Thread nD τ) (ms0_4 t) fullShare (iblk0 V c 4 t) := by
  unfold Dat.leavesExact; rw [liveAt0_4 t, after0_4]
theorem leaves0_5 (c : Dev nD) (t : Fin cfg0.N) :
    (dat0 V c).leavesExact 5 t = owns (c : Thread nD τ) (ms0_5 t) fullShare (iblk0 V c 5 t) := by
  unfold Dat.leavesExact; rw [liveAt0_5 t, after0_5]
theorem leaves0_6 (c : Dev nD) (t : Fin cfg0.N) :
    (dat0 V c).leavesExact 6 t = owns (c : Thread nD τ) (ms0_6 t) fullShare (iblk0 V c 6 t) := by
  unfold Dat.leavesExact; rw [liveAt0_6 t, after0_6]
theorem leaves0_7 (c : Dev nD) (t : Fin cfg0.N) :
    (dat0 V c).leavesExact 7 t = owns (c : Thread nD τ) (ms0_7 t) fullShare (iblk0 V c 7 t) := by
  unfold Dat.leavesExact; rw [liveAt0_7 t, after0_7]
theorem leaves0_8 (c : Dev nD) (t : Fin cfg0.N) :
    (dat0 V c).leavesExact 8 t = owns (c : Thread nD τ) (ms0_8 t) fullShare (iblk0 V c 8 t) := by
  unfold Dat.leavesExact; rw [liveAt0_8 t, after0_8]
theorem leaves0_9 (c : Dev nD) (t : Fin cfg0.N) :
    (dat0 V c).leavesExact 9 t = owns (c : Thread nD τ) (ms0_9 t) fullShare (iblk0 V c 9 t) := by
  unfold Dat.leavesExact; rw [liveAt0_9 t, after0_9]
theorem leaves0_10 (c : Dev nD) (t : Fin cfg0.N) :
    (dat0 V c).leavesExact 10 t = owns (c : Thread nD τ) (ms0_10 t) fullShare (iblk0 V c 10 t) := by
  unfold Dat.leavesExact; rw [liveAt0_10 t, after0_10]
theorem leaves0_11 (c : Dev nD) (t : Fin cfg0.N) :
    (dat0 V c).leavesExact 11 t = owns (c : Thread nD τ) (ms0_11 t) fullShare (iblk0 V c 11 t) := by
  unfold Dat.leavesExact; rw [liveAt0_11 t, after0_11]

set_option maxHeartbeats 16000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6, leaves0_7, leaves0_8, leaves0_9, leaves0_10, leaves0_11]
  have hN : t.val < 250 := lt_of_lt_of_eq t.isLt N0_eq
  by_cases h1 : t.val % 250 = 249
  · have h0 : ¬t.val % 250 = 0 := by omega
    have hz : t.val ≠ 0 := by omega
    rw [show (dat0 V c).leavesExact 12 t = owns (c : Thread nD τ) (ms0_12 t) fullShare ((dat0 V c).after 12 t) from by
      unfold Dat.leavesExact; rw [liveAt0_12 t ((hcond0_1 t).mpr h1)], after0_12]
    rw [accAt0_C V c t h0 h1, outAt0_C V c t h0 h1]
    unfold accC0 outC0; (try dsimp only)
    rw [PhiS0_castSucc V c t, PhiS0_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runC0 V c t h0 h1 _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    iintro ⟨H0, H1, H2, H3, H4, H5, H6, H7, H8, H9, H10, H11, ⟨%e12, H12⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scoverC0 V c t h0 h1 _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact View.read_writes_of_cover _ _ _ _ _ (coverC0 V c t h0 h1 _)
  · rw [Dat.leavesExact_idle (dat0 V c) 12 t (idleAt0_12 t (fun h => h1 ((hcond0_1 t).mp h))) (noFlush0_12 t (fun h => h1 ((hcond0_1 t).mp h)))]
    by_cases h0 : t.val % 250 = 0
    · have hz : t.val = 0 := by omega
      rw [accAt0_A V c t h0 h1]
      unfold accA0; (try dsimp only)
      rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA0 V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iintro ⟨H0, H1, H2, H3, H4, H5, H6, H7, H8, H9, H10, H11, H12, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverA0 V c t h0 h1)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    · have hz : t.val ≠ 0 := by omega
      rw [accAt0_B V c t h0 h1]
      unfold accB0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runB0 V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iintro ⟨H0, H1, H2, H3, H4, H5, H6, H7, H8, H9, H10, H11, H12, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverB0 V c t h0 h1 _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

theorem body_obligation0 (c : Dev nD) : BodyObligation (dat0 (F := F) V c) (defs₀ (F := F)) Variants.none () Set.univ := fun t => by
  rw [bigSep_W0, bigSep_W0]
  exact sound_body0 V c t

/-- Before the first point the invariant is the launch's own. -/
theorem Phi0_eq0 (c : Dev nD) : (dat0 V c).Φ 0 = Pipeline.ΦA spec0 c := rfl

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back, the accumulator's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 250 := N0_eq; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS0, Hrest⟩, Hg⟩
  isplitl [HS0 Hrest]
  · isplitl [HS0]
    · iexists _; iexact HS0
    iexact Hrest
  iexact Hg

end Entry

end Cert.KernelIdeal.Frame

end
-- ==== Proof.R1.Shared.lean ====
/-
  Second launch (the external work, a sum over node tiles): what its three control cases share.
  The grid has 100 points. At point 0 the 1×1 accumulator is zeroed, at every point the tile's sum is
  added to it, and at point 99 the accumulator is copied to the 1×1 result block; the result window is
  idle at the other points. Everything is stated at a parameter `V`: the core's buffer contents when
  the launch is entered.
-/
import proofs.«151812_j63788854280708_1_alg».proof.Proof.Gen.KernelIdeal.Launch
import proofs.«151812_j63788854280708_1_alg».proof.Proof.Gen.KernelIdeal.Skeleton
import proofs.«151812_j63788854280708_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at grid point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, for any proof data over the entry contents
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The two branch conditions, in closed form over the grid -/

/-- "This is the first point": the guard of the accumulator's reset. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 100 = 0 :=
  (by decide +kernel : ∀ t : Fin grid1.N, cond1_0 (grid1.coords t) ↔ t.val % 100 = 0)

/-- "This is the last point": the guard of the copy into the result block. -/
abbrev cond1_1 (i : grid1.Coords) : Prop := k1_cond2 i = 1#1
theorem hcond1_1 : ∀ t : Fin cfg1.N, cond1_1 (grid1.coords t) ↔ t.val % 100 = 99 :=
  (by decide +kernel : ∀ t : Fin grid1.N, cond1_1 (grid1.coords t) ↔ t.val % 100 = 99)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the result window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point it is live. -/
theorem liveAt1_2 : ∀ t : Fin cfg1.N, cond1_1 (grid1.coords t) → cfg1.idle 2 (grid1.coords t) = false := by decide +kernel

/-! ## The memrefs the body is called with -/

/-- The result window's one staging buffer, as a view. -/
abbrev VO1_2 : View sig .tc .vmem S1x1 .f32 := (Memref.whole cc1_stg2_0 : Memref sig .tc .vmem S1x1 .f32).view
abbrev ms1_0 (t : Fin cfg1.N) : Memref sig .tc .vmem S10000x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1_0 : Memref sig .tc .vmem S1x1 .f32 := Memref.whole cc1_scratch0
abbrev VS1_0 : View sig .tc .vmem S1x1 .f32 := scM1_0.view

/-- The launch's invariant with the accumulator split out, owned at some contents; the other scoped buffers stay
    unopened. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Frame

end
-- ==== Proof.R1.RunA.lean ====
/-
  Second launch, first grid point: the accumulator is zeroed, then the tile's sum is added to it; the
  result block is not touched. The accumulator may hold anything beforehand.
-/
import proofs.«151812_j63788854280708_1_alg».proof.Proof.R1.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the first point: on whole memrefs, the two inputs at their contents, the result block at
    contents handed back untouched, the accumulator at anything, it ends with the accumulator at the pieces found. -/
noncomputable def kernelRun1_A (c : Dev nD) (i : grid1.Coords) (arg1 : Memref sig .tc .vmem S10000x3 .f32) (harg1 : arg1.IsWhole) (arg2 : Memref sig .tc .vmem S10000x3 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S10000x3 .f32) (x1 : Vec F S10000x3 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__external_work_kernel i arg1 harg1 arg2 harg2 arg3 harg3 arg4 harg4) K } := by
  refine ⟨[], ?_, fun xi2 E K => ?run⟩
  case run =>
    simp only [cc1__external_work_kernel_eq_skeleton]; unfold cc1__external_work_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Frame

end
-- ==== Proof.R1.RunB.lean ====
/-
  Second launch, a grid point that is neither first nor last: the tile's sum is added to what the
  accumulator held after the point before; the result block is not touched.
-/
import proofs.«151812_j63788854280708_1_alg».proof.Proof.R1.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at a middle point: the accumulator enters at `xs0` and ends at the pieces found. -/
noncomputable def kernelRun1_B (c : Dev nD) (i : grid1.Coords) (arg1 : Memref sig .tc .vmem S10000x3 .f32) (harg1 : arg1.IsWhole) (arg2 : Memref sig .tc .vmem S10000x3 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S10000x3 .f32) (x1 : Vec F S10000x3 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__external_work_kernel i arg1 harg1 arg2 harg2 arg3 harg3 arg4 harg4) K } := by
  refine ⟨[], ?_, fun xi2 E K => ?run⟩
  case run =>
    simp only [cc1__external_work_kernel_eq_skeleton]; unfold cc1__external_work_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Frame

end
-- ==== Proof.R1.RunC.lean ====
/-
  Second launch, last grid point: the tile's sum is added to the accumulator, and the accumulator is
  copied into the 1×1 result block, which may hold anything beforehand.
-/
import proofs.«151812_j63788854280708_1_alg».proof.Proof.R1.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the last point: the accumulator enters at `xs0`; both it and the result block end at the
    pieces found. -/
noncomputable def kernelRun1_C (c : Dev nD) (i : grid1.Coords) (arg1 : Memref sig .tc .vmem S10000x3 .f32) (harg1 : arg1.IsWhole) (arg2 : Memref sig .tc .vmem S10000x3 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S10000x3 .f32) (x1 : Vec F S10000x3 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__external_work_kernel i arg1 harg1 arg2 harg2 arg3 harg3 arg4 harg4) K } := by
  refine ⟨?_, ?_, fun E K => ?run⟩
  case run =>
    simp only [cc1__external_work_kernel_eq_skeleton]; unfold cc1__external_work_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Frame

end
-- ==== Proof.R1.Frame.lean ====
/-
  Second launch (the external work): what the accumulator and the result block hold after each grid
  point, the proof data over the entry contents `V`, and the body's obligation at every point.
  After point 0 the accumulator holds the first tile's sum added to zero; after point n+1 it holds the
  tile's sum added to what point n left; at point 99 the result block receives the accumulator.
-/
import proofs.«151812_j63788854280708_1_alg».proof.Proof.R1.RunA
import proofs.«151812_j63788854280708_1_alg».proof.Proof.R1.RunB
import proofs.«151812_j63788854280708_1_alg».proof.Proof.R1.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem N1_eq : cfg1.N = 100 := N_1

section Entry
variable (V : (c : Dev nD) → (b : Ref sig .tc) → Buf (Elt F) ((c : Thread nD τ).loc b))

/-! ## The three cases at a grid point -/

/-- The first point's run, at the point's memrefs and input blocks. -/
abbrev runA1 (c : Dev nD) (t : Fin cfg1.N) (h0 : t.val % 100 = 0) (h1 : ¬t.val % 100 = 99) :=
  kernelRun1_A (F := F) c (grid1.coords t) (ms1_0 t) (hs1_0 t) (ms1_1 t) (hs1_1 t) (ms1_2 t) (hs1_2 t) scM1_0 (Memref.isWhole_whole _)
    ((hcond1_0 t).mpr h0) (fun h => h1 ((hcond1_1 t).mp h)) (iblk1 V c 0 t) (iblk1 V c 1 t)
/-- A middle point's run, over what the point before left in the accumulator. -/
abbrev runB1 (c : Dev nD) (t : Fin cfg1.N) (h0 : ¬t.val % 100 = 0) (h1 : ¬t.val % 100 = 99) (xs : Vec F S1x1 .f32) :=
  kernelRun1_B (F := F) c (grid1.coords t) (ms1_0 t) (hs1_0 t) (ms1_1 t) (hs1_1 t) (ms1_2 t) (hs1_2 t) scM1_0 (Memref.isWhole_whole _)
    (fun h => h0 ((hcond1_0 t).mp h)) (fun h => h1 ((hcond1_1 t).mp h)) (iblk1 V c 0 t) (iblk1 V c 1 t) xs
/-- The last point's run, likewise. -/
abbrev runC1 (c : Dev nD) (t : Fin cfg1.N) (h0 : ¬t.val % 100 = 0) (h1 : t.val % 100 = 99) (xs : Vec F S1x1 .f32) :=
  kernelRun1_C (F := F) c (grid1.coords t) (ms1_0 t) (hs1_0 t) (ms1_1 t) (hs1_1 t) (ms1_2 t) (hs1_2 t) scM1_0 (Memref.isWhole_whole _)
    (fun h => h0 ((hcond1_0 t).mp h)) ((hcond1_1 t).mpr h1) (iblk1 V c 0 t) (iblk1 V c 1 t) xs

/-- Each case's stores into the accumulator tile it, so they cover it. -/
theorem scoverA1 (c : Dev nD) (t : Fin cfg1.N) (h0 : t.val % 100 = 0) (h1 : ¬t.val % 100 = 99) (y : S1x1.Idx) :
    ∃ pc ∈ (runA1 V c t h0 h1).2.1, y ∈ pc.1.set :=
  View.cover_of_tiledL (runA1 V c t h0 h1).2.1 S1x1.size (by sl_kernel_rfl) y
theorem scoverB1 (c : Dev nD) (t : Fin cfg1.N) (h0 : ¬t.val % 100 = 0) (h1 : ¬t.val % 100 = 99) (xs : Vec F S1x1 .f32) (y : S1x1.Idx) :
    ∃ pc ∈ (runB1 V c t h0 h1 xs).2.1, y ∈ pc.1.set :=
  View.cover_of_tiledL (runB1 V c t h0 h1 xs).2.1 S1x1.size (by sl_kernel_rfl) y
theorem scoverC1 (c : Dev nD) (t : Fin cfg1.N) (h0 : ¬t.val % 100 = 0) (h1 : t.val % 100 = 99) (xs : Vec F S1x1 .f32) (y : S1x1.Idx) :
    ∃ pc ∈ (runC1 V c t h0 h1 xs).2.1, y ∈ pc.1.set :=
  View.cover_of_tiledL (runC1 V c t h0 h1 xs).2.1 S1x1.size (by sl_kernel_rfl) y
/-- The last point's store into the result block covers it. -/
theorem coverC1 (c : Dev nD) (t : Fin cfg1.N) (h0 : ¬t.val % 100 = 0) (h1 : t.val % 100 = 99) (xs : Vec F S1x1 .f32) (y : S1x1.Idx) :
    ∃ pc ∈ (runC1 V c t h0 h1 xs).1, y ∈ pc.1.set :=
  View.cover_of_tiledL (runC1 V c t h0 h1 xs).1 S1x1.size (by sl_kernel_rfl) y

/-- What each case leaves in the accumulator: its stores read back. -/
def accA1 (c : Dev nD) (t : Fin cfg1.N) (h0 : t.val % 100 = 0) (h1 : ¬t.val % 100 = 99) : Vec F S1x1 .f32 :=
  VS1_0.read (Elt F) (VS1_0.writes (Elt F) VS1_0.junk (runA1 V c t h0 h1).2.1)
def accB1 (c : Dev nD) (t : Fin cfg1.N) (h0 : ¬t.val % 100 = 0) (h1 : ¬t.val % 100 = 99) (xs : Vec F S1x1 .f32) : Vec F S1x1 .f32 :=
  VS1_0.read (Elt F) (VS1_0.writes (Elt F) VS1_0.junk (runB1 V c t h0 h1 xs).2.1)
def accC1 (c : Dev nD) (t : Fin cfg1.N) (h0 : ¬t.val % 100 = 0) (h1 : t.val % 100 = 99) (xs : Vec F S1x1 .f32) : Vec F S1x1 .f32 :=
  VS1_0.read (Elt F) (VS1_0.writes (Elt F) VS1_0.junk (runC1 V c t h0 h1 xs).2.1)
/-- What the last point leaves in the result block. -/
def outC1 (c : Dev nD) (t : Fin cfg1.N) (h0 : ¬t.val % 100 = 0) (h1 : t.val % 100 = 99) (xs : Vec F S1x1 .f32) : Vec F S1x1 .f32 :=
  VO1_2.read (Elt F) (VO1_2.writes (Elt F) VO1_2.junk (runC1 V c t h0 h1 xs).1)

/-! ## The accumulation, point by point -/

/-- The accumulator after the body at position `n`. -/
def accAt1 (c : Dev nD) : (n : ℕ) → n < cfg1.N → Vec F S1x1 .f32
  | 0, hn => accA1 V c ⟨0, hn⟩ (Nat.zero_mod _) (by show ¬(0 : ℕ) % 100 = 99; decide)
  | n + 1, hn =>
    have hN : n + 1 < 100 := lt_of_lt_of_eq hn N1_eq
    if h1 : (n + 1) % 100 = 99 then
      accC1 V c ⟨n + 1, hn⟩ (by show ¬(n + 1) % 100 = 0; omega) h1 (accAt1 c n (Nat.lt_of_succ_lt hn))
    else
      accB1 V c ⟨n + 1, hn⟩ (by show ¬(n + 1) % 100 = 0; omega) h1 (accAt1 c n (Nat.lt_of_succ_lt hn))

/-- The result block after the body at point `t`: at the last point the accumulator's copy; elsewhere the window is
    idle and this value is a placeholder nothing reads. -/
def outAt1 (c : Dev nD) (t : Fin cfg1.N) : Vec F S1x1 .f32 :=
  if h1 : t.val % 100 = 99 then
    outC1 V c t (by omega) h1 (accAt1 V c (t.val - 1) (Nat.lt_of_le_of_lt (Nat.sub_le _ _) t.isLt))
  else VO1_2.read (Elt F) VO1_2.junk

theorem accAt1_A (c : Dev nD) (t : Fin cfg1.N) (h0 : t.val % 100 = 0) (h1 : ¬t.val % 100 = 99) :
    accAt1 V c t.val t.isLt = accA1 V c t h0 h1 := by
  obtain ⟨n, hn⟩ := t
  have hN : n < 100 := lt_of_lt_of_eq hn N1_eq
  cases n with
  | zero => rfl
  | succ n => exfalso; (try dsimp only at h0); omega

theorem accAt1_B (c : Dev nD) (t : Fin cfg1.N) (h0 : ¬t.val % 100 = 0) (h1 : ¬t.val % 100 = 99) :
    accAt1 V c t.val t.isLt = accB1 V c t h0 h1 (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt1_C (c : Dev nD) (t : Fin cfg1.N) (h0 : ¬t.val % 100 = 0) (h1 : t.val % 100 = 99) :
    accAt1 V c t.val t.isLt = accC1 V c t h0 h1 (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

theorem outAt1_C (c : Dev nD) (t : Fin cfg1.N) (h0 : ¬t.val % 100 = 0) (h1 : t.val % 100 = 99) :
    outAt1 V c t = outC1 V c t h0 h1 (accAt1 V c (t.val - 1) (Nat.lt_of_le_of_lt (Nat.sub_le _ _) t.isLt)) := by
  unfold outAt1; exact dif_pos h1

/-! ## The invariant: the accumulator named from the second point on -/

def PhiS1 (c : Dev nD) : (n : ℕ) → n ≤ cfg1.N → sProp 𝕄
  | 0, _ => Pipeline.ΦA spec1 c
  | n + 1, hn => iprop(iprop(iprop(owns (c : Thread nD τ) scM1_0 fullShare (accAt1 V c n hn))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (accAt1 V c n hn))
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (accAt1 V c (n - 1) (by omega)))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's obligation at a grid point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 100 := lt_of_lt_of_eq t.isLt N1_eq
  by_cases h1 : t.val % 100 = 99
  · have h0 : ¬t.val % 100 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [accAt1_C V c t h0 h1, outAt1_C V c t h0 h1]
    unfold accC1 outC1; (try dsimp only)
    rw [PhiS1_castSucc V c t, PhiS1_pos V c _ _ hz]
    iintro ⟨⟨⟨HS0, Hrest⟩, Hg⟩, Ho, ⟨%d0, H0⟩, ⟨%d1, H1⟩, ⟨%d2, H2⟩⟩
    iapply ((runC1 V c t h0 h1 _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scoverC1 V c t h0 h1 _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (coverC1 V c t h0 h1 _)
  · rw [Dat.leavesExact_idle (dat1 V c) 2 t (idleAt1_2 t (fun h => h1 ((hcond1_1 t).mp h))) (noFlush1_2 t (fun h => h1 ((hcond1_1 t).mp h)))]
    by_cases h0 : t.val % 100 = 0
    · have hz : t.val = 0 := by omega
      rw [accAt1_A V c t h0 h1]
      unfold accA1; (try dsimp only)
      rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((runA1 V c t h0 h1).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverA1 V c t h0 h1)
          iexact Hrest
        iexact Hg
      isplitl [Ho]; · iexact Ho
      isplitl [H0]; · iexact H0
      isplitl [H1]; · iexact H1
      iexists _; iexact H2
    · have hz : t.val ≠ 0 := by omega
      rw [accAt1_B V c t h0 h1]
      unfold accB1; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((runB1 V c t h0 h1 _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverB1 V c t h0 h1 _)
          iexact Hrest
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- Before the first point the invariant is the launch's own. -/
theorem Phi0_eq1 (c : Dev nD) : (dat1 V c).Φ 0 = Pipeline.ΦA spec1 c := rfl

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back, the accumulator's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 100 := N1_eq; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, Hrest⟩, Hg⟩
  isplitl [HS0 Hrest]
  · isplitl [HS0]
    · iexists _; iexact HS0
    iexact Hrest
  iexact Hg

end Entry

end Cert.KernelIdeal.Frame

end
-- ==== Proof.Run.lean ====
/-
  The whole run of @main: eighty-four host operations, the first launch (the strain energy summed
  over edge tiles), one reshape, the second launch (the external work summed over node tiles), and the
  eight closing host operations. The core's buffer contents are followed from boundary to boundary:
  a host stretch applies its operations to them, a launch replaces its arrays by what its write-backs
  leave and keeps every other buffer. No stretch and no launch writes an argument array, so each ends
  as launched; the result buffer ends at the last boundary's contents.
-/
import proofs.«151812_j63788854280708_1_alg».proof.Proof.R0.Frame
import proofs.«151812_j63788854280708_1_alg».proof.Proof.R1.Frame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch: what the first launch is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first launch: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the reshape between the launches: what the second launch is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second launch. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the closing host stretch: the contents @main returns with. -/
abbrev W5 : Dev nD → Valuation τ sig (Elt F) := fun c => StableHlo.after hostOps2 (W4 m ρ c)

/-! ## A buffer no operation of a stretch writes keeps its contents across the stretch -/

/-- Each operation writes only its own result buffer; a buffer that is none of those is not written. -/
local macro "unwritten" "[" ops:ident "]" : tactic => `(tactic|
  (simp only [$ops:ident, List.flatten_cons, List.flatten_nil, List.append_nil, List.cons_append, List.nil_append, List.Forall,
      StableHlo.nary_writes, StableHlo.nullary_writes, StableHlo.unary_writes, StableHlo.binary_writes, StableHlo.ternary_writes,
      StableHlo.quaternary_writes, StableHlo.reshape_writes, StableHlo.binaryIndexed_writes, Finset.mem_singleton]
   repeat' apply And.intro
   all_goals exact StableHlo.devRef_ne_of_ne (by decide)))

theorem keeps0_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by unwritten [hostOps0]))
theorem keeps1_arg0 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by unwritten [hostOps1]))
theorem keeps2_arg0 (c : Dev nD) : W5 m ρ c (Proc.devRef .tc main_arg0) = W4 m ρ c (Proc.devRef .tc main_arg0) :=
  StableHlo.after_of_forall_not_mem (b := Proc.devRef .tc main_arg0) _ _ (List.forall_iff_forall_mem.mp (by unwritten [hostOps2]))
theorem keeps0_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by unwritten [hostOps0]))
theorem keeps1_arg1 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by unwritten [hostOps1]))
theorem keeps2_arg1 (c : Dev nD) : W5 m ρ c (Proc.devRef .tc main_arg1) = W4 m ρ c (Proc.devRef .tc main_arg1) :=
  StableHlo.after_of_forall_not_mem (b := Proc.devRef .tc main_arg1) _ _ (List.forall_iff_forall_mem.mp (by unwritten [hostOps2]))
theorem keeps0_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by unwritten [hostOps0]))
theorem keeps1_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by unwritten [hostOps1]))
theorem keeps2_arg2 (c : Dev nD) : W5 m ρ c (Proc.devRef .tc main_arg2) = W4 m ρ c (Proc.devRef .tc main_arg2) :=
  StableHlo.after_of_forall_not_mem (b := Proc.devRef .tc main_arg2) _ _ (List.forall_iff_forall_mem.mp (by unwritten [hostOps2]))
theorem keeps0_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by unwritten [hostOps0]))
theorem keeps1_arg3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by unwritten [hostOps1]))
theorem keeps2_arg3 (c : Dev nD) : W5 m ρ c (Proc.devRef .tc main_arg3) = W4 m ρ c (Proc.devRef .tc main_arg3) :=
  StableHlo.after_of_forall_not_mem (b := Proc.devRef .tc main_arg3) _ _ (List.forall_iff_forall_mem.mp (by unwritten [hostOps2]))
theorem keeps0_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by unwritten [hostOps0]))
theorem keeps1_arg4 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by unwritten [hostOps1]))
theorem keeps2_arg4 (c : Dev nD) : W5 m ρ c (Proc.devRef .tc main_arg4) = W4 m ρ c (Proc.devRef .tc main_arg4) :=
  StableHlo.after_of_forall_not_mem (b := Proc.devRef .tc main_arg4) _ _ (List.forall_iff_forall_mem.mp (by unwritten [hostOps2]))
theorem keeps0_arg5 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by unwritten [hostOps0]))
theorem keeps1_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by unwritten [hostOps1]))
theorem keeps2_arg5 (c : Dev nD) : W5 m ρ c (Proc.devRef .tc main_arg5) = W4 m ρ c (Proc.devRef .tc main_arg5) :=
  StableHlo.after_of_forall_not_mem (b := Proc.devRef .tc main_arg5) _ _ (List.forall_iff_forall_mem.mp (by unwritten [hostOps2]))
theorem keeps0_arg6 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by unwritten [hostOps0]))
theorem keeps1_arg6 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by unwritten [hostOps1]))
theorem keeps2_arg6 (c : Dev nD) : W5 m ρ c (Proc.devRef .tc main_arg6) = W4 m ρ c (Proc.devRef .tc main_arg6) :=
  StableHlo.after_of_forall_not_mem (b := Proc.devRef .tc main_arg6) _ _ (List.forall_iff_forall_mem.mp (by unwritten [hostOps2]))
theorem keeps0_arg7 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by unwritten [hostOps0]))
theorem keeps1_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by unwritten [hostOps1]))
theorem keeps2_arg7 (c : Dev nD) : W5 m ρ c (Proc.devRef .tc main_arg7) = W4 m ρ c (Proc.devRef .tc main_arg7) :=
  StableHlo.after_of_forall_not_mem (b := Proc.devRef .tc main_arg7) _ _ (List.forall_iff_forall_mem.mp (by unwritten [hostOps2]))
theorem keeps0_arg8 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by unwritten [hostOps0]))
theorem keeps1_arg8 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by unwritten [hostOps1]))
theorem keeps2_arg8 (c : Dev nD) : W5 m ρ c (Proc.devRef .tc main_arg8) = W4 m ρ c (Proc.devRef .tc main_arg8) :=
  StableHlo.after_of_forall_not_mem (b := Proc.devRef .tc main_arg8) _ _ (List.forall_iff_forall_mem.mp (by unwritten [hostOps2]))
theorem keeps0_arg9 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by unwritten [hostOps0]))
theorem keeps1_arg9 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by unwritten [hostOps1]))
theorem keeps2_arg9 (c : Dev nD) : W5 m ρ c (Proc.devRef .tc main_arg9) = W4 m ρ c (Proc.devRef .tc main_arg9) :=
  StableHlo.after_of_forall_not_mem (b := Proc.devRef .tc main_arg9) _ _ (List.forall_iff_forall_mem.mp (by unwritten [hostOps2]))
theorem keeps0_arg10 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by unwritten [hostOps0]))
theorem keeps1_arg10 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by unwritten [hostOps1]))
theorem keeps2_arg10 (c : Dev nD) : W5 m ρ c (Proc.devRef .tc main_arg10) = W4 m ρ c (Proc.devRef .tc main_arg10) :=
  StableHlo.after_of_forall_not_mem (b := Proc.devRef .tc main_arg10) _ _ (List.forall_iff_forall_mem.mp (by unwritten [hostOps2]))

/-! ## Every argument ends as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := keeps2_arg0 m ρ c
    _ = W3 m ρ c (Proc.devRef .tc main_arg0) := W4_of_ne m ρ c main_arg0 (by decide)
    _ = W2 m ρ c (Proc.devRef .tc main_arg0) := keeps1_arg0 m ρ c
    _ = W1 m ρ c (Proc.devRef .tc main_arg0) := W2_of_ne m ρ c main_arg0 (by decide)
    _ = W0 m ρ c (Proc.devRef .tc main_arg0) := keeps0_arg0 m ρ c
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := keeps2_arg1 m ρ c
    _ = W3 m ρ c (Proc.devRef .tc main_arg1) := W4_of_ne m ρ c main_arg1 (by decide)
    _ = W2 m ρ c (Proc.devRef .tc main_arg1) := keeps1_arg1 m ρ c
    _ = W1 m ρ c (Proc.devRef .tc main_arg1) := W2_of_ne m ρ c main_arg1 (by decide)
    _ = W0 m ρ c (Proc.devRef .tc main_arg1) := keeps0_arg1 m ρ c
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := keeps2_arg2 m ρ c
    _ = W3 m ρ c (Proc.devRef .tc main_arg2) := W4_of_ne m ρ c main_arg2 (by decide)
    _ = W2 m ρ c (Proc.devRef .tc main_arg2) := keeps1_arg2 m ρ c
    _ = W1 m ρ c (Proc.devRef .tc main_arg2) := W2_of_ne m ρ c main_arg2 (by decide)
    _ = W0 m ρ c (Proc.devRef .tc main_arg2) := keeps0_arg2 m ρ c
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := keeps2_arg3 m ρ c
    _ = W3 m ρ c (Proc.devRef .tc main_arg3) := W4_of_ne m ρ c main_arg3 (by decide)
    _ = W2 m ρ c (Proc.devRef .tc main_arg3) := keeps1_arg3 m ρ c
    _ = W1 m ρ c (Proc.devRef .tc main_arg3) := W2_of_ne m ρ c main_arg3 (by decide)
    _ = W0 m ρ c (Proc.devRef .tc main_arg3) := keeps0_arg3 m ρ c
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := keeps2_arg4 m ρ c
    _ = W3 m ρ c (Proc.devRef .tc main_arg4) := W4_of_ne m ρ c main_arg4 (by decide)
    _ = W2 m ρ c (Proc.devRef .tc main_arg4) := keeps1_arg4 m ρ c
    _ = W1 m ρ c (Proc.devRef .tc main_arg4) := W2_of_ne m ρ c main_arg4 (by decide)
    _ = W0 m ρ c (Proc.devRef .tc main_arg4) := keeps0_arg4 m ρ c
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := keeps2_arg5 m ρ c
    _ = W3 m ρ c (Proc.devRef .tc main_arg5) := W4_of_ne m ρ c main_arg5 (by decide)
    _ = W2 m ρ c (Proc.devRef .tc main_arg5) := keeps1_arg5 m ρ c
    _ = W1 m ρ c (Proc.devRef .tc main_arg5) := W2_of_ne m ρ c main_arg5 (by decide)
    _ = W0 m ρ c (Proc.devRef .tc main_arg5) := keeps0_arg5 m ρ c
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := keeps2_arg6 m ρ c
    _ = W3 m ρ c (Proc.devRef .tc main_arg6) := W4_of_ne m ρ c main_arg6 (by decide)
    _ = W2 m ρ c (Proc.devRef .tc main_arg6) := keeps1_arg6 m ρ c
    _ = W1 m ρ c (Proc.devRef .tc main_arg6) := W2_of_ne m ρ c main_arg6 (by decide)
    _ = W0 m ρ c (Proc.devRef .tc main_arg6) := keeps0_arg6 m ρ c
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := keeps2_arg7 m ρ c
    _ = W3 m ρ c (Proc.devRef .tc main_arg7) := (W4_arr m ρ c 0).trans (((dat1 (V3 m ρ) c).arrAt_in 0 rfl _).trans (A_eq1 (V3 m ρ) c 0))
    _ = W2 m ρ c (Proc.devRef .tc main_arg7) := keeps1_arg7 m ρ c
    _ = W1 m ρ c (Proc.devRef .tc main_arg7) := W2_of_ne m ρ c main_arg7 (by decide)
    _ = W0 m ρ c (Proc.devRef .tc main_arg7) := keeps0_arg7 m ρ c
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := keeps2_arg8 m ρ c
    _ = W3 m ρ c (Proc.devRef .tc main_arg8) := W4_of_ne m ρ c main_arg8 (by decide)
    _ = W2 m ρ c (Proc.devRef .tc main_arg8) := keeps1_arg8 m ρ c
    _ = W1 m ρ c (Proc.devRef .tc main_arg8) := W2_of_ne m ρ c main_arg8 (by decide)
    _ = W0 m ρ c (Proc.devRef .tc main_arg8) := keeps0_arg8 m ρ c
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := keeps2_arg9 m ρ c
    _ = W3 m ρ c (Proc.devRef .tc main_arg9) := W4_of_ne m ρ c main_arg9 (by decide)
    _ = W2 m ρ c (Proc.devRef .tc main_arg9) := keeps1_arg9 m ρ c
    _ = W1 m ρ c (Proc.devRef .tc main_arg9) := W2_of_ne m ρ c main_arg9 (by decide)
    _ = W0 m ρ c (Proc.devRef .tc main_arg9) := keeps0_arg9 m ρ c
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := keeps2_arg10 m ρ c
    _ = W3 m ρ c (Proc.devRef .tc main_arg10) := W4_of_ne m ρ c main_arg10 (by decide)
    _ = W2 m ρ c (Proc.devRef .tc main_arg10) := keeps1_arg10 m ρ c
    _ = W1 m ρ c (Proc.devRef .tc main_arg10) := W2_of_ne m ρ c main_arg10 (by decide)
    _ = W0 m ρ c (Proc.devRef .tc main_arg10) := keeps0_arg10 m ρ c
    _ = m ((c : Thread nD τ).loc main_arg10) := rfl

/-! ## The proof data of the two launches, the thread state, the segments -/

abbrev adm : (p : Fin 2) → (pcfgs (F := F) p).Adm := fun p => (cfgs p).toPCfg_adm
/-- Each launch's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing term. -/
abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_eq0 (V1 m ρ) c]; unfold Pipeline.ΦA
    iintro ⟨Hp, -, Hr⟩
    isplitl [Hr]; · iexact Hr
    iexact Hp
  hout c := by
    rw [Pipeline.ownSems0_none]
    have hPhi := hout0 (V1 m ρ) c
    unfold Pipeline.ΦA at hPhi
    show (dat0 (V1 m ρ) c).Φ (Fin.last cfg0.N) ⊢ _
    iintro HPhi
    ihave H := hPhi $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi0_eq1 (V3 m ρ) c]; unfold Pipeline.ΦA
    iintro ⟨Hp, -, Hr⟩
    isplitl [Hr]; · iexact Hr
    iexact Hp
  hout c := by
    rw [Pipeline.ownSems0_none]
    have hPhi := hout1 (V3 m ρ) c
    unfold Pipeline.ΦA at hPhi
    show (dat1 (V3 m ρ) c).Φ (Fin.last cfg1.N) ⊢ _
    iintro HPhi
    ihave H := hPhi $$ HPhi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main terminates without a fault, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The same run read at the result buffer and at each argument array: the result at the last boundary's
    contents, every argument as launched. -/
theorem run_result : θ_run defs (onTc (τ := τ) (main (F := F))) ⟨m, fun _ => 0, ρ⟩ (fun r => ∀ c : Dev nD,
      r.2.mem ((c.tc : Thread nD τ).loc main_v81) = W5 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v81 (by decide)),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c)⟩) (run_all m ρ)

/-- The frame: @main terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_result m ρ)

end Cert.KernelIdeal.Frame

end
-- ==== Proof.LibEnergy.lean ====
import Mathlib.Data.EReal.Basic
import Mathlib.Data.EReal.Operations
import Mathlib.Data.EReal.Inv
import Mathlib.Algebra.BigOperators.Fin
import Mathlib.Algebra.BigOperators.Group.Finset.Basic
import Mathlib.Logic.Equiv.Fin.Basic

/-!
# Strain energy of a frame edge over the extended reals, and sums cut into blocks

Three general facts.

* **The per-edge law.**  The strain energy of one beam edge is an expression in the
  end displacements `(uAx, uAy, uAth)`, `(uBx, uBy, uBth)`, the direction cosines
  `cs, sn`, the length `L` and the section data `pE, pA, pI`.  Two spellings of it
  are compared: one groups a triple product as `(a * d) * d` and writes the opposite
  of `s` as `0 - s`; the other groups `a * (d * d)` and writes `-s`.  Over the
  extended reals multiplication is associative and `0 - s = -s`, and nothing more is
  needed: no distributivity and no cancellation (neither holds in `EReal`).  The
  quotient is an arbitrary binary function `D`, since both spellings divide the same
  operands.

* **A sum over blocks.**  In a commutative monoid, summing `a` blocks of `b`
  consecutive terms is summing all `a * b` terms.

* **An accumulator is a sum.**  A sequence started at `0 + g 0` and advanced by
  `acc (n + 1) = acc n + g (n + 1)` is the sequence of partial sums of `g`.
-/

namespace Cert.LibEnergy

open Finset

/-! ## The per-edge law -/

/-- The edge energy with triple products grouped to the left, `(a * d) * d`, and the
opposite of the sine spelt `0 - sn`.

Reading: `uA, uB` are the axial and `wA, wB` the transverse end displacements in the
edge's own frame, `du = uB - uA`, `dw = wB - wA`; the result is
`ax + D (pE * pI) (q * L) * ((b1 + b2) - b3)` with
`ax = ((h * D (pE * pA) L) * du) * du`,
`b1 = ((f * uAth) * uAth + (f * uBth) * uBth) + (f * uAth) * uBth`,
`b2 = D w (L * L) * ((wA * wA + wB * wB) - (q * wA) * wB)`,
`b3 = (D w L * dw) * (uAth + uBth)`. -/
noncomputable def edgeKer (D : EReal → EReal → EReal)
    (h q f w uAx uAy uAth uBx uBy uBth cs sn L pE pA pI : EReal) : EReal :=
  (((h * D (pE * pA) L)
        * ((cs * uBx + sn * uBy) - (cs * uAx + sn * uAy)))
      * ((cs * uBx + sn * uBy) - (cs * uAx + sn * uAy)))
    + D (pE * pI) (q * L)
      * (((((f * uAth) * uAth + (f * uBth) * uBth) + (f * uAth) * uBth)
          + D w (L * L)
            * (((((0 - sn) * uAx + cs * uAy) * ((0 - sn) * uAx + cs * uAy))
                + (((0 - sn) * uBx + cs * uBy) * ((0 - sn) * uBx + cs * uBy)))
              - (q * ((0 - sn) * uAx + cs * uAy)) * ((0 - sn) * uBx + cs * uBy)))
        - (D w L * (((0 - sn) * uBx + cs * uBy) - ((0 - sn) * uAx + cs * uAy)))
          * (uAth + uBth))

/-- The edge energy with triple products grouped to the right, `a * (d * d)`, and the
opposite of the sine spelt `-sn`.  Same reading as `edgeKer`, with
`ax = (h * D (pE * pA) L) * (du * du)` and
`b1 = (f * (uAth * uAth) + f * (uBth * uBth)) + (f * uAth) * uBth`. -/
noncomputable def edgeRef (D : EReal → EReal → EReal)
    (h q f w uAx uAy uAth uBx uBy uBth cs sn L pE pA pI : EReal) : EReal :=
  ((h * D (pE * pA) L)
      * (((cs * uBx + sn * uBy) - (cs * uAx + sn * uAy))
        * ((cs * uBx + sn * uBy) - (cs * uAx + sn * uAy))))
    + D (pE * pI) (q * L)
      * ((((f * (uAth * uAth) + f * (uBth * uBth)) + (f * uAth) * uBth)
          + D w (L * L)
            * (((((-sn) * uAx + cs * uAy) * ((-sn) * uAx + cs * uAy))
                + (((-sn) * uBx + cs * uBy) * ((-sn) * uBx + cs * uBy)))
              - (q * ((-sn) * uAx + cs * uAy)) * ((-sn) * uBx + cs * uBy)))
        - (D w L * (((-sn) * uBx + cs * uBy) - ((-sn) * uAx + cs * uAy)))
          * (uAth + uBth))

/-- In the extended reals `0 - s` is `-s`: subtraction is adding the opposite and
`0` is neutral for addition. -/
theorem ereal_zero_sub (s : EReal) : 0 - s = -s := by
  rw [sub_eq_add_neg, zero_add]

/-- The two spellings of the edge energy agree: re-grouping products is associativity of
multiplication, and `0 - sn = -sn`. -/
theorem edgeKer_eq_edgeRef (D : EReal → EReal → EReal)
    (h q f w uAx uAy uAth uBx uBy uBth cs sn L pE pA pI : EReal) :
    edgeKer D h q f w uAx uAy uAth uBx uBy uBth cs sn L pE pA pI
      = edgeRef D h q f w uAx uAy uAth uBx uBy uBth cs sn L pE pA pI := by
  unfold edgeKer edgeRef
  rw [ereal_zero_sub sn,
    mul_assoc (h * D (pE * pA) L) ((cs * uBx + sn * uBy) - (cs * uAx + sn * uAy))
      ((cs * uBx + sn * uBy) - (cs * uAx + sn * uAy)),
    mul_assoc f uAth uAth, mul_assoc f uBth uBth]

/-! ## A sum over blocks -/

section Blocks

variable {M : Type*} [AddCommMonoid M]

/-- Summing `a` blocks of `b` consecutive terms, the term of block `t` at place `k`
being `f (b * t + k)`, is summing the `a * b` terms `f 0, …, f (a * b - 1)`: the map
`(t, k) ↦ b * t + k` is a bijection from `Fin a × Fin b` onto `Fin (a * b)`. -/
theorem sum_blocks' (a b : ℕ) (f : ℕ → M) :
    ∑ t : Fin a, ∑ k : Fin b, f (b * t.val + k.val) = ∑ e : Fin (a * b), f e.val := by
  rw [← Equiv.sum_comp finProdFinEquiv (fun e : Fin (a * b) => f e.val),
    Fintype.sum_prod_type]
  refine Finset.sum_congr rfl fun t _ => Finset.sum_congr rfl fun k _ => ?_
  show f (b * t.val + k.val) = f (k.val + b * t.val)
  rw [Nat.add_comm]

/-- The same with the index of block `t`, place `k` written `t * b + k`. -/
theorem sum_blocks (a b : ℕ) (f : ℕ → M) :
    ∑ t : Fin a, ∑ k : Fin b, f (t.val * b + k.val) = ∑ e : Fin (a * b), f e.val := by
  rw [← sum_blocks' a b f]
  refine Finset.sum_congr rfl fun t _ => Finset.sum_congr rfl fun k _ => ?_
  rw [Nat.mul_comm]

/-- Three levels: `a` blocks of `b` rows of `c` columns, the row index of block `t`,
row `r` being `t * b + r`, sum to all `a * b` rows of `c` columns. -/
theorem sum_blocks_rows (a b c : ℕ) (f : ℕ → ℕ → M) :
    ∑ t : Fin a, ∑ r : Fin b, ∑ j : Fin c, f (t.val * b + r.val) j.val
      = ∑ n : Fin (a * b), ∑ j : Fin c, f n.val j.val :=
  sum_blocks a b (fun n => ∑ j : Fin c, f n j.val)

/-- The three-level sum with the row index written `b * t + r`. -/
theorem sum_blocks_rows' (a b c : ℕ) (f : ℕ → ℕ → M) :
    ∑ t : Fin a, ∑ r : Fin b, ∑ j : Fin c, f (b * t.val + r.val) j.val
      = ∑ n : Fin (a * b), ∑ j : Fin c, f n.val j.val :=
  sum_blocks' a b (fun n => ∑ j : Fin c, f n j.val)

end Blocks

/-! ## An accumulator is a sum -/

section Accumulator

variable {M : Type*} [AddCommMonoid M]

/-- A sequence with `acc 0 = 0 + g 0` and `acc (n + 1) = acc n + g (n + 1)` is the
sequence of partial sums `g 0 + ⋯ + g n`. -/
theorem acc_eq_sum (g : ℕ → M) (acc : ℕ → M) (h0 : acc 0 = 0 + g 0)
    (hs : ∀ n, acc (n + 1) = acc n + g (n + 1)) (n : ℕ) :
    acc n = ∑ s ∈ Finset.range (n + 1), g s := by
  induction n with
  | zero => rw [h0, zero_add, Finset.sum_range_one]
  | succ n ih => rw [hs n, ih, Finset.sum_range_succ _ (n + 1)]

/-- The bounded form: the accumulator is only defined at the indices below `N`, the
step law is only assumed where `n + 1 < N`, and the partial-sum formula holds at every
`n < N`. -/
theorem acc_eq_sum_lt (N : ℕ) (g : ℕ → M) (acc : (n : ℕ) → n < N → M)
    (h0 : ∀ h : 0 < N, acc 0 h = 0 + g 0)
    (hs : ∀ (n : ℕ) (h : n + 1 < N), acc (n + 1) h = acc n (Nat.lt_of_succ_lt h) + g (n + 1))
    (n : ℕ) (hn : n < N) :
    acc n hn = ∑ s ∈ Finset.range (n + 1), g s := by
  induction n with
  | zero => rw [h0 hn, zero_add, Finset.sum_range_one]
  | succ n ih =>
    rw [hs n hn, ih (Nat.lt_of_succ_lt hn), Finset.sum_range_succ _ (n + 1)]

/-- At the last index `N - 1` the bounded accumulator holds the whole sum
`∑ s : Fin N, g s`. -/
theorem acc_last_eq_sum (N : ℕ) (g : ℕ → M) (acc : (n : ℕ) → n < N → M)
    (h0 : ∀ h : 0 < N, acc 0 h = 0 + g 0)
    (hs : ∀ (n : ℕ) (h : n + 1 < N), acc (n + 1) h = acc n (Nat.lt_of_succ_lt h) + g (n + 1))
    (hN : N - 1 < N) :
    acc (N - 1) hN = ∑ s : Fin N, g s.val := by
  rw [acc_eq_sum_lt N g acc h0 hs (N - 1) hN, Fin.sum_univ_eq_sum_range g N]
  have hpos : 0 < N := Nat.lt_of_le_of_lt (Nat.zero_le _) hN
  rw [Nat.sub_add_cancel hpos]

/-- The unbounded accumulator at `N - 1`, for `0 < N`, holds `∑ s : Fin N, g s`. -/
theorem acc_eq_sum_fin (g : ℕ → M) (acc : ℕ → M) (h0 : acc 0 = 0 + g 0)
    (hs : ∀ n, acc (n + 1) = acc n + g (n + 1)) (N : ℕ) (hN : 0 < N) :
    acc (N - 1) = ∑ s : Fin N, g s.val := by
  rw [acc_eq_sum g acc h0 hs (N - 1), Nat.sub_add_cancel hN, Fin.sum_univ_eq_sum_range g N]

end Accumulator

end Cert.LibEnergy
-- ==== Proof.Spec.lean ====
/-
  The quantities both programs compute, over abstract arrays of extended reals.
  A start index selects a table row after being read as a signed integer and clamped into the table.
  An edge's strain energy is a fixed expression of the two selected rows of the displacement table,
  the edge's direction cosines, its length and its three stiffness properties. The programs return
  (sum of the edge energies − sum over nodes and components of force × displacement) / a scale.
-/
import proofs.«151812_j63788854280708_1_alg».proof.Proof.LibEnergy
import Idealize.ShloMosaic.PureOps.Ideal
import Idealize.ShloMosaic.Lib.ValueIdx

noncomputable section

namespace Cert.Spec

open Idealize.ShloMosaic Idealize.ShloMosaic.ValueIdx Cert.LibEnergy

/-- The table row a start index selects: the index read signed, clamped into `[0, 999999]`. -/
def rowOf (idx : IVec ⟨2, ![4000000, 1]⟩ 32) (e : Fin 4000000) : Fin 1000000 :=
  ⟨min (idx (ix2 e 0)).toInt.toNat (1000000 - 1), by omega⟩

/-- The four literals of the energy expression: one half, two, four, twelve. -/
def cHalf : EReal := Ideal.ofBits .f32 0x3F000000#32
def cTwo : EReal := Ideal.ofBits .f32 0x40000000#32
def cFour : EReal := Ideal.ofBits .f32 0x40800000#32
def cTwelve : EReal := Ideal.ofBits .f32 0x41400000#32

/-- One edge's energy in the kernel's grouping, from the displacement table `u`, the two start-index columns,
    the direction cosines, the lengths and the three property arrays. -/
def edgeAt (u : (⟨2, ![1000000, 3]⟩ : Shape).Idx → EReal) (iA iB : IVec ⟨2, ![4000000, 1]⟩ 32)
    (dir : (⟨2, ![4000000, 3]⟩ : Shape).Idx → EReal) (len pE pA pI : (⟨1, ![4000000]⟩ : Shape).Idx → EReal)
    (e : Fin 4000000) : EReal :=
  edgeKer Ideal.div cHalf cTwo cFour cTwelve
    (u (ix2 (rowOf iA e) 0)) (u (ix2 (rowOf iA e) 1)) (u (ix2 (rowOf iA e) 2))
    (u (ix2 (rowOf iB e) 0)) (u (ix2 (rowOf iB e) 1)) (u (ix2 (rowOf iB e) 2))
    (dir (ix2 e 0)) (dir (ix2 e 2)) (len (ix1 e)) (pE (ix1 e)) (pA (ix1 e)) (pI (ix1 e))

/-- The total strain energy. -/
def energy (u : (⟨2, ![1000000, 3]⟩ : Shape).Idx → EReal) (iA iB : IVec ⟨2, ![4000000, 1]⟩ 32)
    (dir : (⟨2, ![4000000, 3]⟩ : Shape).Idx → EReal) (len pE pA pI : (⟨1, ![4000000]⟩ : Shape).Idx → EReal) : EReal :=
  ∑ e : Fin 4000000, edgeAt u iA iB dir len pE pA pI e

/-- The external work: force times displacement, summed over nodes and components. -/
def work (f u : (⟨2, ![1000000, 3]⟩ : Shape).Idx → EReal) : EReal :=
  ∑ n : Fin 1000000, ∑ j : Fin 3, f (ix2 n j) * u (ix2 n j)

end Cert.Spec

end
-- ==== Proof.LibGather.lean ====
import Idealize.ShloMosaic.Lib.ValueIdx
import Idealize.ShloMosaic.PureOps.ShapeOps

/-!
# Reading a row-lookup gather at an index

What `x[idx]` of a table `x` at an integer column `idx : [R, 1]` of start indices means, one result element at a
time, for the two tables a lookup is made in: a vector `[N]` (each result element one entry) and a matrix `[N, C]`
(each result row one whole row of the table). In both the row read is the start index `idx[r, 0]` taken as a signed
integer and clamped into `[0, N − 1]` — the same expression of `idx (ix2 r 0)` in both, so that column `j` of the
matrix lookup is the vector lookup in column `j` of the table.
-/

noncomputable section

namespace Cert.LibGather

open Idealize.ShloMosaic Idealize.ShloMosaic.ValueIdx

variable {α : Type}

/-! ## A vector's entries by a column of start indices -/

/-- The dimension numbers of `x[idx]` for a vector `x : [N]` and start indices `idx : [R, 1]`: no offset axes, the one
    operand axis collapsed and named by the start index map, the index vector along axis 1, slices of one entry;
    the result is `[R]`. The conditions `wf` are an argument. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector lookup read at `r`, for the dimension numbers `vecDims`: the entry of `x` at the start index `idx[r, 0]`
    read as a signed integer and clamped into `[0, N − 1]`. -/
theorem gather_vecDims_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r 0)).toInt.toNat (N - 1), by omega⟩) := by
  unfold Host.gather
  congr 1
  funext a
  obtain rfl : a = 0 := Subsingleton.elim _ _
  refine Fin.ext ?_
  show (vecDims N R wf).start (ix1 r) idx 0 + (vecDims N R wf).batchCoord (ix1 r) 0
    + (vecDims N R wf).offCoord (ix1 r) 0 = _
  -- no batching axis; the one operand axis is collapsed, so it carries no offset
  have hb : (vecDims N R wf).batchCoord (ix1 r) 0 = 0 :=
    GatherDims.batchCoord_eq_zero _ _ _ List.not_mem_nil
  have ho : (vecDims N R wf).offCoord (ix1 r) 0 = 0 :=
    GatherDims.offCoord_eq_zero _ _ _ fun h => ((GatherDims.mem_sKept _ _).mp h).1 (List.mem_singleton.mpr rfl)
  rw [hb, ho]
  simp only [Nat.add_zero]
  -- the start on axis 0 is component 0 of the start index, read at `[r, 0]`
  have hmem : (0 : Fin 1) ∈ (vecDims N R wf).startIndexMap := List.mem_singleton.mpr rfl
  unfold GatherDims.start
  rw [dif_pos hmem]
  have hsi : (vecDims N R wf).siIdx (ix1 r)
      ⟨List.idxOf (0 : Fin 1) (vecDims N R wf).startIndexMap, List.idxOf_lt_length_iff.2 hmem⟩ = ix2 r 0 := by
    funext b
    refine Fin.ext ?_
    match b with
    | ⟨0, _⟩ => rfl
    | ⟨1, _⟩ => rfl
  rw [hsi]
  rfl

/-- THE VECTOR LOOKUP READ AT `r`, for any dimension record with those fields (each hypothesis is `rfl` at a record
    written out field by field): the entry of `x` at the start index `idx[r, 0]` read as a signed integer and clamped
    into `[0, N − 1]`. -/
theorem gather_vec_apply {N R w : Nat} (hN : 0 < N) (d : GatherDims ⟨1, ![N]⟩ ⟨2, ![R, 1]⟩ ⟨1, ![R]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![R, 1]⟩ w) (r : Fin R) :
    Host.gather d x idx (ix1 r) = x (ix1 ⟨min (idx (ix2 r 0)).toInt.toNat (N - 1), by omega⟩) := by
  obtain ⟨od, cd, ob, sb, sm, iv, ss, wf⟩ := d
  simp only at hod hcd hob hsb hsm hiv hss
  subst hod hcd hob hsb hsm hiv hss
  exact gather_vecDims_apply hN wf x idx r

/-! ## A matrix's rows by a column of start indices -/

/-- The dimension numbers of `x[idx]` for a matrix `x : [N, C]` and start indices `idx : [R, 1]`: the result's axis 1 the
    offset axis (it runs along the table's columns), operand axis 0 collapsed and named by the start index map, the
    index vector along axis 1, slices of one whole row; the result is `[R, C]`. The conditions `wf` are an argument. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row lookup read at `(r, j)`, for the dimension numbers `rowsDims`: column `j` of the row of `x` at the start index
    `idx[r, 0]` read as a signed integer and clamped into `[0, N − 1]`. -/
theorem gather_rowsDims_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (rowsDims N C R wf) x idx (ix2 r j)
      = x (ix2 ⟨min (idx (ix2 r 0)).toInt.toNat (N - 1), by omega⟩ j) := by
  unfold Host.gather
  congr 1
  funext a
  refine Fin.ext ?_
  show (rowsDims N C R wf).start (ix2 r j) idx a + (rowsDims N C R wf).batchCoord (ix2 r j) a
    + (rowsDims N C R wf).offCoord (ix2 r j) a = _
  -- no batching axis
  rw [GatherDims.batchCoord_eq_zero _ _ _ List.not_mem_nil, Nat.add_zero]
  match a with
  | ⟨0, _⟩ =>
    -- axis 0 is collapsed: no offset, and the start is component 0 of the start index, read at `[r, 0]`
    have ho : (rowsDims N C R wf).offCoord (ix2 r j) 0 = 0 :=
      GatherDims.offCoord_eq_zero _ _ _ fun h => ((GatherDims.mem_sKept _ _).mp h).1 (List.mem_singleton.mpr rfl)
    have hmem : (0 : Fin 2) ∈ (rowsDims N C R wf).startIndexMap := List.mem_singleton.mpr rfl
    show (rowsDims N C R wf).start (ix2 r j) idx 0 + (rowsDims N C R wf).offCoord (ix2 r j) 0 = _
    rw [ho, Nat.add_zero]
    unfold GatherDims.start
    rw [dif_pos hmem]
    have hsi : (rowsDims N C R wf).siIdx (ix2 r j)
        ⟨List.idxOf (0 : Fin 2) (rowsDims N C R wf).startIndexMap, List.idxOf_lt_length_iff.2 hmem⟩ = ix2 r 0 := by
      funext b
      refine Fin.ext ?_
      match b with
      | ⟨0, _⟩ => rfl
      | ⟨1, _⟩ => rfl
    rw [hsi]
    rfl
  | ⟨1, _⟩ =>
    -- axis 1 is not in the start index map: the start is 0; it is the one kept axis, read off the result's axis 1
    have h10 : (1 : Fin 2) ∉ [(0 : Fin 2)] := by decide
    have hnm : (1 : Fin 2) ∉ (rowsDims N C R wf).startIndexMap := h10
    have hk : (1 : Fin 2) ∈ (rowsDims N C R wf).sKept :=
      (GatherDims.mem_sKept _ _).mpr ⟨h10, List.not_mem_nil⟩
    show (rowsDims N C R wf).start (ix2 r j) idx 1 + (rowsDims N C R wf).offCoord (ix2 r j) 1 = j.val
    unfold GatherDims.start GatherDims.offCoord
    rw [dif_neg hnm, dif_pos hk, Nat.zero_add]
    rfl

/-- THE ROW LOOKUP READ AT `(r, j)`, for any dimension record with those fields (each hypothesis is `rfl` at a record
    written out field by field): column `j` of the row of `x` at the start index `idx[r, 0]` read as a signed integer
    and clamped into `[0, N − 1]` — the row `gather_vec_apply` reads. -/
theorem gather_rows_apply {N C R w : Nat} (hN : 0 < N) (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![R, 1]⟩ w) (r : Fin R) (j : Fin C) :
    Host.gather d x idx (ix2 r j) = x (ix2 ⟨min (idx (ix2 r 0)).toInt.toNat (N - 1), by omega⟩ j) := by
  obtain ⟨od, cd, ob, sb, sm, iv, ss, wf⟩ := d
  simp only at hod hcd hob hsb hsm hiv hss
  subst hod hcd hob hsb hsm hiv hss
  exact gather_rowsDims_apply hN wf x idx r j

end Cert.LibGather

end
-- ==== Proof.HostK.lean ====
/-
  The host operations of the kernel program's @main, read in the reference's terms.

  Before the first launch the program scales the raw displacement table, wraps the two start-index columns, selects
  with them the entries of each column of the table, and lays the selected entries, the two direction cosines, the
  lengths and the three properties out as rows of length 4000000. After the two launches it subtracts the work sum
  from the energy sum and divides by the floored product of two scale factors. The scaled table and the wrapped
  index columns are the reference's own stages; each laid-out row, read at an edge, is the entry the specification's
  edge energy takes; so the result is the reference's result once the two launches return the two sums.
-/
import proofs.«151812_j63788854280708_1_alg».proof.Proof.Run
import proofs.«151812_j63788854280708_1_alg».proof.Proof.Gen.ReferenceIdeal.Read
import proofs.«151812_j63788854280708_1_alg».proof.Proof.Spec
import proofs.«151812_j63788854280708_1_alg».proof.Proof.LibGather
import proofs.«151812_j63788854280708_1_alg».proof.Proof.LibEnergy
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! ## The reference's stages at the launch memory -/

/-- The scaled displacement table. -/
abbrev uT := Cert.ReferenceIdeal.Read.val_main_v3 (F := Ideal) (m ((c.tc : Thread nD τ).loc main_arg0))
  (m ((c.tc : Thread nD τ).loc main_arg8)) (m ((c.tc : Thread nD τ).loc main_arg9))
/-- The first start-index column, wrapped. -/
abbrev iAT := Cert.ReferenceIdeal.Read.val_main_v13 (F := Ideal) (m ((c.tc : Thread nD τ).loc main_arg1))
/-- The second start-index column, wrapped. -/
abbrev iBT := Cert.ReferenceIdeal.Read.val_main_v20 (F := Ideal) (m ((c.tc : Thread nD τ).loc main_arg1))

/-! ## The scaled table -/

theorem V1_u : V1 m ρ c main_v3 = uT m c := by
  show StableHlo.after hostOps0 (W0 m ρ c) (Proc.devRef .tc main_v3) = _
  after_results_simp
  unfold uT Cert.ReferenceIdeal.Read.val_main_v3 Cert.ReferenceIdeal.Read.val_main_v2 Cert.ReferenceIdeal.Read.val_main_v1
    Cert.ReferenceIdeal.Read.val_main_v0
  rfl

/-! ## The wrapped start-index columns (three textual copies of each chain) -/

theorem V1_iA19 : V1 m ρ c main_v19 = iAT m c := by
  show StableHlo.after hostOps0 (W0 m ρ c) (Proc.devRef .tc main_v19) = _
  after_results_simp
  unfold iAT Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v5 Cert.ReferenceIdeal.Read.val_main_v4 Cert.ReferenceIdeal.Read.val_main_c
    Cert.ReferenceIdeal.Read.val_main_c_0
  rfl

theorem V1_iA27 : V1 m ρ c main_v27 = iAT m c := by
  show StableHlo.after hostOps0 (W0 m ρ c) (Proc.devRef .tc main_v27) = _
  after_results_simp
  unfold iAT Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v5 Cert.ReferenceIdeal.Read.val_main_v4 Cert.ReferenceIdeal.Read.val_main_c
    Cert.ReferenceIdeal.Read.val_main_c_0
  rfl

theorem V1_iA35 : V1 m ρ c main_v35 = iAT m c := by
  show StableHlo.after hostOps0 (W0 m ρ c) (Proc.devRef .tc main_v35) = _
  after_results_simp
  unfold iAT Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v5 Cert.ReferenceIdeal.Read.val_main_v4 Cert.ReferenceIdeal.Read.val_main_c
    Cert.ReferenceIdeal.Read.val_main_c_0
  rfl

theorem V1_iB43 : V1 m ρ c main_v43 = iBT m c := by
  show StableHlo.after hostOps0 (W0 m ρ c) (Proc.devRef .tc main_v43) = _
  after_results_simp
  unfold iBT Cert.ReferenceIdeal.Read.val_main_v20 Cert.ReferenceIdeal.Read.val_main_v19 Cert.ReferenceIdeal.Read.val_main_v18
    Cert.ReferenceIdeal.Read.val_main_v17 Cert.ReferenceIdeal.Read.val_main_v16 Cert.ReferenceIdeal.Read.val_main_v15
    Cert.ReferenceIdeal.Read.val_main_v7 Cert.ReferenceIdeal.Read.val_main_v6 Cert.ReferenceIdeal.Read.val_main_c_1
    Cert.ReferenceIdeal.Read.val_main_c_2
  rfl

theorem V1_iB51 : V1 m ρ c main_v51 = iBT m c := by
  show StableHlo.after hostOps0 (W0 m ρ c) (Proc.devRef .tc main_v51) = _
  after_results_simp
  unfold iBT Cert.ReferenceIdeal.Read.val_main_v20 Cert.ReferenceIdeal.Read.val_main_v19 Cert.ReferenceIdeal.Read.val_main_v18
    Cert.ReferenceIdeal.Read.val_main_v17 Cert.ReferenceIdeal.Read.val_main_v16 Cert.ReferenceIdeal.Read.val_main_v15
    Cert.ReferenceIdeal.Read.val_main_v7 Cert.ReferenceIdeal.Read.val_main_v6 Cert.ReferenceIdeal.Read.val_main_c_1
    Cert.ReferenceIdeal.Read.val_main_c_2
  rfl

theorem V1_iB59 : V1 m ρ c main_v59 = iBT m c := by
  show StableHlo.after hostOps0 (W0 m ρ c) (Proc.devRef .tc main_v59) = _
  after_results_simp
  unfold iBT Cert.ReferenceIdeal.Read.val_main_v20 Cert.ReferenceIdeal.Read.val_main_v19 Cert.ReferenceIdeal.Read.val_main_v18
    Cert.ReferenceIdeal.Read.val_main_v17 Cert.ReferenceIdeal.Read.val_main_v16 Cert.ReferenceIdeal.Read.val_main_v15
    Cert.ReferenceIdeal.Read.val_main_v7 Cert.ReferenceIdeal.Read.val_main_v6 Cert.ReferenceIdeal.Read.val_main_c_1
    Cert.ReferenceIdeal.Read.val_main_c_2
  rfl

/-! ## Reading the laid-out rows

  Three layout facts over arbitrary arrays. Dropping the unit axis of an `[n, 1]` array reads, at `r`, the array at
  `(r, 0)`. A column `o` of a table, its entries selected by a column of start indices and laid out as a row `[1, R]`,
  reads at `(0, e)` the table at (the row the start index of `e` selects, `o`). A column `o` of an `[R, K]` array laid
  out as a row reads at `(0, e)` the array at `(e, o)`. -/

theorem squeeze_col_apply {n : Nat} {α : Type} (y : (⟨2, ![n, 1]⟩ : Shape).Idx → α)
    (h : (⟨2, ![n, 1]⟩ : Shape).ShapeCasts ⟨1, ![n]⟩) (r : Fin n) :
    shapeCast ⟨1, ![n]⟩ y h (ix1 r) = y (ix2 r 0) :=
  shapeCast_apply y h _ _ (by
    rw [Shape.rowMajor_val_two, Shape.rowMajor_val_one]
    show r.val * 1 + 0 = r.val
    omega)

theorem colLookup_apply {N K R w : Nat} {α : Type} (hN : 0 < N) (o : Nat) (k : Fin K) (hk : k.val = o + (0 : Fin 1).val)
    (u : (⟨2, ![N, K]⟩ : Shape).Idx → α) (idx : IVec ⟨2, ![R, 1]⟩ w)
    (hs : (⟨2, ![N, K]⟩ : Shape).Slices ![0, o] ⟨2, ![N, 1]⟩) (hc : (⟨2, ![N, 1]⟩ : Shape).ShapeCasts ⟨1, ![N]⟩)
    (d : GatherDims ⟨1, ![N]⟩ ⟨2, ![R, 1]⟩ ⟨1, ![R]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (hr : (⟨1, ![R]⟩ : Shape).ShapeCasts ⟨2, ![1, R]⟩) (e : Fin R) :
    shapeCast ⟨2, ![1, R]⟩
        (Host.gather d (shapeCast ⟨1, ![N]⟩ (extractStridedSlice ⟨2, ![N, 1]⟩ ![0, o] u hs) hc) idx) hr (ix2 0 e)
      = u (ix2 ⟨min (idx (ix2 e 0)).toInt.toNat (N - 1), by omega⟩ k) := by
  rw [shapeCast_a_1a_apply, Cert.LibGather.gather_vec_apply hN d hod hcd hob hsb hsm hiv hss, squeeze_col_apply,
    slice2_axis1_apply o u hs _ 0 k hk]

theorem colRow_apply {R K : Nat} {α : Type} (o : Nat) (k : Fin K) (hk : k.val = o + (0 : Fin 1).val)
    (x : (⟨2, ![R, K]⟩ : Shape).Idx → α)
    (hs : (⟨2, ![R, K]⟩ : Shape).Slices ![0, o] ⟨2, ![R, 1]⟩) (hc : (⟨2, ![R, 1]⟩ : Shape).ShapeCasts ⟨1, ![R]⟩)
    (hr : (⟨1, ![R]⟩ : Shape).ShapeCasts ⟨2, ![1, R]⟩) (e : Fin R) :
    shapeCast ⟨2, ![1, R]⟩ (shapeCast ⟨1, ![R]⟩ (extractStridedSlice ⟨2, ![R, 1]⟩ ![0, o] x hs) hc) hr (ix2 0 e)
      = x (ix2 e k) := by
  rw [shapeCast_a_1a_apply, squeeze_col_apply, slice2_axis1_apply o x hs _ 0 k hk]

/-! ## The six selected displacement rows, at an edge -/

theorem V1_v21 (e : Fin 4000000) :
    V1 m ρ c main_v21 (ix2 0 e) = uT m c (ix2 (Cert.Spec.rowOf (iAT m c) e) 0) := by
  have h : V1 m ρ c main_v21
      = shapeCast S1x4000000
          (Host.gather gather_S1000000_S4000000x1_S4000000_n_0_n_n_0_1_1
            (shapeCast S1000000 (extractStridedSlice S1000000x1 ![0, 0] (V1 m ρ c main_v3) slices_S1000000x3_S1000000x1_0_0)
              shapeCasts_S1000000x1_S1000000)
            (V1 m ρ c main_v19))
          shapeCasts_S4000000_S1x4000000 := by
    show StableHlo.after hostOps0 (W0 m ρ c) (Proc.devRef .tc main_v21)
      = shapeCast S1x4000000
          (Host.gather gather_S1000000_S4000000x1_S4000000_n_0_n_n_0_1_1
            (shapeCast S1000000
              (extractStridedSlice S1000000x1 ![0, 0] (StableHlo.after hostOps0 (W0 m ρ c) (Proc.devRef .tc main_v3))
                slices_S1000000x3_S1000000x1_0_0)
              shapeCasts_S1000000x1_S1000000)
            (StableHlo.after hostOps0 (W0 m ρ c) (Proc.devRef .tc main_v19)))
          shapeCasts_S4000000_S1x4000000
    after_results_simp
    rfl
  rw [h, V1_u, V1_iA19]
  exact colLookup_apply (by omega) 0 0 rfl _ _ _ _ _ rfl rfl rfl rfl rfl rfl rfl _ e

theorem V1_v29 (e : Fin 4000000) :
    V1 m ρ c main_v29 (ix2 0 e) = uT m c (ix2 (Cert.Spec.rowOf (iAT m c) e) 1) := by
  have h : V1 m ρ c main_v29
      = shapeCast S1x4000000
          (Host.gather gather_S1000000_S4000000x1_S4000000_n_0_n_n_0_1_1
            (shapeCast S1000000 (extractStridedSlice S1000000x1 ![0, 1] (V1 m ρ c main_v3) slices_S1000000x3_S1000000x1_0_1)
              shapeCasts_S1000000x1_S1000000)
            (V1 m ρ c main_v27))
          shapeCasts_S4000000_S1x4000000 := by
    show StableHlo.after hostOps0 (W0 m ρ c) (Proc.devRef .tc main_v29)
      = shapeCast S1x4000000
          (Host.gather gather_S1000000_S4000000x1_S4000000_n_0_n_n_0_1_1
            (shapeCast S1000000
              (extractStridedSlice S1000000x1 ![0, 1] (StableHlo.after hostOps0 (W0 m ρ c) (Proc.devRef .tc main_v3))
                slices_S1000000x3_S1000000x1_0_1)
              shapeCasts_S1000000x1_S1000000)
            (StableHlo.after hostOps0 (W0 m ρ c) (Proc.devRef .tc main_v27)))
          shapeCasts_S4000000_S1x4000000
    after_results_simp
    rfl
  rw [h, V1_u, V1_iA27]
  exact colLookup_apply (by omega) 1 1 rfl _ _ _ _ _ rfl rfl rfl rfl rfl rfl rfl _ e

theorem V1_v37 (e : Fin 4000000) :
    V1 m ρ c main_v37 (ix2 0 e) = uT m c (ix2 (Cert.Spec.rowOf (iAT m c) e) 2) := by
  have h : V1 m ρ c main_v37
      = shapeCast S1x4000000
          (Host.gather gather_S1000000_S4000000x1_S4000000_n_0_n_n_0_1_1
            (shapeCast S1000000 (extractStridedSlice S1000000x1 ![0, 2] (V1 m ρ c main_v3) slices_S1000000x3_S1000000x1_0_2)
              shapeCasts_S1000000x1_S1000000)
            (V1 m ρ c main_v35))
          shapeCasts_S4000000_S1x4000000 := by
    show StableHlo.after hostOps0 (W0 m ρ c) (Proc.devRef .tc main_v37)
      = shapeCast S1x4000000
          (Host.gather gather_S1000000_S4000000x1_S4000000_n_0_n_n_0_1_1
            (shapeCast S1000000
              (extractStridedSlice S1000000x1 ![0, 2] (StableHlo.after hostOps0 (W0 m ρ c) (Proc.devRef .tc main_v3))
                slices_S1000000x3_S1000000x1_0_2)
              shapeCasts_S1000000x1_S1000000)
            (StableHlo.after hostOps0 (W0 m ρ c) (Proc.devRef .tc main_v35)))
          shapeCasts_S4000000_S1x4000000
    after_results_simp
    rfl
  rw [h, V1_u, V1_iA35]
  exact colLookup_apply (by omega) 2 2 rfl _ _ _ _ _ rfl rfl rfl rfl rfl rfl rfl _ e

theorem V1_v45 (e : Fin 4000000) :
    V1 m ρ c main_v45 (ix2 0 e) = uT m c (ix2 (Cert.Spec.rowOf (iBT m c) e) 0) := by
  have h : V1 m ρ c main_v45
      = shapeCast S1x4000000
          (Host.gather gather_S1000000_S4000000x1_S4000000_n_0_n_n_0_1_1
            (shapeCast S1000000 (extractStridedSlice S1000000x1 ![0, 0] (V1 m ρ c main_v3) slices_S1000000x3_S1000000x1_0_0)
              shapeCasts_S1000000x1_S1000000)
            (V1 m ρ c main_v43))
          shapeCasts_S4000000_S1x4000000 := by
    show StableHlo.after hostOps0 (W0 m ρ c) (Proc.devRef .tc main_v45)
      = shapeCast S1x4000000
          (Host.gather gather_S1000000_S4000000x1_S4000000_n_0_n_n_0_1_1
            (shapeCast S1000000
              (extractStridedSlice S1000000x1 ![0, 0] (StableHlo.after hostOps0 (W0 m ρ c) (Proc.devRef .tc main_v3))
                slices_S1000000x3_S1000000x1_0_0)
              shapeCasts_S1000000x1_S1000000)
            (StableHlo.after hostOps0 (W0 m ρ c) (Proc.devRef .tc main_v43)))
          shapeCasts_S4000000_S1x4000000
    after_results_simp
    rfl
  rw [h, V1_u, V1_iB43]
  exact colLookup_apply (by omega) 0 0 rfl _ _ _ _ _ rfl rfl rfl rfl rfl rfl rfl _ e

theorem V1_v53 (e : Fin 4000000) :
    V1 m ρ c main_v53 (ix2 0 e) = uT m c (ix2 (Cert.Spec.rowOf (iBT m c) e) 1) := by
  have h : V1 m ρ c main_v53
      = shapeCast S1x4000000
          (Host.gather gather_S1000000_S4000000x1_S4000000_n_0_n_n_0_1_1
            (shapeCast S1000000 (extractStridedSlice S1000000x1 ![0, 1] (V1 m ρ c main_v3) slices_S1000000x3_S1000000x1_0_1)
              shapeCasts_S1000000x1_S1000000)
            (V1 m ρ c main_v51))
          shapeCasts_S4000000_S1x4000000 := by
    show StableHlo.after hostOps0 (W0 m ρ c) (Proc.devRef .tc main_v53)
      = shapeCast S1x4000000
          (Host.gather gather_S1000000_S4000000x1_S4000000_n_0_n_n_0_1_1
            (shapeCast S1000000
              (extractStridedSlice S1000000x1 ![0, 1] (StableHlo.after hostOps0 (W0 m ρ c) (Proc.devRef .tc main_v3))
                slices_S1000000x3_S1000000x1_0_1)
              shapeCasts_S1000000x1_S1000000)
            (StableHlo.after hostOps0 (W0 m ρ c) (Proc.devRef .tc main_v51)))
          shapeCasts_S4000000_S1x4000000
    after_results_simp
    rfl
  rw [h, V1_u, V1_iB51]
  exact colLookup_apply (by omega) 1 1 rfl _ _ _ _ _ rfl rfl rfl rfl rfl rfl rfl _ e

theorem V1_v61 (e : Fin 4000000) :
    V1 m ρ c main_v61 (ix2 0 e) = uT m c (ix2 (Cert.Spec.rowOf (iBT m c) e) 2) := by
  have h : V1 m ρ c main_v61
      = shapeCast S1x4000000
          (Host.gather gather_S1000000_S4000000x1_S4000000_n_0_n_n_0_1_1
            (shapeCast S1000000 (extractStridedSlice S1000000x1 ![0, 2] (V1 m ρ c main_v3) slices_S1000000x3_S1000000x1_0_2)
              shapeCasts_S1000000x1_S1000000)
            (V1 m ρ c main_v59))
          shapeCasts_S4000000_S1x4000000 := by
    show StableHlo.after hostOps0 (W0 m ρ c) (Proc.devRef .tc main_v61)
      = shapeCast S1x4000000
          (Host.gather gather_S1000000_S4000000x1_S4000000_n_0_n_n_0_1_1
            (shapeCast S1000000
              (extractStridedSlice S1000000x1 ![0, 2] (StableHlo.after hostOps0 (W0 m ρ c) (Proc.devRef .tc main_v3))
                slices_S1000000x3_S1000000x1_0_2)
              shapeCasts_S1000000x1_S1000000)
            (StableHlo.after hostOps0 (W0 m ρ c) (Proc.devRef .tc main_v59)))
          shapeCasts_S4000000_S1x4000000
    after_results_simp
    rfl
  rw [h, V1_u, V1_iB59]
  exact colLookup_apply (by omega) 2 2 rfl _ _ _ _ _ rfl rfl rfl rfl rfl rfl rfl _ e

/-! ## The two direction cosines, the length and the three properties, at an edge -/

theorem V1_v64 (e : Fin 4000000) :
    V1 m ρ c main_v64 (ix2 0 e) = m ((c.tc : Thread nD τ).loc main_arg6) (ix2 e 0) := by
  have h : V1 m ρ c main_v64
      = shapeCast S1x4000000
          (shapeCast S4000000
            (extractStridedSlice S4000000x1 ![0, 0] (m ((c.tc : Thread nD τ).loc main_arg6)) slices_S4000000x3_S4000000x1_0_0)
            shapeCasts_S4000000x1_S4000000)
          shapeCasts_S4000000_S1x4000000 := by
    show StableHlo.after hostOps0 (W0 m ρ c) (Proc.devRef .tc main_v64) = _
    after_results_simp
    rfl
  rw [h]
  exact colRow_apply 0 0 rfl _ _ _ _ e

theorem V1_v67 (e : Fin 4000000) :
    V1 m ρ c main_v67 (ix2 0 e) = m ((c.tc : Thread nD τ).loc main_arg6) (ix2 e 2) := by
  have h : V1 m ρ c main_v67
      = shapeCast S1x4000000
          (shapeCast S4000000
            (extractStridedSlice S4000000x1 ![0, 2] (m ((c.tc : Thread nD τ).loc main_arg6)) slices_S4000000x3_S4000000x1_0_2)
            shapeCasts_S4000000x1_S4000000)
          shapeCasts_S4000000_S1x4000000 := by
    show StableHlo.after hostOps0 (W0 m ρ c) (Proc.devRef .tc main_v67) = _
    after_results_simp
    rfl
  rw [h]
  exact colRow_apply 2 2 rfl _ _ _ _ e

theorem V1_v68 (e : Fin 4000000) :
    V1 m ρ c main_v68 (ix2 0 e) = m ((c.tc : Thread nD τ).loc main_arg2) (ix1 e) := by
  have h : V1 m ρ c main_v68
      = shapeCast S1x4000000 (m ((c.tc : Thread nD τ).loc main_arg2)) shapeCasts_S4000000_S1x4000000 := by
    show StableHlo.after hostOps0 (W0 m ρ c) (Proc.devRef .tc main_v68) = _
    after_results_simp
    rfl
  rw [h]
  exact shapeCast_a_1a_apply _ _ 0 e

theorem V1_v69 (e : Fin 4000000) :
    V1 m ρ c main_v69 (ix2 0 e) = m ((c.tc : Thread nD τ).loc main_arg3) (ix1 e) := by
  have h : V1 m ρ c main_v69
      = shapeCast S1x4000000 (m ((c.tc : Thread nD τ).loc main_arg3)) shapeCasts_S4000000_S1x4000000 := by
    show StableHlo.after hostOps0 (W0 m ρ c) (Proc.devRef .tc main_v69) = _
    after_results_simp
    rfl
  rw [h]
  exact shapeCast_a_1a_apply _ _ 0 e

theorem V1_v70 (e : Fin 4000000) :
    V1 m ρ c main_v70 (ix2 0 e) = m ((c.tc : Thread nD τ).loc main_arg4) (ix1 e) := by
  have h : V1 m ρ c main_v70
      = shapeCast S1x4000000 (m ((c.tc : Thread nD τ).loc main_arg4)) shapeCasts_S4000000_S1x4000000 := by
    show StableHlo.after hostOps0 (W0 m ρ c) (Proc.devRef .tc main_v70) = _
    after_results_simp
    rfl
  rw [h]
  exact shapeCast_a_1a_apply _ _ 0 e

theorem V1_v71 (e : Fin 4000000) :
    V1 m ρ c main_v71 (ix2 0 e) = m ((c.tc : Thread nD τ).loc main_arg5) (ix1 e) := by
  have h : V1 m ρ c main_v71
      = shapeCast S1x4000000 (m ((c.tc : Thread nD τ).loc main_arg5)) shapeCasts_S4000000_S1x4000000 := by
    show StableHlo.after hostOps0 (W0 m ρ c) (Proc.devRef .tc main_v71) = _
    after_results_simp
    rfl
  rw [h]
  exact shapeCast_a_1a_apply _ _ 0 e

/-! ## Across the first launch and the reshape after it -/

/-- Each operation writes only its own result buffer; a buffer that is none of those is not written. -/
local macro "unwritten" "[" ops:ident "]" : tactic => `(tactic|
  (simp only [$ops:ident, List.flatten_cons, List.flatten_nil, List.append_nil, List.cons_append, List.nil_append, List.Forall,
      StableHlo.nary_writes, StableHlo.nullary_writes, StableHlo.unary_writes, StableHlo.binary_writes, StableHlo.ternary_writes,
      StableHlo.quaternary_writes, StableHlo.reshape_writes, StableHlo.binaryIndexed_writes, Finset.mem_singleton]
   repeat' apply And.intro
   all_goals exact StableHlo.devRef_ne_of_ne (by decide)))

/-- The scaled table is still in place when the second launch is entered. -/
theorem V3_u : V3 m ρ c main_v3 = uT m c :=
  calc V3 m ρ c main_v3
    _ = W2 m ρ c (Proc.devRef .tc main_v3) :=
        StableHlo.after_of_forall_not_mem (b := Proc.devRef .tc main_v3) _ _ (List.forall_iff_forall_mem.mp (by unwritten [hostOps1]))
    _ = W1 m ρ c (Proc.devRef .tc main_v3) := W2_of_ne m ρ c main_v3 (by decide)
    _ = uT m c := V1_u m ρ c

/-- So is the force array. -/
theorem V3_arg7 : V3 m ρ c main_arg7 = m ((c.tc : Thread nD τ).loc main_arg7) :=
  calc V3 m ρ c main_arg7
    _ = W2 m ρ c (Proc.devRef .tc main_arg7) := keeps1_arg7 m ρ c
    _ = W1 m ρ c (Proc.devRef .tc main_arg7) := W2_of_ne m ρ c main_arg7 (by decide)
    _ = W0 m ρ c (Proc.devRef .tc main_arg7) := keeps0_arg7 m ρ c
    _ = m ((c.tc : Thread nD τ).loc main_arg7) := rfl

/-! ## One edge's energy over the laid-out rows -/

theorem edge_entries (e : Fin 4000000) :
    Cert.LibEnergy.edgeKer Ideal.div Cert.Spec.cHalf Cert.Spec.cTwo Cert.Spec.cFour Cert.Spec.cTwelve
        (V1 m ρ c main_v21 (ix2 0 e)) (V1 m ρ c main_v29 (ix2 0 e)) (V1 m ρ c main_v37 (ix2 0 e))
        (V1 m ρ c main_v45 (ix2 0 e)) (V1 m ρ c main_v53 (ix2 0 e)) (V1 m ρ c main_v61 (ix2 0 e))
        (V1 m ρ c main_v64 (ix2 0 e)) (V1 m ρ c main_v67 (ix2 0 e)) (V1 m ρ c main_v68 (ix2 0 e))
        (V1 m ρ c main_v69 (ix2 0 e)) (V1 m ρ c main_v70 (ix2 0 e)) (V1 m ρ c main_v71 (ix2 0 e))
      = Cert.Spec.edgeAt (uT m c) (iAT m c) (iBT m c) (m ((c.tc : Thread nD τ).loc main_arg6))
          (m ((c.tc : Thread nD τ).loc main_arg2)) (m ((c.tc : Thread nD τ).loc main_arg3))
          (m ((c.tc : Thread nD τ).loc main_arg4)) (m ((c.tc : Thread nD τ).loc main_arg5)) e := by
  rw [V1_v21, V1_v29, V1_v37, V1_v45, V1_v53, V1_v61, V1_v64, V1_v67, V1_v68, V1_v69, V1_v70, V1_v71]
  rfl

/-! ## The result -/

/-- Dropping the one axis of a one-element array reads its one entry. -/
theorem scalar_of_one {α : Type} (x : (⟨1, ![1]⟩ : Shape).Idx → α) (h : (⟨1, ![1]⟩ : Shape).ShapeCasts ⟨0, ![]⟩)
    (i : (⟨0, ![]⟩ : Shape).Idx) : shapeCast ⟨0, ![]⟩ x h i = x (ix1 0) := by
  refine shapeCast_apply x h i (ix1 0) ?_
  -- both positions are 0: the one entry of the operand, the one index of the result
  have h1 : ((⟨1, ![1]⟩ : Shape).rowMajor (ix1 (0 : Fin 1))).val = 0 := by rw [Shape.rowMajor_val_one]; rfl
  have h2 : ((⟨0, ![]⟩ : Shape).rowMajor i).val = 0 := Shape.rowMajorPi_zero _ i
  exact h1.trans h2.symm

/-- The host's quotient of two arrays, at an index. -/
theorem hostDivf_at {s : Shape} {φ : FTy} (a b : FVec Ideal s φ) (i : s.Idx) :
    Host.divf a b i = Ideal.div (a i) (b i) := rfl

/-- THE RESULT AT ITS INDEX, given what the two launches leave in their result arrays: the first the sum over the edges
    of the edge energy of the laid-out rows, the second the work of the force array on the scaled table. It is the
    reference's result: (total strain energy − external work) divided by the larger of the product of the two scale
    factors and the floor literal. -/
theorem W5_result_at (i : S_.Idx)
    (h0 : (dat0 (F := Ideal) (V1 m ρ) c).arrAt 12 cfg0.N = fun _ => ∑ e : Fin 4000000,
      Cert.LibEnergy.edgeKer Ideal.div Cert.Spec.cHalf Cert.Spec.cTwo Cert.Spec.cFour Cert.Spec.cTwelve
        (V1 m ρ c main_v21 (ix2 0 e)) (V1 m ρ c main_v29 (ix2 0 e)) (V1 m ρ c main_v37 (ix2 0 e))
        (V1 m ρ c main_v45 (ix2 0 e)) (V1 m ρ c main_v53 (ix2 0 e)) (V1 m ρ c main_v61 (ix2 0 e))
        (V1 m ρ c main_v64 (ix2 0 e)) (V1 m ρ c main_v67 (ix2 0 e)) (V1 m ρ c main_v68 (ix2 0 e))
        (V1 m ρ c main_v69 (ix2 0 e)) (V1 m ρ c main_v70 (ix2 0 e)) (V1 m ρ c main_v71 (ix2 0 e)))
    (h1 : (dat1 (F := Ideal) (V3 m ρ) c).arrAt 2 cfg1.N
      = fun _ => Cert.Spec.work (V3 m ρ c main_arg7) (V3 m ρ c main_v3)) :
    W5 m ρ c (Proc.devRef .tc main_v81) i
      = Ideal.div
          (Cert.Spec.energy (uT m c) (iAT m c) (iBT m c) (m ((c.tc : Thread nD τ).loc main_arg6))
              (m ((c.tc : Thread nD τ).loc main_arg2)) (m ((c.tc : Thread nD τ).loc main_arg3))
              (m ((c.tc : Thread nD τ).loc main_arg4)) (m ((c.tc : Thread nD τ).loc main_arg5))
            - Cert.Spec.work (m ((c.tc : Thread nD τ).loc main_arg7)) (uT m c))
          (max (HMul.hMul (α := EReal) (β := EReal) (γ := EReal) (m ((c.tc : Thread nD τ).loc main_arg10) (ix1 0))
              (m ((c.tc : Thread nD τ).loc main_arg8) (ix1 0)))
            (Ideal.ofBits .f32 0x0DA24260#32)) := by
  -- the energy sum: the first launch's result array, through the reshape between the launches and across the second launch
  have a72 : W2 m ρ c (Proc.devRef .tc main_v72) = (dat0 (V1 m ρ) c).arrAt 12 cfg0.N := W2_arr m ρ c 12
  have hW3 : W3 m ρ c (Proc.devRef .tc main_v73)
      = shapeCast S_ (W2 m ρ c (Proc.devRef .tc main_v72)) shapeCasts_S1x1_S_ := by
    show StableHlo.after hostOps1 (W2 m ρ c) (Proc.devRef .tc main_v73) = _
    after_results_simp
    rfl
  have e73 : W4 m ρ c (Proc.devRef .tc main_v73) i
      = Cert.Spec.energy (uT m c) (iAT m c) (iBT m c) (m ((c.tc : Thread nD τ).loc main_arg6))
          (m ((c.tc : Thread nD τ).loc main_arg2)) (m ((c.tc : Thread nD τ).loc main_arg3))
          (m ((c.tc : Thread nD τ).loc main_arg4)) (m ((c.tc : Thread nD τ).loc main_arg5)) := by
    rw [W4_of_ne m ρ c main_v73 (by decide), hW3, a72.trans h0]
    unfold Cert.Spec.energy shapeCast
    exact Finset.sum_congr (M := EReal) rfl fun e _ => edge_entries m ρ c e
  -- the work sum: the second launch's result array
  have a74 : W4 m ρ c (Proc.devRef .tc main_v74) = (dat1 (V3 m ρ) c).arrAt 2 cfg1.N := W4_arr m ρ c 2
  have e74 : W4 m ρ c (Proc.devRef .tc main_v74)
      = fun _ => Cert.Spec.work (m ((c.tc : Thread nD τ).loc main_arg7)) (uT m c) := by
    rw [a74, h1, V3_arg7, V3_u]
  -- the two scale factors are the launch memory's
  have e10 : W4 m ρ c (Proc.devRef .tc main_arg10) = m ((c.tc : Thread nD τ).loc main_arg10) :=
    (W4_of_ne m ρ c main_arg10 (by decide)).trans ((keeps1_arg10 m ρ c).trans
      ((W2_of_ne m ρ c main_arg10 (by decide)).trans (keeps0_arg10 m ρ c)))
  have e8 : W4 m ρ c (Proc.devRef .tc main_arg8) = m ((c.tc : Thread nD τ).loc main_arg8) :=
    (W4_of_ne m ρ c main_arg8 (by decide)).trans ((keeps1_arg8 m ρ c).trans
      ((W2_of_ne m ρ c main_arg8 (by decide)).trans (keeps0_arg8 m ρ c)))
  -- the closing stretch: two reshapes to a scalar, the difference, the floored product, the quotient
  have hres : W5 m ρ c (Proc.devRef .tc main_v81)
      = Host.divf (F := Ideal) (s := S_) (φ := .f32)
          (subf (F := Ideal) (s := S_) (φ := .f32) (W4 m ρ c (Proc.devRef .tc main_v73))
            (shapeCast S_ (W4 m ρ c (Proc.devRef .tc main_v74)) shapeCasts_S1x1_S_))
          (maximumf (F := Ideal) (s := S_) (φ := .f32)
            (mulf (F := Ideal) (s := S_) (φ := .f32)
              (shapeCast S_ (W4 m ρ c (Proc.devRef .tc main_arg10)) shapeCasts_S1_S_)
              (shapeCast S_ (W4 m ρ c (Proc.devRef .tc main_arg8)) shapeCasts_S1_S_))
            (constant (F := Ideal) S_ .f32 0x0DA24260#32)) := by
    show StableHlo.after hostOps2 (W4 m ρ c) (Proc.devRef .tc main_v81) = _
    after_results_simp
    rfl
  rw [hres, hostDivf_at, subf_apply, maximumf_apply, mulf_apply, constant_apply, e73, e74, e10, e8, scalar_of_one,
    scalar_of_one]
  rfl

end Cert.KernelIdeal.Frame

end
-- ==== Proof.RefVal.lean ====
/-
  The reference program's two sums, read as the sums of the specification.

  The strain-energy stage adds, to an initial zero, one term per edge; each term is an arithmetic expression in twelve
  numbers: the two displacement rows the edge's start indices select (three components each), two direction cosines,
  the length and the three stiffness properties. Every one of these is read from an argument array at the edge's own
  index: a column of a three-column array is reached by slicing the column out and dropping the unit axis, a selected row
  by the row lookup (the start index read signed and clamped into the table), a literal by broadcasting a scalar.
  The term is the edge energy in its right-grouped spelling, which equals the left-grouped one of the specification.
  The external-work stage adds, to an initial zero, force times displacement over every (node, component) pair.
-/
import proofs.«151812_j63788854280708_1_alg».proof.Proof.Gen.ReferenceIdeal.Read
import proofs.«151812_j63788854280708_1_alg».proof.Proof.Spec
import proofs.«151812_j63788854280708_1_alg».proof.Proof.LibEnergy
import proofs.«151812_j63788854280708_1_alg».proof.Proof.LibGather
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## Sums over a rank-1 index set -/

/-- A sum over the indices of a rank-1 shape is the sum over its coordinate range. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := ix1, left_inv := fun i => (eq_ix1 i).symm, right_inv := fun _ => rfl }
  rw [← Equiv.sum_comp eqv.symm f]
  rfl

variable (x0 : (⟨S1000000x3, .f32⟩ : BufTy).Contents (Elt Ideal)) (x1 : (⟨S4000000x2, .i32⟩ : BufTy).Contents (Elt Ideal))
  (x2 x3 x4 x5 : (⟨S4000000, .f32⟩ : BufTy).Contents (Elt Ideal)) (x6 : (⟨S4000000x3, .f32⟩ : BufTy).Contents (Elt Ideal))
  (x7 : (⟨S1000000x3, .f32⟩ : BufTy).Contents (Elt Ideal)) (x8 x9 x10 : (⟨S1, .f32⟩ : BufTy).Contents (Elt Ideal))

/-! ## A column of a three-column array at an edge

  Slicing column `c` out of a `[4000000, 3]` array and dropping the unit axis reads, at edge `e`, the array at `(e, c)`:
  the row coordinate is `e / 1 = e`, the column coordinate `c + 0 = c`. -/

/-- Closes `y (composed index at e) = y (ix2 e c)` by comparing the two indices coordinate by coordinate. -/
local macro "col_idx" : tactic =>
  `(tactic| (congr 1; funext a; refine Fin.ext ?_; match a with | ⟨0, _⟩ => exact Nat.div_one _ | ⟨1, _⟩ => rfl))

theorem v23_at (e : Fin 4000000) : val_main_v23 (F := Ideal) x6 (ix1 e) = x6 (ix2 e 0) := by
  rw [val_main_v23_apply, val_main_v22_apply]; col_idx

theorem v25_at (e : Fin 4000000) : val_main_v25 (F := Ideal) x6 (ix1 e) = x6 (ix2 e 2) := by
  rw [val_main_v25_apply, val_main_v24_apply]; col_idx

theorem v29_at (e : Fin 4000000) :
    val_main_v29 (F := Ideal) x0 x1 x8 x9 (ix1 e) = val_main_v14 (F := Ideal) x0 x1 x8 x9 (ix2 e 0) := by
  rw [val_main_v29_apply, val_main_v28_apply]; col_idx

theorem v32_at (e : Fin 4000000) :
    val_main_v32 (F := Ideal) x0 x1 x8 x9 (ix1 e) = val_main_v14 (F := Ideal) x0 x1 x8 x9 (ix2 e 1) := by
  rw [val_main_v32_apply, val_main_v31_apply]; col_idx

theorem v37_at (e : Fin 4000000) :
    val_main_v37 (F := Ideal) x0 x1 x8 x9 (ix1 e) = val_main_v14 (F := Ideal) x0 x1 x8 x9 (ix2 e 0) := by
  rw [val_main_v37_apply, val_main_v36_apply]; col_idx

theorem v40_at (e : Fin 4000000) :
    val_main_v40 (F := Ideal) x0 x1 x8 x9 (ix1 e) = val_main_v14 (F := Ideal) x0 x1 x8 x9 (ix2 e 1) := by
  rw [val_main_v40_apply, val_main_v39_apply]; col_idx

theorem v44_at (e : Fin 4000000) :
    val_main_v44 (F := Ideal) x0 x1 x8 x9 (ix1 e) = val_main_v14 (F := Ideal) x0 x1 x8 x9 (ix2 e 2) := by
  rw [val_main_v44_apply, val_main_v43_apply]; col_idx

theorem v46_at (e : Fin 4000000) :
    val_main_v46 (F := Ideal) x0 x1 x8 x9 (ix1 e) = val_main_v21 (F := Ideal) x0 x1 x8 x9 (ix2 e 0) := by
  rw [val_main_v46_apply, val_main_v45_apply]; col_idx

theorem v49_at (e : Fin 4000000) :
    val_main_v49 (F := Ideal) x0 x1 x8 x9 (ix1 e) = val_main_v21 (F := Ideal) x0 x1 x8 x9 (ix2 e 1) := by
  rw [val_main_v49_apply, val_main_v48_apply]; col_idx

theorem v54_at (e : Fin 4000000) :
    val_main_v54 (F := Ideal) x0 x1 x8 x9 (ix1 e) = val_main_v21 (F := Ideal) x0 x1 x8 x9 (ix2 e 0) := by
  rw [val_main_v54_apply, val_main_v53_apply]; col_idx

theorem v57_at (e : Fin 4000000) :
    val_main_v57 (F := Ideal) x0 x1 x8 x9 (ix1 e) = val_main_v21 (F := Ideal) x0 x1 x8 x9 (ix2 e 1) := by
  rw [val_main_v57_apply, val_main_v56_apply]; col_idx

theorem v61_at (e : Fin 4000000) :
    val_main_v61 (F := Ideal) x0 x1 x8 x9 (ix1 e) = val_main_v21 (F := Ideal) x0 x1 x8 x9 (ix2 e 2) := by
  rw [val_main_v61_apply, val_main_v60_apply]; col_idx

/-! ## The two selected rows -/

/-- The first lookup at `(e, j)`: component `j` of the displacement row the first start index of edge `e` selects. -/
theorem v14_at (e : Fin 4000000) (j : Fin 3) :
    val_main_v14 (F := Ideal) x0 x1 x8 x9 (ix2 e j)
      = val_main_v3 (F := Ideal) x0 x8 x9 (ix2 (Cert.Spec.rowOf (val_main_v13 (F := Ideal) x1) e) j) := by
  unfold val_main_v14
  exact Cert.LibGather.gather_rows_apply (by omega) gather_S1000000x3_S4000000x1_S4000000x3_1_0_n_n_0_1_13
    rfl rfl rfl rfl rfl rfl rfl _ _ e j

/-- The second lookup at `(e, j)`: component `j` of the row the second start index of edge `e` selects. -/
theorem v21_at (e : Fin 4000000) (j : Fin 3) :
    val_main_v21 (F := Ideal) x0 x1 x8 x9 (ix2 e j)
      = val_main_v3 (F := Ideal) x0 x8 x9 (ix2 (Cert.Spec.rowOf (val_main_v20 (F := Ideal) x1) e) j) := by
  unfold val_main_v21
  exact Cert.LibGather.gather_rows_apply (by omega) gather_S1000000x3_S4000000x1_S4000000x3_1_0_n_n_0_1_13
    rfl rfl rfl rfl rfl rfl rfl _ _ e j

/-! ## The literals -/

theorem v64_at (i : S4000000.Idx) : val_main_v64 (F := Ideal) i = Cert.Spec.cHalf := by
  rw [val_main_v64_apply, val_main_cst_apply]; rfl
theorem v69_at (i : S4000000.Idx) : val_main_v69 (F := Ideal) i = Cert.Spec.cTwo := by
  rw [val_main_v69_apply, val_main_cst_3_apply]; rfl
theorem v73_at (i : S4000000.Idx) : val_main_v73 (F := Ideal) i = Cert.Spec.cFour := by
  rw [val_main_v73_apply, val_main_cst_4_apply]; rfl
theorem v76_at (i : S4000000.Idx) : val_main_v76 (F := Ideal) i = Cert.Spec.cFour := by
  rw [val_main_v76_apply, val_main_cst_5_apply]; rfl
theorem v79_at (i : S4000000.Idx) : val_main_v79 (F := Ideal) i = Cert.Spec.cFour := by
  rw [val_main_v79_apply, val_main_cst_6_apply]; rfl
theorem v84_at (i : S4000000.Idx) : val_main_v84 (F := Ideal) i = Cert.Spec.cTwelve := by
  rw [val_main_v84_apply, val_main_cst_7_apply]; rfl
theorem v89_at (i : S4000000.Idx) : val_main_v89 (F := Ideal) i = Cert.Spec.cTwo := by
  rw [val_main_v89_apply, val_main_cst_8_apply]; rfl
theorem v95_at (i : S4000000.Idx) : val_main_v95 (F := Ideal) i = Cert.Spec.cTwelve := by
  rw [val_main_v95_apply, val_main_cst_9_apply]; rfl

/-! ## One edge's term

  At edge `e` the summand is the edge energy, in the spelling that groups `a * (d * d)` and writes the opposite of the
  sine `-s`, of: the three components of the row selected by the first start index, the three of the row selected by
  the second, the two direction cosines, the length and the three properties. Each elementwise stage is read at `e` from
  its operands at `e`; the leaves are the column reads, the two lookups and the literals above. -/

theorem edge_at (e : Fin 4000000) :
    val_main_v102 (F := Ideal) x0 x1 x2 x3 x4 x5 x6 x8 x9 (ix1 e)
      = Cert.LibEnergy.edgeRef Ideal.div Cert.Spec.cHalf Cert.Spec.cTwo Cert.Spec.cFour Cert.Spec.cTwelve
          (val_main_v3 (F := Ideal) x0 x8 x9 (ix2 (Cert.Spec.rowOf (val_main_v13 (F := Ideal) x1) e) 0))
          (val_main_v3 (F := Ideal) x0 x8 x9 (ix2 (Cert.Spec.rowOf (val_main_v13 (F := Ideal) x1) e) 1))
          (val_main_v3 (F := Ideal) x0 x8 x9 (ix2 (Cert.Spec.rowOf (val_main_v13 (F := Ideal) x1) e) 2))
          (val_main_v3 (F := Ideal) x0 x8 x9 (ix2 (Cert.Spec.rowOf (val_main_v20 (F := Ideal) x1) e) 0))
          (val_main_v3 (F := Ideal) x0 x8 x9 (ix2 (Cert.Spec.rowOf (val_main_v20 (F := Ideal) x1) e) 1))
          (val_main_v3 (F := Ideal) x0 x8 x9 (ix2 (Cert.Spec.rowOf (val_main_v20 (F := Ideal) x1) e) 2))
          (x6 (ix2 e 0)) (x6 (ix2 e 2)) (x2 (ix1 e)) (x3 (ix1 e)) (x4 (ix1 e)) (x5 (ix1 e)) := by
  rw [val_main_v102_apply,
    -- the axial part: (half * (E A / L)) * (du * du)
    val_main_v67_apply, val_main_v65_apply, val_main_v63_apply, val_main_v26_apply, val_main_v66_apply, v64_at,
    -- the bending part: (E I / (two * L)) * (…)
    val_main_v101_apply, val_main_v71_apply, val_main_v27_apply, val_main_v70_apply, v69_at,
    val_main_v100_apply, val_main_v94_apply, val_main_v99_apply,
    -- four thA² + four thB² + (four thA) thB
    val_main_v82_apply, val_main_v78_apply, val_main_v74_apply, val_main_v77_apply, val_main_v72_apply,
    val_main_v75_apply, v73_at, v76_at, val_main_v81_apply, val_main_v80_apply, v79_at,
    -- (twelve / L²) * (wA² + wB² − (two wA) wB)
    val_main_v93_apply, val_main_v85_apply, val_main_v83_apply, v84_at, val_main_v92_apply, val_main_v88_apply,
    val_main_v86_apply, val_main_v87_apply, val_main_v91_apply, val_main_v90_apply, v89_at,
    -- ((twelve / L) * dw) * (thA + thB)
    val_main_v97_apply, val_main_v96_apply, v95_at, val_main_v68_apply, val_main_v98_apply,
    -- du = uB − uA, and the four frame components
    val_main_v62_apply,
    val_main_v51_apply, val_main_v47_apply, val_main_v50_apply,
    val_main_v34_apply, val_main_v30_apply, val_main_v33_apply,
    val_main_v59_apply, val_main_v55_apply, val_main_v58_apply, val_main_v52_apply,
    val_main_v42_apply, val_main_v38_apply, val_main_v41_apply, val_main_v35_apply,
    -- the leaves
    v23_at, v25_at, v29_at, v32_at, v37_at, v40_at, v44_at, v46_at, v49_at, v54_at, v57_at, v61_at,
    v14_at, v14_at, v14_at, v21_at, v21_at, v21_at]
  simp only [Ideal.mulf_def, Ideal.addf_def, Ideal.subf_def, Ideal.hostDivf_def, Ideal.hostNegf_def, Ideal.negf_def]
  rfl

/-! ## The two sums -/

/-- THE STRAIN-ENERGY STAGE is the specification's total energy of the scaled displacement table, the two wrapped
    start-index columns, the direction cosines, the lengths and the three property arrays. -/
theorem energy_eq (x0 : (⟨S1000000x3, .f32⟩ : BufTy).Contents (Elt Ideal)) (x1 : (⟨S4000000x2, .i32⟩ : BufTy).Contents (Elt Ideal))
    (x2 x3 x4 x5 : (⟨S4000000, .f32⟩ : BufTy).Contents (Elt Ideal)) (x6 : (⟨S4000000x3, .f32⟩ : BufTy).Contents (Elt Ideal))
    (x8 x9 : (⟨S1, .f32⟩ : BufTy).Contents (Elt Ideal)) :
    Cert.ReferenceIdeal.Read.val_main_v103 (F := Ideal) x0 x1 x2 x3 x4 x5 x6 x8 x9
      = fun _ => Cert.Spec.energy (Cert.ReferenceIdeal.Read.val_main_v3 (F := Ideal) x0 x8 x9)
          (Cert.ReferenceIdeal.Read.val_main_v13 (F := Ideal) x1) (Cert.ReferenceIdeal.Read.val_main_v20 (F := Ideal) x1)
          x6 x2 x3 x4 x5 := by
  funext i
  rw [val_main_v103_apply, val_main_cst_10_apply, Ideal.ofBits_def, Ideal.ofBits_zero_f32, zero_add, sum_idx1]
  unfold Cert.Spec.energy
  refine Finset.sum_congr rfl fun e _ => ?_
  rw [edge_at]
  unfold Cert.Spec.edgeAt
  rw [Cert.LibEnergy.edgeKer_eq_edgeRef]

/-- THE EXTERNAL-WORK STAGE is the specification's work of the force array on the scaled displacement table. -/
theorem work_eq (x0 x7 : (⟨S1000000x3, .f32⟩ : BufTy).Contents (Elt Ideal)) (x8 x9 : (⟨S1, .f32⟩ : BufTy).Contents (Elt Ideal)) :
    Cert.ReferenceIdeal.Read.val_main_v105 (F := Ideal) x0 x7 x8 x9
      = fun _ => Cert.Spec.work x7 (Cert.ReferenceIdeal.Read.val_main_v3 (F := Ideal) x0 x8 x9) := by
  funext i
  rw [val_main_v105_apply, val_main_cst_11_apply, Ideal.ofBits_def, Ideal.ofBits_zero_f32, zero_add, sum_idx2]
  rfl

/-! ## The result -/

/-- THE RESULT is (strain-energy stage − external-work stage) / max(the product of the two scale factors, the floor
    literal): the last four stages written out over the two sums. -/
theorem result_eq (x0 : (⟨S1000000x3, .f32⟩ : BufTy).Contents (Elt Ideal)) (x1 : (⟨S4000000x2, .i32⟩ : BufTy).Contents (Elt Ideal))
    (x2 x3 x4 x5 : (⟨S4000000, .f32⟩ : BufTy).Contents (Elt Ideal)) (x6 : (⟨S4000000x3, .f32⟩ : BufTy).Contents (Elt Ideal))
    (x7 : (⟨S1000000x3, .f32⟩ : BufTy).Contents (Elt Ideal)) (x8 x9 x10 : (⟨S1, .f32⟩ : BufTy).Contents (Elt Ideal)) :
    Cert.ReferenceIdeal.Read.val_main_v111 (F := Ideal) x0 x1 x2 x3 x4 x5 x6 x7 x8 x9 x10
      = Host.divf (F := Ideal)
          (subf (F := Ideal) (Cert.ReferenceIdeal.Read.val_main_v103 (F := Ideal) x0 x1 x2 x3 x4 x5 x6 x8 x9)
            (Cert.ReferenceIdeal.Read.val_main_v105 (F := Ideal) x0 x7 x8 x9))
          (maximumf (F := Ideal)
            (mulf (F := Ideal) (Cert.ReferenceIdeal.Read.val_main_v107 (F := Ideal) x10) (Cert.ReferenceIdeal.Read.val_main_v108 (F := Ideal) x8))
            (constant (F := Ideal) S_ .f32 0x0DA24260#32)) := by
  unfold val_main_v111 val_main_v110 val_main_v109 val_main_v106 val_main_cst_12
  rfl

/-! ## The result at its one index -/

/-- Dropping the one axis of a one-element array reads its one entry. -/
theorem v107_at (i : S_.Idx) : val_main_v107 (F := Ideal) x10 i = x10 (ix1 0) := by
  unfold val_main_v107
  refine shapeCast_apply x10 shapeCasts_S1_S_ i (ix1 0) ?_
  -- both positions are 0: the one entry of the operand, the one index of the result
  have h1 : (S1.rowMajor (ix1 (0 : Fin 1))).val = 0 := by rw [Shape.rowMajor_val_one]; rfl
  have h2 : (S_.rowMajor i).val = 0 := Shape.rowMajorPi_zero _ i
  exact h1.trans h2.symm

theorem v108_at (i : S_.Idx) : val_main_v108 (F := Ideal) x8 i = x8 (ix1 0) := by
  unfold val_main_v108
  refine shapeCast_apply x8 shapeCasts_S1_S_ i (ix1 0) ?_
  -- both positions are 0: the one entry of the operand, the one index of the result
  have h1 : (S1.rowMajor (ix1 (0 : Fin 1))).val = 0 := by rw [Shape.rowMajor_val_one]; rfl
  have h2 : (S_.rowMajor i).val = 0 := Shape.rowMajorPi_zero _ i
  exact h1.trans h2.symm

/-- THE RESULT AT ITS INDEX: (total strain energy − external work) divided by the larger of the product of the two scale
    factors and the floor literal. -/
theorem result_at (x0 : (⟨S1000000x3, .f32⟩ : BufTy).Contents (Elt Ideal)) (x1 : (⟨S4000000x2, .i32⟩ : BufTy).Contents (Elt Ideal))
    (x2 x3 x4 x5 : (⟨S4000000, .f32⟩ : BufTy).Contents (Elt Ideal)) (x6 : (⟨S4000000x3, .f32⟩ : BufTy).Contents (Elt Ideal))
    (x7 : (⟨S1000000x3, .f32⟩ : BufTy).Contents (Elt Ideal)) (x8 x9 x10 : (⟨S1, .f32⟩ : BufTy).Contents (Elt Ideal)) (i : S_.Idx) :
    Cert.ReferenceIdeal.Read.val_main_v111 (F := Ideal) x0 x1 x2 x3 x4 x5 x6 x7 x8 x9 x10 i
      = Ideal.div
          (Cert.Spec.energy (Cert.ReferenceIdeal.Read.val_main_v3 (F := Ideal) x0 x8 x9)
              (Cert.ReferenceIdeal.Read.val_main_v13 (F := Ideal) x1) (Cert.ReferenceIdeal.Read.val_main_v20 (F := Ideal) x1)
              x6 x2 x3 x4 x5
            - Cert.Spec.work x7 (Cert.ReferenceIdeal.Read.val_main_v3 (F := Ideal) x0 x8 x9))
          (max ((x10 (ix1 0) : EReal) * (x8 (ix1 0) : EReal)) (Ideal.ofBits .f32 0x0DA24260#32)) := by
  rw [val_main_v111_apply, val_main_v106_apply, val_main_v110_apply, val_main_v109_apply, val_main_cst_12_apply,
    energy_eq, work_eq, v107_at, v108_at]
  rfl

end Cert.ReferenceIdeal.RefValue

end
-- ==== Proof.Val0.lean ====
/-
  First launch (the edge energy): the VALUE its result array ends holding.
  At every grid point the accumulator receives the sum, over the tile's 16000 lanes, of the edge energy
  of the lane's twelve entries, added to what it held (zero at the first point); over the extended reals
  the 250 partial sums add up to the sum over all 4000000 entries, and the last point copies the
  accumulator to the 1×1 result array.
-/
import proofs.«151812_j63788854280708_1_alg».proof.Proof.R0.Frame
import proofs.«151812_j63788854280708_1_alg».proof.Proof.Spec
import proofs.«151812_j63788854280708_1_alg».proof.Proof.LibEnergy
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Pieces
variable {F : FTy → Type} [FloatOps F]
variable (V : (c : Dev nD) → (b : Ref sig .tc) → Buf (Elt F) ((c : Thread nD τ).loc b))

/-- The two offsets of a whole-buffer rectangle are zero. -/
theorem hzz0 : (![0, 0] : Fin 2 → Nat) = fun _ => 0 := funext fun a => by fin_cases a <;> rfl

/-- The accumulator's update as one function of the twelve input tiles and of what the accumulator held: the tile's
    energy sum added to it. -/
def upd0 (x0 x1 x2 x3 x4 x5 x6 x7 x8 x9 x10 x11 : Vec F S1x16000 .f32) (xs : Vec F S1x1 .f32) : Vec F S1x1 .f32 :=
  k0_pay1 (k0_pay19 (k0_pay6 x3) (k0_pay7 x4) (k0_pay9 x6) (k0_pay10 x7) (k0_pay11 x8) (k0_pay12 x9) (k0_pay13 x10) (k0_pay15 x0 x1 x6 x7))
    (k0_pay20 (k0_pay11 x8) (k0_pay12 x9) (k0_pay14 x11))
    (k0_pay21 (k0_pay3 x0) (k0_pay4 x1) (k0_pay5 x2) (k0_pay6 x3) (k0_pay7 x4) (k0_pay8 x5) (k0_pay9 x6) (k0_pay10 x7) (k0_pay11 x8) (k0_pay16 (F := F)))
    (k0_pay22 (k0_pay3 x0) (k0_pay4 x1) (k0_pay6 x3) (k0_pay7 x4) (k0_pay9 x6) (k0_pay10 x7) (k0_pay11 x8) (k0_pay16 (F := F)))
    (k0_pay23 (k0_pay5 x2) (k0_pay8 x5)) xs

/-- A middle point leaves in the accumulator what it held plus the tile's sum: its one covering store's payload,
    whose loads read the whole buffers. -/
theorem accB0_eq (c : Dev nD) (t : Fin cfg0.N) (h0 : ¬t.val % 250 = 0) (h1 : ¬t.val % 250 = 249) (xs : Vec F S1x1 .f32) :
    accB0 V c t h0 h1 xs = upd0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) xs := by
  unfold accB0
  rw [View.read_writes_eq_canon _ _ _ (scoverB0 V c t h0 h1 xs)]
  unfold runB0 kernelRun0_B
  dsimp only
  sl_unfold_words
  rw [View.canon_unit_zero hzz0]
  simp only [View.readAt_eq_ld, Memref.IsWhole.read_unread, View.ld_unit_zero (S := S1x16000) hzz0, View.ld_unit_zero (S := S1x1) hzz0]
  unfold upd0
  exact congrArg (k0_pay1 _ _ _ _ _) (Memref.IsWhole.read_unread (Val := Elt F) (Memref.isWhole_whole cc0_scratch0) xs)

/-- The first point stores the zero vector, reads it back, and leaves it plus the tile's sum. -/
theorem accA0_eq (c : Dev nD) (t : Fin cfg0.N) (h0 : t.val % 250 = 0) (h1 : ¬t.val % 250 = 249) :
    accA0 V c t h0 h1 = upd0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (k0_pay2 (F := F)) := by
  unfold accA0
  rw [View.read_writes_eq_canon _ _ _ (scoverA0 V c t h0 h1)]
  unfold runA0 kernelRun0_A
  dsimp only
  sl_unfold_words
  rw [View.canon_cons_unit_zero (S := S1x1) hzz0, View.readCov_unit_zero (S := S1x1) _ hzz0]
  simp only [View.readAt_eq_ld, Memref.IsWhole.read_unread, View.ld_unit_zero (S := S1x16000) hzz0]
  unfold upd0
  rfl

/-- The last point leaves the same in the accumulator as a middle point. -/
theorem accC0_eq (c : Dev nD) (t : Fin cfg0.N) (h0 : ¬t.val % 250 = 0) (h1 : t.val % 250 = 249) (xs : Vec F S1x1 .f32) :
    accC0 V c t h0 h1 xs = upd0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) xs := by
  unfold accC0
  rw [View.read_writes_eq_canon _ _ _ (scoverC0 V c t h0 h1 xs)]
  unfold runC0 kernelRun0_C
  dsimp only
  sl_unfold_words
  rw [View.canon_unit_zero hzz0]
  simp only [View.readAt_eq_ld, Memref.IsWhole.read_unread, View.ld_unit_zero (S := S1x16000) hzz0, View.ld_unit_zero (S := S1x1) hzz0]
  unfold upd0
  exact congrArg (k0_pay1 _ _ _ _ _) (Memref.IsWhole.read_unread (Val := Elt F) (Memref.isWhole_whole cc0_scratch0) xs)

/-- And the result block receives a load of the accumulator taken after that store: the same value. -/
theorem outC0_eq (c : Dev nD) (t : Fin cfg0.N) (h0 : ¬t.val % 250 = 0) (h1 : t.val % 250 = 249) (xs : Vec F S1x1 .f32) :
    outC0 V c t h0 h1 xs = upd0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) xs := by
  unfold outC0
  rw [View.read_writes_eq_canon _ _ _ (coverC0 V c t h0 h1 xs)]
  unfold runC0 kernelRun0_C
  dsimp only
  sl_unfold_words
  rw [View.canon_unit_zero hzz0, View.readCov_unit_zero (S := S1x1) _ hzz0]
  simp only [View.readAt_eq_ld, Memref.IsWhole.read_unread, View.ld_unit_zero (S := S1x16000) hzz0, View.ld_unit_zero (S := S1x1) hzz0]
  unfold upd0
  exact congrArg (k0_pay1 _ _ _ _ _) (Memref.IsWhole.read_unread (Val := Elt F) (Memref.isWhole_whole cc0_scratch0) xs)

end Pieces

section AtIdeal

/-- Over the extended reals the vector the reset stores reads zero. -/
theorem zero0_apply (j : S1x1.Idx) : (k0_pay2 (F := Ideal)) j = 0 := by
  unfold k0_pay2
  rw [shapeCast_self]
  exact Ideal.ofBits_zero_f32

/-- Lane `k` of the one row: the reduced axis's coordinate put back beside the kept one. -/
theorem lift0_eq (k : Fin 16000) : (reduces_S1x16000_S1.lift (ix1 (0 : Fin 1)) k : S1x16000.Idx) = ix2 0 k := by
  funext a
  match a with
  | ⟨0, _⟩ => rfl
  | ⟨1, _⟩ => rfl

/-- Over the extended reals the update's payload reads: what the accumulator held, plus the sum over the tile's
    16000 lanes of the edge energy of the lane's twelve entries. Every operation of the body acts lane by lane, the
    reduction over the lane axis is the sum over its coordinates, and the shape casts keep the row-major position. -/
theorem upd0_apply (x0 x1 x2 x3 x4 x5 x6 x7 x8 x9 x10 x11 : Vec Ideal S1x16000 .f32) (xs : Vec Ideal S1x1 .f32) (j : S1x1.Idx) :
    (upd0 (F := Ideal) x0 x1 x2 x3 x4 x5 x6 x7 x8 x9 x10 x11 xs) j
      = xs j + ∑ k : Fin 16000, Cert.LibEnergy.edgeKer Ideal.div Cert.Spec.cHalf Cert.Spec.cTwo Cert.Spec.cFour Cert.Spec.cTwelve
          (x0 (ix2 0 k)) (x1 (ix2 0 k)) (x2 (ix2 0 k)) (x3 (ix2 0 k)) (x4 (ix2 0 k)) (x5 (ix2 0 k))
          (x6 (ix2 0 k)) (x7 (ix2 0 k)) (x8 (ix2 0 k)) (x9 (ix2 0 k)) (x10 (ix2 0 k)) (x11 (ix2 0 k)) := by
  unfold upd0 k0_pay1
  rw [shapeCast_self, addf_apply]
  congr 1
  refine (shapeCast_apply _ _ j (ix1 (0 : Fin 1)) ?_).trans ?_
  · rw [Shape.rowMajor_val_one, Shape.rowMajor_val_two]
    have h0 : (j 0).val < 1 := (j 0).isLt
    have h1 : (j 1).val < 1 := (j 1).isLt
    show (0 : ℕ) = (j 0).val * 1 + (j 1).val
    omega
  refine (Ideal.multiReduction_add_single (φ := .f32) _ _ reduces_S1x16000_S1 _ _ _).trans ?_
  refine Finset.sum_congr rfl fun k _ => ?_
  rw [lift0_eq k]
  unfold k0_pay19 k0_pay20 k0_pay21 k0_pay22 k0_pay23 k0_pay17 k0_pay18 k0_pay15 k0_pay16 k0_pay3 k0_pay4 k0_pay5 k0_pay6 k0_pay7 k0_pay8 k0_pay9 k0_pay10 k0_pay11 k0_pay12 k0_pay13 k0_pay14
  simp only [shapeCast_self]
  simp only [addf_apply, mulf_apply, subf_apply, divf_apply, broadcast_apply]
  rw [show (FloatOps.ofBits FTy.f32 0x00000000#32 : Ideal .f32) = (0 : EReal) from Ideal.ofBits_zero_f32]
  rfl

end AtIdeal

section Sum
variable (V : (c : Dev nD) → (b : Ref sig .tc) → Buf (Elt Ideal) ((c : Thread nD τ).loc b))

/-- The twelve input tiles at grid point `t`, as 1×16000 vectors of extended reals. -/
abbrev xb0_0 (c : Dev nD) (t : Fin cfg0.N) : Vec Ideal S1x16000 .f32 := iblk0 V c 0 t
abbrev xb0_1 (c : Dev nD) (t : Fin cfg0.N) : Vec Ideal S1x16000 .f32 := iblk0 V c 1 t
abbrev xb0_2 (c : Dev nD) (t : Fin cfg0.N) : Vec Ideal S1x16000 .f32 := iblk0 V c 2 t
abbrev xb0_3 (c : Dev nD) (t : Fin cfg0.N) : Vec Ideal S1x16000 .f32 := iblk0 V c 3 t
abbrev xb0_4 (c : Dev nD) (t : Fin cfg0.N) : Vec Ideal S1x16000 .f32 := iblk0 V c 4 t
abbrev xb0_5 (c : Dev nD) (t : Fin cfg0.N) : Vec Ideal S1x16000 .f32 := iblk0 V c 5 t
abbrev xb0_6 (c : Dev nD) (t : Fin cfg0.N) : Vec Ideal S1x16000 .f32 := iblk0 V c 6 t
abbrev xb0_7 (c : Dev nD) (t : Fin cfg0.N) : Vec Ideal S1x16000 .f32 := iblk0 V c 7 t
abbrev xb0_8 (c : Dev nD) (t : Fin cfg0.N) : Vec Ideal S1x16000 .f32 := iblk0 V c 8 t
abbrev xb0_9 (c : Dev nD) (t : Fin cfg0.N) : Vec Ideal S1x16000 .f32 := iblk0 V c 9 t
abbrev xb0_10 (c : Dev nD) (t : Fin cfg0.N) : Vec Ideal S1x16000 .f32 := iblk0 V c 10 t
abbrev xb0_11 (c : Dev nD) (t : Fin cfg0.N) : Vec Ideal S1x16000 .f32 := iblk0 V c 11 t

/-- The sum, over a tile's lanes, of the edge energies at grid point `t`. -/
def tile0 (c : Dev nD) (t : Fin cfg0.N) : EReal :=
  ∑ k : Fin 16000, Cert.LibEnergy.edgeKer Ideal.div Cert.Spec.cHalf Cert.Spec.cTwo Cert.Spec.cFour Cert.Spec.cTwelve
    (xb0_0 V c t (ix2 0 k)) (xb0_1 V c t (ix2 0 k)) (xb0_2 V c t (ix2 0 k)) (xb0_3 V c t (ix2 0 k)) (xb0_4 V c t (ix2 0 k)) (xb0_5 V c t (ix2 0 k))
    (xb0_6 V c t (ix2 0 k)) (xb0_7 V c t (ix2 0 k)) (xb0_8 V c t (ix2 0 k)) (xb0_9 V c t (ix2 0 k)) (xb0_10 V c t (ix2 0 k)) (xb0_11 V c t (ix2 0 k))

/-- The same as a function of the point's position, zero past the grid. -/
def tileN0 (c : Dev nD) (s : ℕ) : EReal := if h : s < cfg0.N then tile0 V c ⟨s, h⟩ else 0

theorem tileN0_of_lt (c : Dev nD) (s : ℕ) (h : s < cfg0.N) : tileN0 V c s = tile0 V c ⟨s, h⟩ := dif_pos h

/-- After the last point the accumulator holds the sum of all the tiles' sums. -/
theorem accAt0_last (c : Dev nD) (j : S1x1.Idx) (n : ℕ) (hN : n < cfg0.N) (hl : n = cfg0.N - 1) :
    accAt0 V c n hN j = ∑ t : Fin cfg0.N, tile0 V c t := by
  subst hl
  have h := Cert.LibEnergy.acc_last_eq_sum cfg0.N (tileN0 V c) (fun n hn => accAt0 V c n hn j) ?h0 ?hs hN
  · rw [h]
    exact Finset.sum_congr rfl fun t _ => tileN0_of_lt V c t.val t.isLt
  case h0 =>
    intro h
    have hA := accAt0_A V c ⟨0, h⟩ (Nat.zero_mod _) (by show ¬(0 : ℕ) % 250 = 249; decide)
    show accAt0 V c (⟨0, h⟩ : Fin cfg0.N).val _ j = _
    rw [hA, accA0_eq]
    refine (upd0_apply (xb0_0 V c ⟨0, h⟩) (xb0_1 V c ⟨0, h⟩) (xb0_2 V c ⟨0, h⟩) (xb0_3 V c ⟨0, h⟩) (xb0_4 V c ⟨0, h⟩) (xb0_5 V c ⟨0, h⟩) (xb0_6 V c ⟨0, h⟩) (xb0_7 V c ⟨0, h⟩) (xb0_8 V c ⟨0, h⟩) (xb0_9 V c ⟨0, h⟩) (xb0_10 V c ⟨0, h⟩) (xb0_11 V c ⟨0, h⟩) (k0_pay2 (F := Ideal)) j).trans ?_
    rw [zero0_apply, tileN0_of_lt V c 0 h]
    rfl
  case hs =>
    intro n h
    have hN' : n + 1 < 250 := lt_of_lt_of_eq h N0_eq
    have h0 : ¬(⟨n + 1, h⟩ : Fin cfg0.N).val % 250 = 0 := by show ¬(n + 1) % 250 = 0; omega
    rw [tileN0_of_lt V c (n + 1) h]
    by_cases h1 : (⟨n + 1, h⟩ : Fin cfg0.N).val % 250 = 249
    · have hC := accAt0_C V c ⟨n + 1, h⟩ h0 h1
      show accAt0 V c (⟨n + 1, h⟩ : Fin cfg0.N).val _ j = _
      rw [hC, accC0_eq]
      exact upd0_apply (xb0_0 V c ⟨n + 1, h⟩) (xb0_1 V c ⟨n + 1, h⟩) (xb0_2 V c ⟨n + 1, h⟩) (xb0_3 V c ⟨n + 1, h⟩) (xb0_4 V c ⟨n + 1, h⟩) (xb0_5 V c ⟨n + 1, h⟩) (xb0_6 V c ⟨n + 1, h⟩) (xb0_7 V c ⟨n + 1, h⟩) (xb0_8 V c ⟨n + 1, h⟩) (xb0_9 V c ⟨n + 1, h⟩) (xb0_10 V c ⟨n + 1, h⟩) (xb0_11 V c ⟨n + 1, h⟩) _ j
    · have hB := accAt0_B V c ⟨n + 1, h⟩ h0 h1
      show accAt0 V c (⟨n + 1, h⟩ : Fin cfg0.N).val _ j = _
      rw [hB, accB0_eq]
      exact upd0_apply (xb0_0 V c ⟨n + 1, h⟩) (xb0_1 V c ⟨n + 1, h⟩) (xb0_2 V c ⟨n + 1, h⟩) (xb0_3 V c ⟨n + 1, h⟩) (xb0_4 V c ⟨n + 1, h⟩) (xb0_5 V c ⟨n + 1, h⟩) (xb0_6 V c ⟨n + 1, h⟩) (xb0_7 V c ⟨n + 1, h⟩) (xb0_8 V c ⟨n + 1, h⟩) (xb0_9 V c ⟨n + 1, h⟩) (xb0_10 V c ⟨n + 1, h⟩) (xb0_11 V c ⟨n + 1, h⟩) _ j

end Sum

section Array
variable (V : (c : Dev nD) → (b : Ref sig .tc) → Buf (Elt Ideal) ((c : Thread nD τ).loc b))

/-- The printed index maps, decided over the grid: an input's block at point `t` is row block 0, lane block `t`; the
    result block never moves. -/
theorem idx0_0 : ∀ t : Fin cfg0.N, win0_0.index t (0 : Fin 2) = 0 ∧ win0_0.index t (1 : Fin 2) = t.val :=
  (by decide +kernel : ∀ t : Fin grid0.N, _)
theorem idx0_1 : ∀ t : Fin cfg0.N, win0_1.index t (0 : Fin 2) = 0 ∧ win0_1.index t (1 : Fin 2) = t.val :=
  (by decide +kernel : ∀ t : Fin grid0.N, _)
theorem idx0_2 : ∀ t : Fin cfg0.N, win0_2.index t (0 : Fin 2) = 0 ∧ win0_2.index t (1 : Fin 2) = t.val :=
  (by decide +kernel : ∀ t : Fin grid0.N, _)
theorem idx0_3 : ∀ t : Fin cfg0.N, win0_3.index t (0 : Fin 2) = 0 ∧ win0_3.index t (1 : Fin 2) = t.val :=
  (by decide +kernel : ∀ t : Fin grid0.N, _)
theorem idx0_4 : ∀ t : Fin cfg0.N, win0_4.index t (0 : Fin 2) = 0 ∧ win0_4.index t (1 : Fin 2) = t.val :=
  (by decide +kernel : ∀ t : Fin grid0.N, _)
theorem idx0_5 : ∀ t : Fin cfg0.N, win0_5.index t (0 : Fin 2) = 0 ∧ win0_5.index t (1 : Fin 2) = t.val :=
  (by decide +kernel : ∀ t : Fin grid0.N, _)
theorem idx0_6 : ∀ t : Fin cfg0.N, win0_6.index t (0 : Fin 2) = 0 ∧ win0_6.index t (1 : Fin 2) = t.val :=
  (by decide +kernel : ∀ t : Fin grid0.N, _)
theorem idx0_7 : ∀ t : Fin cfg0.N, win0_7.index t (0 : Fin 2) = 0 ∧ win0_7.index t (1 : Fin 2) = t.val :=
  (by decide +kernel : ∀ t : Fin grid0.N, _)
theorem idx0_8 : ∀ t : Fin cfg0.N, win0_8.index t (0 : Fin 2) = 0 ∧ win0_8.index t (1 : Fin 2) = t.val :=
  (by decide +kernel : ∀ t : Fin grid0.N, _)
theorem idx0_9 : ∀ t : Fin cfg0.N, win0_9.index t (0 : Fin 2) = 0 ∧ win0_9.index t (1 : Fin 2) = t.val :=
  (by decide +kernel : ∀ t : Fin grid0.N, _)
theorem idx0_10 : ∀ t : Fin cfg0.N, win0_10.index t (0 : Fin 2) = 0 ∧ win0_10.index t (1 : Fin 2) = t.val :=
  (by decide +kernel : ∀ t : Fin grid0.N, _)
theorem idx0_11 : ∀ t : Fin cfg0.N, win0_11.index t (0 : Fin 2) = 0 ∧ win0_11.index t (1 : Fin 2) = t.val :=
  (by decide +kernel : ∀ t : Fin grid0.N, _)

/-- The twelve input arrays at the launch's entry, as 1×4000000 arrays of extended reals. -/
abbrev arr0_0 (c : Dev nD) : (⟨2, ![1, 4000000]⟩ : Shape).Idx → EReal := V c main_v21
abbrev arr0_1 (c : Dev nD) : (⟨2, ![1, 4000000]⟩ : Shape).Idx → EReal := V c main_v29
abbrev arr0_2 (c : Dev nD) : (⟨2, ![1, 4000000]⟩ : Shape).Idx → EReal := V c main_v37
abbrev arr0_3 (c : Dev nD) : (⟨2, ![1, 4000000]⟩ : Shape).Idx → EReal := V c main_v45
abbrev arr0_4 (c : Dev nD) : (⟨2, ![1, 4000000]⟩ : Shape).Idx → EReal := V c main_v53
abbrev arr0_5 (c : Dev nD) : (⟨2, ![1, 4000000]⟩ : Shape).Idx → EReal := V c main_v61
abbrev arr0_6 (c : Dev nD) : (⟨2, ![1, 4000000]⟩ : Shape).Idx → EReal := V c main_v64
abbrev arr0_7 (c : Dev nD) : (⟨2, ![1, 4000000]⟩ : Shape).Idx → EReal := V c main_v67
abbrev arr0_8 (c : Dev nD) : (⟨2, ![1, 4000000]⟩ : Shape).Idx → EReal := V c main_v68
abbrev arr0_9 (c : Dev nD) : (⟨2, ![1, 4000000]⟩ : Shape).Idx → EReal := V c main_v69
abbrev arr0_10 (c : Dev nD) : (⟨2, ![1, 4000000]⟩ : Shape).Idx → EReal := V c main_v70
abbrev arr0_11 (c : Dev nD) : (⟨2, ![1, 4000000]⟩ : Shape).Idx → EReal := V c main_v71

theorem lane_lt0 (t : Fin cfg0.N) (k : Fin 16000) : t.val * 16000 + k.val < 4000000 := by
  have := lt_of_lt_of_eq t.isLt N0_eq; have := k.isLt; omega

/-- Lane `k` of an input's tile at point `t` is entry 16000 t + k of the input array. -/
theorem xb0_0_apply (c : Dev nD) (t : Fin cfg0.N) (k : Fin 16000) :
    xb0_0 V c t (ix2 0 k) = arr0_0 V c (ix2 0 ⟨t.val * 16000 + k.val, lane_lt0 t k⟩) := by
  obtain ⟨e0, e1⟩ := idx0_0 t
  unfold xb0_0 iblk0
  rw [View.read_apply]
  show V c main_v21 _ = V c main_v21 _
  congr 1
  funext a
  apply Fin.ext
  match a with
  | ⟨0, _⟩ => show win0_0.index t (0 : Fin 2) * 1 + 1 * 0 = 0; rw [e0]
  | ⟨1, _⟩ => show win0_0.index t (1 : Fin 2) * 16000 + 1 * k.val = t.val * 16000 + k.val; rw [e1]; omega

theorem xb0_1_apply (c : Dev nD) (t : Fin cfg0.N) (k : Fin 16000) :
    xb0_1 V c t (ix2 0 k) = arr0_1 V c (ix2 0 ⟨t.val * 16000 + k.val, lane_lt0 t k⟩) := by
  obtain ⟨e0, e1⟩ := idx0_1 t
  unfold xb0_1 iblk0
  rw [View.read_apply]
  show V c main_v29 _ = V c main_v29 _
  congr 1
  funext a
  apply Fin.ext
  match a with
  | ⟨0, _⟩ => show win0_1.index t (0 : Fin 2) * 1 + 1 * 0 = 0; rw [e0]
  | ⟨1, _⟩ => show win0_1.index t (1 : Fin 2) * 16000 + 1 * k.val = t.val * 16000 + k.val; rw [e1]; omega

theorem xb0_2_apply (c : Dev nD) (t : Fin cfg0.N) (k : Fin 16000) :
    xb0_2 V c t (ix2 0 k) = arr0_2 V c (ix2 0 ⟨t.val * 16000 + k.val, lane_lt0 t k⟩) := by
  obtain ⟨e0, e1⟩ := idx0_2 t
  unfold xb0_2 iblk0
  rw [View.read_apply]
  show V c main_v37 _ = V c main_v37 _
  congr 1
  funext a
  apply Fin.ext
  match a with
  | ⟨0, _⟩ => show win0_2.index t (0 : Fin 2) * 1 + 1 * 0 = 0; rw [e0]
  | ⟨1, _⟩ => show win0_2.index t (1 : Fin 2) * 16000 + 1 * k.val = t.val * 16000 + k.val; rw [e1]; omega

theorem xb0_3_apply (c : Dev nD) (t : Fin cfg0.N) (k : Fin 16000) :
    xb0_3 V c t (ix2 0 k) = arr0_3 V c (ix2 0 ⟨t.val * 16000 + k.val, lane_lt0 t k⟩) := by
  obtain ⟨e0, e1⟩ := idx0_3 t
  unfold xb0_3 iblk0
  rw [View.read_apply]
  show V c main_v45 _ = V c main_v45 _
  congr 1
  funext a
  apply Fin.ext
  match a with
  | ⟨0, _⟩ => show win0_3.index t (0 : Fin 2) * 1 + 1 * 0 = 0; rw [e0]
  | ⟨1, _⟩ => show win0_3.index t (1 : Fin 2) * 16000 + 1 * k.val = t.val * 16000 + k.val; rw [e1]; omega

theorem xb0_4_apply (c : Dev nD) (t : Fin cfg0.N) (k : Fin 16000) :
    xb0_4 V c t (ix2 0 k) = arr0_4 V c (ix2 0 ⟨t.val * 16000 + k.val, lane_lt0 t k⟩) := by
  obtain ⟨e0, e1⟩ := idx0_4 t
  unfold xb0_4 iblk0
  rw [View.read_apply]
  show V c main_v53 _ = V c main_v53 _
  congr 1
  funext a
  apply Fin.ext
  match a with
  | ⟨0, _⟩ => show win0_4.index t (0 : Fin 2) * 1 + 1 * 0 = 0; rw [e0]
  | ⟨1, _⟩ => show win0_4.index t (1 : Fin 2) * 16000 + 1 * k.val = t.val * 16000 + k.val; rw [e1]; omega

theorem xb0_5_apply (c : Dev nD) (t : Fin cfg0.N) (k : Fin 16000) :
    xb0_5 V c t (ix2 0 k) = arr0_5 V c (ix2 0 ⟨t.val * 16000 + k.val, lane_lt0 t k⟩) := by
  obtain ⟨e0, e1⟩ := idx0_5 t
  unfold xb0_5 iblk0
  rw [View.read_apply]
  show V c main_v61 _ = V c main_v61 _
  congr 1
  funext a
  apply Fin.ext
  match a with
  | ⟨0, _⟩ => show win0_5.index t (0 : Fin 2) * 1 + 1 * 0 = 0; rw [e0]
  | ⟨1, _⟩ => show win0_5.index t (1 : Fin 2) * 16000 + 1 * k.val = t.val * 16000 + k.val; rw [e1]; omega

theorem xb0_6_apply (c : Dev nD) (t : Fin cfg0.N) (k : Fin 16000) :
    xb0_6 V c t (ix2 0 k) = arr0_6 V c (ix2 0 ⟨t.val * 16000 + k.val, lane_lt0 t k⟩) := by
  obtain ⟨e0, e1⟩ := idx0_6 t
  unfold xb0_6 iblk0
  rw [View.read_apply]
  show V c main_v64 _ = V c main_v64 _
  congr 1
  funext a
  apply Fin.ext
  match a with
  | ⟨0, _⟩ => show win0_6.index t (0 : Fin 2) * 1 + 1 * 0 = 0; rw [e0]
  | ⟨1, _⟩ => show win0_6.index t (1 : Fin 2) * 16000 + 1 * k.val = t.val * 16000 + k.val; rw [e1]; omega

theorem xb0_7_apply (c : Dev nD) (t : Fin cfg0.N) (k : Fin 16000) :
    xb0_7 V c t (ix2 0 k) = arr0_7 V c (ix2 0 ⟨t.val * 16000 + k.val, lane_lt0 t k⟩) := by
  obtain ⟨e0, e1⟩ := idx0_7 t
  unfold xb0_7 iblk0
  rw [View.read_apply]
  show V c main_v67 _ = V c main_v67 _
  congr 1
  funext a
  apply Fin.ext
  match a with
  | ⟨0, _⟩ => show win0_7.index t (0 : Fin 2) * 1 + 1 * 0 = 0; rw [e0]
  | ⟨1, _⟩ => show win0_7.index t (1 : Fin 2) * 16000 + 1 * k.val = t.val * 16000 + k.val; rw [e1]; omega

theorem xb0_8_apply (c : Dev nD) (t : Fin cfg0.N) (k : Fin 16000) :
    xb0_8 V c t (ix2 0 k) = arr0_8 V c (ix2 0 ⟨t.val * 16000 + k.val, lane_lt0 t k⟩) := by
  obtain ⟨e0, e1⟩ := idx0_8 t
  unfold xb0_8 iblk0
  rw [View.read_apply]
  show V c main_v68 _ = V c main_v68 _
  congr 1
  funext a
  apply Fin.ext
  match a with
  | ⟨0, _⟩ => show win0_8.index t (0 : Fin 2) * 1 + 1 * 0 = 0; rw [e0]
  | ⟨1, _⟩ => show win0_8.index t (1 : Fin 2) * 16000 + 1 * k.val = t.val * 16000 + k.val; rw [e1]; omega

theorem xb0_9_apply (c : Dev nD) (t : Fin cfg0.N) (k : Fin 16000) :
    xb0_9 V c t (ix2 0 k) = arr0_9 V c (ix2 0 ⟨t.val * 16000 + k.val, lane_lt0 t k⟩) := by
  obtain ⟨e0, e1⟩ := idx0_9 t
  unfold xb0_9 iblk0
  rw [View.read_apply]
  show V c main_v69 _ = V c main_v69 _
  congr 1
  funext a
  apply Fin.ext
  match a with
  | ⟨0, _⟩ => show win0_9.index t (0 : Fin 2) * 1 + 1 * 0 = 0; rw [e0]
  | ⟨1, _⟩ => show win0_9.index t (1 : Fin 2) * 16000 + 1 * k.val = t.val * 16000 + k.val; rw [e1]; omega

theorem xb0_10_apply (c : Dev nD) (t : Fin cfg0.N) (k : Fin 16000) :
    xb0_10 V c t (ix2 0 k) = arr0_10 V c (ix2 0 ⟨t.val * 16000 + k.val, lane_lt0 t k⟩) := by
  obtain ⟨e0, e1⟩ := idx0_10 t
  unfold xb0_10 iblk0
  rw [View.read_apply]
  show V c main_v70 _ = V c main_v70 _
  congr 1
  funext a
  apply Fin.ext
  match a with
  | ⟨0, _⟩ => show win0_10.index t (0 : Fin 2) * 1 + 1 * 0 = 0; rw [e0]
  | ⟨1, _⟩ => show win0_10.index t (1 : Fin 2) * 16000 + 1 * k.val = t.val * 16000 + k.val; rw [e1]; omega

theorem xb0_11_apply (c : Dev nD) (t : Fin cfg0.N) (k : Fin 16000) :
    xb0_11 V c t (ix2 0 k) = arr0_11 V c (ix2 0 ⟨t.val * 16000 + k.val, lane_lt0 t k⟩) := by
  obtain ⟨e0, e1⟩ := idx0_11 t
  unfold xb0_11 iblk0
  rw [View.read_apply]
  show V c main_v71 _ = V c main_v71 _
  congr 1
  funext a
  apply Fin.ext
  match a with
  | ⟨0, _⟩ => show win0_11.index t (0 : Fin 2) * 1 + 1 * 0 = 0; rw [e0]
  | ⟨1, _⟩ => show win0_11.index t (1 : Fin 2) * 16000 + 1 * k.val = t.val * 16000 + k.val; rw [e1]; omega

end Array

section Total
variable (V : (c : Dev nD) → (b : Ref sig .tc) → Buf (Elt Ideal) ((c : Thread nD τ).loc b))

/-- The edge energy at entry `n` of the twelve arrays, as a function of a natural, zero outside the arrays. -/
def edgeN0 (c : Dev nD) (n : ℕ) : EReal :=
  if h : n < 4000000 then Cert.LibEnergy.edgeKer Ideal.div Cert.Spec.cHalf Cert.Spec.cTwo Cert.Spec.cFour Cert.Spec.cTwelve
    (arr0_0 V c (ix2 0 ⟨n, h⟩)) (arr0_1 V c (ix2 0 ⟨n, h⟩)) (arr0_2 V c (ix2 0 ⟨n, h⟩)) (arr0_3 V c (ix2 0 ⟨n, h⟩)) (arr0_4 V c (ix2 0 ⟨n, h⟩)) (arr0_5 V c (ix2 0 ⟨n, h⟩))
    (arr0_6 V c (ix2 0 ⟨n, h⟩)) (arr0_7 V c (ix2 0 ⟨n, h⟩)) (arr0_8 V c (ix2 0 ⟨n, h⟩)) (arr0_9 V c (ix2 0 ⟨n, h⟩)) (arr0_10 V c (ix2 0 ⟨n, h⟩)) (arr0_11 V c (ix2 0 ⟨n, h⟩))
  else 0

/-- The whole sum: the edge energies of all 4000000 entries. -/
def total0 (c : Dev nD) : EReal :=
  ∑ e : Fin 4000000, Cert.LibEnergy.edgeKer Ideal.div Cert.Spec.cHalf Cert.Spec.cTwo Cert.Spec.cFour Cert.Spec.cTwelve
    (arr0_0 V c (ix2 0 e)) (arr0_1 V c (ix2 0 e)) (arr0_2 V c (ix2 0 e)) (arr0_3 V c (ix2 0 e)) (arr0_4 V c (ix2 0 e)) (arr0_5 V c (ix2 0 e))
    (arr0_6 V c (ix2 0 e)) (arr0_7 V c (ix2 0 e)) (arr0_8 V c (ix2 0 e)) (arr0_9 V c (ix2 0 e)) (arr0_10 V c (ix2 0 e)) (arr0_11 V c (ix2 0 e))

/-- A tile's sum reads the arrays at entries 16000 t, …, 16000 t + 15999. -/
theorem tile0_eq (c : Dev nD) (t : Fin cfg0.N) :
    tile0 V c t = ∑ k : Fin 16000, edgeN0 V c (t.val * 16000 + k.val) := by
  unfold tile0
  refine Finset.sum_congr rfl fun k _ => ?_
  rw [xb0_0_apply, xb0_1_apply, xb0_2_apply, xb0_3_apply, xb0_4_apply, xb0_5_apply, xb0_6_apply, xb0_7_apply, xb0_8_apply, xb0_9_apply, xb0_10_apply, xb0_11_apply]
  unfold edgeN0
  rw [dif_pos (lane_lt0 t k)]

/-- The 250 tiles' sums add up to the sum over all 4000000 entries: blocks of consecutive entries. -/
theorem sum_tiles0_eq (c : Dev nD) : ∑ t : Fin cfg0.N, tile0 V c t = total0 V c := by
  have h1 : ∑ t : Fin cfg0.N, tile0 V c t
      = ∑ t : Fin 250, ∑ k : Fin 16000, edgeN0 V c (t.val * 16000 + k.val) :=
    Fintype.sum_equiv (finCongr N0_eq) _ _ (fun t => tile0_eq V c t)
  rw [h1, Cert.LibEnergy.sum_blocks 250 16000 (edgeN0 V c)]
  unfold total0
  refine Finset.sum_congr rfl fun e _ => ?_
  unfold edgeN0
  rw [dif_pos e.isLt]

/-- The last grid point. -/
abbrev tLast0 : Fin cfg0.N := ⟨249, lt_of_lt_of_eq (by decide : 249 < 250) N0_eq.symm⟩

/-- What the one write-back (at the last point) writes is the whole sum at the result block's one index: the result
    block received the accumulator, which held the sum of all the tiles' sums. -/
theorem flushed0_12_eq (c : Dev nD) (t : Fin cfg0.N) (hf : (cfg0.win 12).flush t = true) :
    (dat0 V c).flushed 12 t
      = ((cfg0.win 12).blk t).view.read (Elt Ideal) (fun _ => total0 V c) := by
  have hN : t.val < 250 := lt_of_lt_of_eq t.isLt N0_eq
  have h1 : t.val % 250 = 249 := (flush0_12 t).mp hf
  have h0 : ¬t.val % 250 = 0 := by omega
  obtain rfl : t = tLast0 := Fin.ext (by show t.val = 249; omega)
  have hz' : (fun a => win0_12.index tLast0 a * main_v72.ty.shape.size a) = fun _ => 0 :=
    funext fun a => by fin_cases a <;> decide +kernel
  refine Eq.trans ?_ (Memref.read_access_unit_zero (Elt Ideal) main_v72 hz' (fun a => by rw [congrFun hz' a]; simp) _).symm
  funext y
  show (cfg0.win 12).cut (grid0.coords tLast0) ((dat0 V c).after 12 tLast0) y = _
  rw [after0_12, outAt0_C V c tLast0 h0 h1, outC0_eq, ← accC0_eq V c tLast0 h0 h1, ← accAt0_C V c tLast0 h0 h1]
  refine (accAt0_last V c _ tLast0.val tLast0.isLt (by have hNe : cfg0.N = 250 := N0_eq; show 249 = cfg0.N - 1; omega)).trans ?_
  rw [sum_tiles0_eq]

/-- So the result array ends holding the total strain energy: the sum over all entries of the edge energy. -/
theorem arrAt0_total (c : Dev nD) :
    (dat0 (F := Ideal) V c).arrAt 12 cfg0.N = fun _ => total0 V c :=
  (dat0 V c).arrAt_eq_of_cover 12 (fun _ => total0 V c) (flushed0_12_eq V c) fun i =>
    ⟨tLast0, (flush0_12 tLast0).mpr rfl, by
      show i ∈ ((View.whole main_v72).slice (win0_12.rect tLast0)).set
      rw [View.set_slice_whole, Rect.mem_set_unit]
      intro a
      have h0 : (i 0 : Nat) < 1 := (i 0).isLt
      have h1 : (i 1 : Nat) < 1 := (i 1).isLt
      match a with
      | ⟨0, _⟩ =>
        show win0_12.index tLast0 0 * win0_12.size 0 ≤ (i 0 : Nat) ∧ (i 0 : Nat) < win0_12.index tLast0 0 * win0_12.size 0 + win0_12.xsize (grid0.coords tLast0) 0
        rw [show win0_12.index tLast0 0 * win0_12.size 0 = 0 from by decide +kernel, show win0_12.xsize (grid0.coords tLast0) 0 = 1 from by decide +kernel]; omega
      | ⟨1, _⟩ =>
        show win0_12.index tLast0 1 * win0_12.size 1 ≤ (i 1 : Nat) ∧ (i 1 : Nat) < win0_12.index tLast0 1 * win0_12.size 1 + win0_12.xsize (grid0.coords tLast0) 1
        rw [show win0_12.index tLast0 1 * win0_12.size 1 = 0 from by decide +kernel, show win0_12.xsize (grid0.coords tLast0) 1 = 1 from by decide +kernel]; omega⟩

end Total

/-- The first launch's result array after the launch, in terms of the twelve arrays the launch found: the sum over the
    4000000 entries of the edge energy of the entry's twelve values. -/
theorem arrAt0_value (V : (c : Dev nD) → (b : Ref sig .tc) → Buf (Elt Ideal) ((c : Thread nD τ).loc b)) (c : Dev nD) :
    (dat0 (F := Ideal) V c).arrAt 12 cfg0.N = fun _ => ∑ e : Fin 4000000, Cert.LibEnergy.edgeKer Ideal.div Cert.Spec.cHalf Cert.Spec.cTwo Cert.Spec.cFour Cert.Spec.cTwelve
      (V c main_v21 (ix2 0 e)) (V c main_v29 (ix2 0 e)) (V c main_v37 (ix2 0 e)) (V c main_v45 (ix2 0 e)) (V c main_v53 (ix2 0 e)) (V c main_v61 (ix2 0 e))
      (V c main_v64 (ix2 0 e)) (V c main_v67 (ix2 0 e)) (V c main_v68 (ix2 0 e)) (V c main_v69 (ix2 0 e)) (V c main_v70 (ix2 0 e)) (V c main_v71 (ix2 0 e)) :=
  (arrAt0_total V c).trans (funext fun _ => Finset.sum_congr rfl fun e _ => rfl)

end Cert.KernelIdeal.Frame

end
-- ==== Proof.Val1.lean ====
/-
  Second launch (the external work): the VALUE its result array ends holding.
  At every grid point the accumulator receives the sum, over the tile's 10000 rows and 3 columns, of
  the products force × displacement, added to what it held (zero at the first point); over the
  extended reals the 100 partial sums add up to the sum over all 1000000 rows, and the last point
  copies the accumulator to the 1×1 result array.
-/
import proofs.«151812_j63788854280708_1_alg».proof.Proof.R1.Frame
import proofs.«151812_j63788854280708_1_alg».proof.Proof.Spec
import proofs.«151812_j63788854280708_1_alg».proof.Proof.LibEnergy
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Pieces
variable {F : FTy → Type} [FloatOps F]
variable (V : (c : Dev nD) → (b : Ref sig .tc) → Buf (Elt F) ((c : Thread nD τ).loc b))

/-- The two offsets of a whole-buffer rectangle are zero. -/
theorem hzV1 : (![0, 0] : Fin 2 → Nat) = fun _ => 0 := funext fun a => by fin_cases a <;> rfl

/-- A middle point leaves in the accumulator what it held plus the tile's sum: its one covering store's payload,
    whose loads read the whole buffers. -/
theorem accB1_eq (c : Dev nD) (t : Fin cfg1.N) (h0 : ¬t.val % 100 = 0) (h1 : ¬t.val % 100 = 99) (xs : Vec F S1x1 .f32) :
    accB1 V c t h0 h1 xs = k1_pay2 (iblk1 V c 0 t) (iblk1 V c 1 t) xs := by
  unfold accB1
  rw [View.read_writes_eq_canon _ _ _ (scoverB1 V c t h0 h1 xs)]
  unfold runB1 kernelRun1_B
  dsimp only
  sl_unfold_words
  rw [View.canon_unit_zero hzV1]
  simp only [View.readAt_eq_ld, Memref.IsWhole.read_unread, View.ld_unit_zero (S := S10000x3) hzV1, View.ld_unit_zero (S := S1x1) hzV1]
  exact congrArg (k1_pay2 _ _) (Memref.IsWhole.read_unread (Val := Elt F) (Memref.isWhole_whole cc1_scratch0) xs)

/-- The first point stores the zero vector, reads it back, and leaves it plus the tile's sum. -/
theorem accA1_eq (c : Dev nD) (t : Fin cfg1.N) (h0 : t.val % 100 = 0) (h1 : ¬t.val % 100 = 99) :
    accA1 V c t h0 h1 = k1_pay2 (iblk1 V c 0 t) (iblk1 V c 1 t) (k1_pay1 (F := F)) := by
  unfold accA1
  rw [View.read_writes_eq_canon _ _ _ (scoverA1 V c t h0 h1)]
  unfold runA1 kernelRun1_A
  dsimp only
  sl_unfold_words
  rw [View.canon_cons_unit_zero (S := S1x1) hzV1, View.readCov_unit_zero (S := S1x1) _ hzV1]
  simp only [View.readAt_eq_ld, Memref.IsWhole.read_unread, View.ld_unit_zero (S := S10000x3) hzV1]

/-- The last point leaves the same in the accumulator as a middle point. -/
theorem accC1_eq (c : Dev nD) (t : Fin cfg1.N) (h0 : ¬t.val % 100 = 0) (h1 : t.val % 100 = 99) (xs : Vec F S1x1 .f32) :
    accC1 V c t h0 h1 xs = k1_pay2 (iblk1 V c 0 t) (iblk1 V c 1 t) xs := by
  unfold accC1
  rw [View.read_writes_eq_canon _ _ _ (scoverC1 V c t h0 h1 xs)]
  unfold runC1 kernelRun1_C
  dsimp only
  sl_unfold_words
  rw [View.canon_unit_zero hzV1]
  simp only [View.readAt_eq_ld, Memref.IsWhole.read_unread, View.ld_unit_zero (S := S10000x3) hzV1, View.ld_unit_zero (S := S1x1) hzV1]
  exact congrArg (k1_pay2 _ _) (Memref.IsWhole.read_unread (Val := Elt F) (Memref.isWhole_whole cc1_scratch0) xs)

/-- And the result block receives a load of the accumulator taken after that store: the same value. -/
theorem outC1_eq (c : Dev nD) (t : Fin cfg1.N) (h0 : ¬t.val % 100 = 0) (h1 : t.val % 100 = 99) (xs : Vec F S1x1 .f32) :
    outC1 V c t h0 h1 xs = k1_pay2 (iblk1 V c 0 t) (iblk1 V c 1 t) xs := by
  unfold outC1
  rw [View.read_writes_eq_canon _ _ _ (coverC1 V c t h0 h1 xs)]
  unfold runC1 kernelRun1_C
  dsimp only
  sl_unfold_words
  rw [View.canon_unit_zero hzV1, View.readCov_unit_zero (S := S1x1) _ hzV1]
  simp only [View.readAt_eq_ld, Memref.IsWhole.read_unread, View.ld_unit_zero (S := S10000x3) hzV1, View.ld_unit_zero (S := S1x1) hzV1]
  exact congrArg (k1_pay2 _ _) (Memref.IsWhole.read_unread (Val := Elt F) (Memref.isWhole_whole cc1_scratch0) xs)

end Pieces

section AtIdeal

/-- Over the extended reals the vector the reset stores reads zero. -/
theorem k1_pay1_apply (j : S1x1.Idx) : (k1_pay1 (F := Ideal)) j = 0 := by
  unfold k1_pay1
  rw [shapeCast_self]
  exact Ideal.ofBits_zero_f32

/-- Over the extended reals the update's payload reads: what the accumulator held, plus the sum over the tile's rows
    and columns of the entrywise products. Each reduction over one axis is the sum over that axis's coordinates, and the
    shape casts between them keep the row-major position. -/
theorem k1_pay2_apply (x0 x1 : Vec Ideal S10000x3 .f32) (xs : Vec Ideal S1x1 .f32) (j : S1x1.Idx) :
    (k1_pay2 (F := Ideal) x0 x1 xs) j = xs j + ∑ r : Fin 10000, ∑ k : Fin 3, x0 (ix2 r k) * x1 (ix2 r k) := by
  unfold k1_pay2
  rw [shapeCast_self, shapeCast_self, addf_apply]
  congr 1
  refine (shapeCast_apply _ _ j (ix1 (0 : Fin 1)) ?_).trans ?_
  · rw [Shape.rowMajor_val_one, Shape.rowMajor_val_two]
    have h0 : (j 0).val < 1 := (j 0).isLt
    have h1 : (j 1).val < 1 := (j 1).isLt
    show (0 : ℕ) = (j 0).val * 1 + (j 1).val
    omega
  refine (Ideal.multiReduction_add_single (φ := .f32) _ _ reduces_S10000x1_S1 _ _ _).trans ?_
  refine Finset.sum_congr rfl fun r _ => ?_
  refine (shapeCast_apply _ _ _ (ix1 r) ?_).trans ?_
  · rw [Shape.rowMajor_val_one, Shape.rowMajor_val_two]
    show r.val = r.val * 1 + 0
    omega
  refine (Ideal.multiReduction_add_single (φ := .f32) _ _ reduces_S10000x3_S10000 _ _ _).trans ?_
  refine Finset.sum_congr rfl fun k _ => ?_
  have e : (reduces_S10000x3_S10000.lift (ix1 r) k : S10000x3.Idx) = ix2 r k := by
    funext a
    match a with
    | ⟨0, _⟩ => rfl
    | ⟨1, _⟩ => rfl
  rw [mulf_apply]
  exact congrArg₂ (fun a b => x0 a * x1 b) e e

end AtIdeal

section Sum
variable (V : (c : Dev nD) → (b : Ref sig .tc) → Buf (Elt Ideal) ((c : Thread nD τ).loc b))

/-- The force tile and the displacement tile at grid point `t`, as 10000×3 vectors of extended reals. -/
abbrev fblk1 (c : Dev nD) (t : Fin cfg1.N) : Vec Ideal S10000x3 .f32 := iblk1 V c 0 t
abbrev ublk1 (c : Dev nD) (t : Fin cfg1.N) : Vec Ideal S10000x3 .f32 := iblk1 V c 1 t

/-- The sum, over a tile's rows and columns, of force × displacement at grid point `t`. -/
def tile1 (c : Dev nD) (t : Fin cfg1.N) : EReal :=
  ∑ r : Fin 10000, ∑ k : Fin 3, fblk1 V c t (ix2 r k) * ublk1 V c t (ix2 r k)

/-- The same as a function of the point's position, zero past the grid. -/
def tileN1 (c : Dev nD) (s : ℕ) : EReal := if h : s < cfg1.N then tile1 V c ⟨s, h⟩ else 0

theorem tileN1_of_lt (c : Dev nD) (s : ℕ) (h : s < cfg1.N) : tileN1 V c s = tile1 V c ⟨s, h⟩ := dif_pos h

/-- After the last point the accumulator holds the sum of all the tiles' sums. -/
theorem accAt1_last (c : Dev nD) (j : S1x1.Idx) (n : ℕ) (hN : n < cfg1.N) (hl : n = cfg1.N - 1) :
    accAt1 V c n hN j = ∑ t : Fin cfg1.N, tile1 V c t := by
  subst hl
  have h := Cert.LibEnergy.acc_last_eq_sum cfg1.N (tileN1 V c) (fun n hn => accAt1 V c n hn j) ?h0 ?hs hN
  · rw [h]
    exact Finset.sum_congr rfl fun t _ => tileN1_of_lt V c t.val t.isLt
  case h0 =>
    intro h
    have hA := accAt1_A V c ⟨0, h⟩ (Nat.zero_mod _) (by show ¬(0 : ℕ) % 100 = 99; decide)
    show accAt1 V c (⟨0, h⟩ : Fin cfg1.N).val _ j = _
    rw [hA, accA1_eq]
    refine (k1_pay2_apply (fblk1 V c ⟨0, h⟩) (ublk1 V c ⟨0, h⟩) (k1_pay1 (F := Ideal)) j).trans ?_
    rw [k1_pay1_apply, tileN1_of_lt V c 0 h]
    rfl
  case hs =>
    intro n h
    have hN' : n + 1 < 100 := lt_of_lt_of_eq h N1_eq
    have h0 : ¬(⟨n + 1, h⟩ : Fin cfg1.N).val % 100 = 0 := by show ¬(n + 1) % 100 = 0; omega
    rw [tileN1_of_lt V c (n + 1) h]
    by_cases h1 : (⟨n + 1, h⟩ : Fin cfg1.N).val % 100 = 99
    · have hC := accAt1_C V c ⟨n + 1, h⟩ h0 h1
      show accAt1 V c (⟨n + 1, h⟩ : Fin cfg1.N).val _ j = _
      rw [hC, accC1_eq]
      exact k1_pay2_apply (fblk1 V c ⟨n + 1, h⟩) (ublk1 V c ⟨n + 1, h⟩) _ j
    · have hB := accAt1_B V c ⟨n + 1, h⟩ h0 h1
      show accAt1 V c (⟨n + 1, h⟩ : Fin cfg1.N).val _ j = _
      rw [hB, accB1_eq]
      exact k1_pay2_apply (fblk1 V c ⟨n + 1, h⟩) (ublk1 V c ⟨n + 1, h⟩) _ j

end Sum

section Array
variable (V : (c : Dev nD) → (b : Ref sig .tc) → Buf (Elt Ideal) ((c : Thread nD τ).loc b))

/-- The printed index maps, decided over the grid: the input blocks at point `t` start at row block `t`, column block 0;
    the result block never moves. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- The two input arrays at the launch's entry, as 1000000×3 arrays of extended reals. -/
abbrev farr1 (c : Dev nD) : (⟨2, ![1000000, 3]⟩ : Shape).Idx → EReal := V c main_arg7
abbrev uarr1 (c : Dev nD) : (⟨2, ![1000000, 3]⟩ : Shape).Idx → EReal := V c main_v3

theorem row_lt1 (t : Fin cfg1.N) (r : Fin 10000) : t.val * 10000 + r.val < 1000000 := by
  have := lt_of_lt_of_eq t.isLt N1_eq; have := r.isLt; omega

/-- Entry (r, k) of the force tile at point `t` is entry (10000 t + r, k) of the force array. -/
theorem fblk1_apply (c : Dev nD) (t : Fin cfg1.N) (r : Fin 10000) (k : Fin 3) :
    fblk1 V c t (ix2 r k) = farr1 V c (ix2 ⟨t.val * 10000 + r.val, row_lt1 t r⟩ k) := by
  obtain ⟨e0, e1, -, -, -, -⟩ := idx_facts1 t
  unfold fblk1 iblk1
  rw [View.read_apply]
  show V c main_arg7 _ = V c main_arg7 _
  congr 1
  funext a
  apply Fin.ext
  match a with
  | ⟨0, _⟩ => show win1_0.index t (0 : Fin 2) * 10000 + 1 * r.val = t.val * 10000 + r.val; rw [e0]; omega
  | ⟨1, _⟩ => show win1_0.index t (1 : Fin 2) * 3 + 1 * k.val = k.val; rw [e1]; omega

/-- The same for the displacement tile. -/
theorem ublk1_apply (c : Dev nD) (t : Fin cfg1.N) (r : Fin 10000) (k : Fin 3) :
    ublk1 V c t (ix2 r k) = uarr1 V c (ix2 ⟨t.val * 10000 + r.val, row_lt1 t r⟩ k) := by
  obtain ⟨-, -, e0, e1, -, -⟩ := idx_facts1 t
  unfold ublk1 iblk1
  rw [View.read_apply]
  show V c main_v3 _ = V c main_v3 _
  congr 1
  funext a
  apply Fin.ext
  match a with
  | ⟨0, _⟩ => show win1_1.index t (0 : Fin 2) * 10000 + 1 * r.val = t.val * 10000 + r.val; rw [e0]; omega
  | ⟨1, _⟩ => show win1_1.index t (1 : Fin 2) * 3 + 1 * k.val = k.val; rw [e1]; omega

end Array

section Total
variable (V : (c : Dev nD) → (b : Ref sig .tc) → Buf (Elt Ideal) ((c : Thread nD τ).loc b))

/-- The product force × displacement at row `n`, column `j`, as a function of naturals, zero outside the array. -/
def prodN1 (c : Dev nD) (n j : ℕ) : EReal :=
  if h : n < 1000000 ∧ j < 3 then farr1 V c (ix2 ⟨n, h.1⟩ ⟨j, h.2⟩) * uarr1 V c (ix2 ⟨n, h.1⟩ ⟨j, h.2⟩) else 0

/-- A tile's sum reads the arrays at rows 10000 t, …, 10000 t + 9999. -/
theorem tile1_eq (c : Dev nD) (t : Fin cfg1.N) :
    tile1 V c t = ∑ r : Fin 10000, ∑ k : Fin 3, prodN1 V c (t.val * 10000 + r.val) k.val := by
  unfold tile1
  refine Finset.sum_congr rfl fun r _ => Finset.sum_congr rfl fun k _ => ?_
  rw [fblk1_apply, ublk1_apply]
  unfold prodN1
  rw [dif_pos ⟨row_lt1 t r, k.isLt⟩]

/-- The 100 tiles' sums add up to the sum over all 1000000 rows: blocks of consecutive rows. -/
theorem sum_tiles1_eq_work (c : Dev nD) :
    ∑ t : Fin cfg1.N, tile1 V c t = Cert.Spec.work (farr1 V c) (uarr1 V c) := by
  have h1 : ∑ t : Fin cfg1.N, tile1 V c t
      = ∑ t : Fin 100, ∑ r : Fin 10000, ∑ k : Fin 3, prodN1 V c (t.val * 10000 + r.val) k.val :=
    Fintype.sum_equiv (finCongr N1_eq) _ _ (fun t => tile1_eq V c t)
  rw [h1, Cert.LibEnergy.sum_blocks_rows 100 10000 3 (prodN1 V c)]
  unfold Cert.Spec.work
  refine Finset.sum_congr rfl fun n _ => Finset.sum_congr rfl fun j _ => ?_
  unfold prodN1
  rw [dif_pos ⟨n.isLt, j.isLt⟩]

/-- The last grid point. -/
abbrev tLast1 : Fin cfg1.N := ⟨99, lt_of_lt_of_eq (by decide : 99 < 100) N1_eq.symm⟩

/-- What the one write-back (at the last point) writes is the whole sum at the result block's one index: the result
    block received the accumulator, which held the sum of all the tiles' sums. -/
theorem flushed1_2_eq (c : Dev nD) (t : Fin cfg1.N) (hf : (cfg1.win 2).flush t = true) :
    (dat1 V c).flushed 2 t
      = ((cfg1.win 2).blk t).view.read (Elt Ideal) (fun _ => Cert.Spec.work (farr1 V c) (uarr1 V c)) := by
  have hN : t.val < 100 := lt_of_lt_of_eq t.isLt N1_eq
  have h1 : t.val % 100 = 99 := (flush1_2 t).mp hf
  have h0 : ¬t.val % 100 = 0 := by omega
  obtain rfl : t = tLast1 := Fin.ext (by show t.val = 99; omega)
  have hz' : (fun a => win1_2.index tLast1 a * main_v74.ty.shape.size a) = fun _ => 0 :=
    funext fun a => by fin_cases a <;> decide
  refine Eq.trans ?_ (Memref.read_access_unit_zero (Elt Ideal) main_v74 hz' (fun a => by rw [congrFun hz' a]; simp) _).symm
  funext y
  show (cfg1.win 2).cut (grid1.coords tLast1) ((dat1 V c).after 2 tLast1) y = _
  rw [after1_2, outAt1_C V c tLast1 h0 h1, outC1_eq, ← accC1_eq V c tLast1 h0 h1, ← accAt1_C V c tLast1 h0 h1]
  refine (accAt1_last V c _ tLast1.val tLast1.isLt (by have hNe : cfg1.N = 100 := N1_eq; show 99 = cfg1.N - 1; omega)).trans ?_
  rw [sum_tiles1_eq_work]

/-- So the result array ends holding the external work: the sum over nodes and components of force × displacement. -/
theorem arrAt1_value (c : Dev nD) :
    (dat1 (F := Ideal) V c).arrAt 2 cfg1.N = fun _ => Cert.Spec.work (V c main_arg7) (V c main_v3) :=
  (dat1 V c).arrAt_eq_of_cover 2 (fun _ => Cert.Spec.work (farr1 V c) (uarr1 V c)) (flushed1_2_eq V c) fun i =>
    ⟨tLast1, (flush1_2 tLast1).mpr rfl, by
      show i ∈ ((View.whole main_v74).slice (win1_2.rect tLast1)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index tLast1 0 * win1_2.size 0 ≤ (i 0 : Nat) ∧ (i 0 : Nat) < win1_2.index tLast1 0 * win1_2.size 0 + win1_2.xsize (grid1.coords tLast1) 0
        rw [show win1_2.index tLast1 0 * win1_2.size 0 = 0 from by decide +kernel, show win1_2.xsize (grid1.coords tLast1) 0 = 1 from by decide +kernel]; omega
      | ⟨1, _⟩ =>
        show win1_2.index tLast1 1 * win1_2.size 1 ≤ (i 1 : Nat) ∧ (i 1 : Nat) < win1_2.index tLast1 1 * win1_2.size 1 + win1_2.xsize (grid1.coords tLast1) 1
        rw [show win1_2.index tLast1 1 * win1_2.size 1 = 0 from by decide +kernel, show win1_2.xsize (grid1.coords tLast1) 1 = 1 from by decide +kernel]; omega⟩

end Total

end Cert.KernelIdeal.Frame

end
-- ==== Proof.Bridge.lean ====
/-
  The two programs return the same number. The kernel program's result buffer ends at the closing host
  operations applied to the two launches' totals; each total is the specification's sum of the entry
  arrays the host prefix prepared; the reference's result is the same expression of the same sums.
-/
import proofs.«151812_j63788854280708_1_alg».proof.Proof.HostK
import proofs.«151812_j63788854280708_1_alg».proof.Proof.RefVal
import proofs.«151812_j63788854280708_1_alg».proof.Proof.Val0
import proofs.«151812_j63788854280708_1_alg».proof.Proof.Val1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From memories that agree on the eleven arguments, the reference's result term is the contents the kernel
    program's result buffer ends with. -/
theorem result_bridge (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10)) :
    Cert.ReferenceIdeal.Value.res_main_v111 (F := Ideal) m' c = W5 m ρ c (Proc.devRef .tc main_v81) := by
  rw [Cert.ReferenceIdeal.Read.val_main_v111_eq, h0, h1, h2, h3, h4, h5, h6, h7, h8, h9, h10]
  funext i
  exact (Cert.ReferenceIdeal.RefValue.result_at _ _ _ _ _ _ _ _ _ _ _ i).trans
    (W5_result_at m ρ c i (arrAt0_value (V1 m ρ) c) (arrAt1_value (V3 m ρ) c)).symm

end Cert.KernelIdeal.Frame

end
-- ==== Proof.lean ====
/-
  The certificate. Both kernel programs run to the end without a fault and leave their arguments unchanged:
  @main is followed segment by segment — host operations, the edge-energy launch, a reshape, the
  external-work launch, the closing host operations —, each launch's scratch accumulator carried from grid
  point to grid point. The reference is a host program and runs as its operations compose. The idealization
  rewrote nothing. At the extended reals the two results are one number: each launch's accumulator is the sum
  of its tiles' sums, hence of all entries; the kernel's per-edge energy differs from the reference's only in
  the grouping of three products and in writing a negation as a difference from zero; the column-wise and the
  row-wise table lookups select the same clamped row; the closing operations are the same on both sides.
-/
import proofs.«151812_j63788854280708_1_alg».proof.Defs
import proofs.«151812_j63788854280708_1_alg».proof.Proof.Gen.Kernel
import proofs.«151812_j63788854280708_1_alg».proof.Proof.Gen.KernelIdeal
import proofs.«151812_j63788854280708_1_alg».proof.Proof.Gen.ReferenceIdeal
import proofs.«151812_j63788854280708_1_alg».proof.Proof.Gen.Pre_finite_inputs
import proofs.«151812_j63788854280708_1_alg».proof.Proof.Gen.ReferenceIdeal.Run
import proofs.«151812_j63788854280708_1_alg».proof.Proof.Bits.Run
import proofs.«151812_j63788854280708_1_alg».proof.Proof.Run
import proofs.«151812_j63788854280708_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame (F := Bits) m ρ
theorem frame_ki : Cert.frame_KernelIdeal := fun m ρ _ => Cert.KernelIdeal.Frame.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.KernelIdeal.Frame.W5 m ρ c (Proc.devRef .tc Cert.KernelIdeal.main_v81),
    Cert.KernelIdeal.Frame.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  exact Cert.KernelIdeal.Frame.result_bridge m ρ m' c a0 a1 a2 a3 a4 a5 a6 a7 a8 a9 a10

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
